-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x64 : Shape := ⟨2, ![400000, 64]⟩
abbrev S2x1500000 : Shape := ⟨2, ![2, 1500000]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S400000x64 : S_.BroadcastsInDim S400000x64 (![] : Fin 0 → Fin S400000x64.rank)
  reducesTo_S400000x64_S_d0_1 : S400000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S2 .f32) (main_v98 : IVec S_ 1) (main_v101 : IVec S32x2 1) (main_c_39 : IVec S_ 1) : IVec S_ 1 :=
  let main_v102 : IVec S_ 1 := (fun x v => Host.reduce IntOp.andi x v reducesTo_S32x2_S_d0_1 h_S_) main_v101 main_c_39
  let main_v103 : IVec S_ 1 := andi main_v98 main_v102
  let main_v104 : FVec F S2 .f32 := Host.absf main_arg23
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  main_v108

def fn_part5 {F : FTy → Type} [FloatOps F] (main_arg20 : FVec F S32 .f32) (main_arg21 : FVec F S32x32 .f32) (main_arg22 : FVec F S32x2 .f32) (main_arg23 : FVec F S2 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x32 .f32 := Host.absf main_arg21
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32x2 .f32 := Host.absf main_arg22
  let main_cst_38 : FVec F S_ .f32 := constant S_ .f32 0x7F800000#32
  let main_v100 : FVec F S32x2 .f32 := broadcastInDim S32x2 ![] bcast_S_S32x2 main_cst_38
  let main_v101 : IVec S32x2 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S32x32 .f32) (main_arg17 : FVec F S32 .f32) (main_arg18 : FVec F S32x32 .f32) (main_arg19 : FVec F S32x32 .f32) (main_arg20 : FVec F S32 .f32) (main_arg21 : FVec F S32x32 .f32) (main_arg22 : FVec F S32x2 .f32) (main_arg23 : FVec F S2 .f32) (main_v63 : IVec S_ 1) (main_v67 : IVec S_ 1) : IVec S_ 1 :=
  let main_v68 : IVec S_ 1 := andi main_v63 main_v67
  let main_v69 : FVec F S32x32 .f32 := Host.absf main_arg16
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg18
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32x32 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32x32 .f32) (main_arg20 : FVec F S32 .f32) (main_arg21 : FVec F S32x32 .f32) (main_arg22 : FVec F S32x2 .f32) (main_arg23 : FVec F S2 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg15
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S64x32 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32x32 .f32) (main_arg20 : FVec F S32 .f32) (main_arg21 : FVec F S32x32 .f32) (main_arg22 : FVec F S32x2 .f32) (main_arg23 : FVec F S2 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg12
  let main_cst_18 : FVec F S_ .f32 := constant S_ .f32 0x7F800000#32
  let main_v50 : FVec F S32x32 .f32 := broadcastInDim S32x32 ![] bcast_S_S32x32 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S64x32 .f32) (main_arg7 : FVec F S64x32 .f32) (main_arg8 : FVec F S32 .f32) (main_arg9 : FVec F S64x32 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32x32 .f32) (main_arg20 : FVec F S32 .f32) (main_arg21 : FVec F S32x32 .f32) (main_arg22 : FVec F S32x2 .f32) (main_arg23 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S400000x64 .f32) (main_arg1 : FVec F S400000x64 .f32) (main_arg2 : IVec S2x1500000 32) (main_arg3 : IVec S2x1500000 32) (main_arg4 : FVec F S64x32 .f32) (main_arg5 : FVec F S32 .f32) (main_arg6 : FVec F S64x32 .f32) (main_arg7 : FVec F S64x32 .f32) (main_arg8 : FVec F S32 .f32) (main_arg9 : FVec F S64x32 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32x32 .f32) (main_arg20 : FVec F S32 .f32) (main_arg21 : FVec F S32x32 .f32) (main_arg22 : FVec F S32x2 .f32) (main_arg23 : FVec F S2 .f32) : IVec S_ 1 :=
  let main_v0 : FVec F S400000x64 .f32 := Host.absf main_arg0
  let main_cst : FVec F S_ .f32 := constant S_ .f32 0x7F800000#32
  let main_v1 : FVec F S400000x64 .f32 := broadcastInDim S400000x64 ![] bcast_S_S400000x64 main_cst
  let main_v2 : IVec S400000x64 1 := cmpf .olt main_v0 main_v1
  let main_c : IVec S_ 1 := constantI S_ 1 1#1
  let main_v3 : IVec S_ 1 := (fun x v => Host.reduce IntOp.andi x v reducesTo_S400000x64_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S400000x64 : Shape := ⟨2, ![400000, 64]⟩
abbrev S2x1500000 : Shape := ⟨2, ![2, 1500000]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1500000 : Shape := ⟨2, ![1, 1500000]⟩
abbrev S1500000 : Shape := ⟨1, ![1500000]⟩
abbrev S_ : Shape := ⟨0, ![]⟩
abbrev S1500000x1 : Shape := ⟨2, ![1500000, 1]⟩
abbrev S400000x1 : Shape := ⟨2, ![400000, 1]⟩
abbrev S1500000x64 : Shape := ⟨2, ![1500000, 64]⟩
abbrev S1x32 : Shape := ⟨2, ![1, 32]⟩
abbrev S400000x32 : Shape := ⟨2, ![400000, 32]⟩
abbrev S20000x64 : Shape := ⟨2, ![20000, 64]⟩
abbrev S20000x1 : Shape := ⟨2, ![20000, 1]⟩
abbrev S20000x32 : Shape := ⟨2, ![20000, 32]⟩
abbrev S1500000x32 : Shape := ⟨2, ![1500000, 32]⟩
abbrev S1x2 : Shape := ⟨2, ![1, 2]⟩
abbrev S400000x2 : Shape := ⟨2, ![400000, 2]⟩
abbrev S20000x2 : Shape := ⟨2, ![20000, 2]⟩

abbrev nBuf : Space → Nat
  | .hbm => 121
  | .vmem => 61
  | .smem => 0
  | _ => 0

abbrev bufTy : (tb : Table) → Fin (tcTables nBuf tb) → BufTy
  | .hbm, ⟨0, _⟩ => ⟨S400000x64, .f32⟩
  | .hbm, ⟨1, _⟩ => ⟨S400000x64, .f32⟩
  | .hbm, ⟨2, _⟩ => ⟨S2x1500000, .i32⟩
  | .hbm, ⟨3, _⟩ => ⟨S2x1500000, .i32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S64x32, .f32⟩
  | .hbm, ⟨8, _⟩ => ⟨S32, .f32⟩
  | .hbm, ⟨9, _⟩ => ⟨S64x32, .f32⟩
  | .hbm, ⟨10, _⟩ => ⟨S32x32, .f32⟩
  | .hbm, ⟨11, _⟩ => ⟨S32, .f32⟩
  | .hbm, ⟨12, _⟩ => ⟨S32x32, .f32⟩
  | .hbm, ⟨13, _⟩ => ⟨S32x32, .f32⟩
  | .hbm, ⟨14, _⟩ => ⟨S32, .f32⟩
  | .hbm, ⟨15, _⟩ => ⟨S32x32, .f32⟩
  | .hbm, ⟨16, _⟩ => ⟨S32x32, .f32⟩
  | .hbm, ⟨17, _⟩ => ⟨S32, .f32⟩
  | .hbm, ⟨18, _⟩ => ⟨S32x32, .f32⟩
  | .hbm, ⟨19, _⟩ => ⟨S32x32, .f32⟩
  | .hbm, ⟨20, _⟩ => ⟨S32, .f32⟩
  | .hbm, ⟨21, _⟩ => ⟨S32x32, .f32⟩
  | .hbm, ⟨22, _⟩ => ⟨S32x2, .f32⟩
  | .hbm, ⟨23, _⟩ => ⟨S2, .f32⟩
  | .hbm, ⟨24, _⟩ => ⟨S1x1500000, .i32⟩
  | .hbm, ⟨25, _⟩ => ⟨S1500000, .i32⟩
  | .hbm, ⟨26, _⟩ => ⟨S1x1500000, .i32⟩
  | .hbm, ⟨27, _⟩ => ⟨S1500000, .i32⟩
  | .hbm, ⟨28, _⟩ => ⟨S1x1500000, .i32⟩
  | .hbm, ⟨29, _⟩ => ⟨S1500000, .i32⟩
  | .hbm, ⟨30, _⟩ => ⟨S1x1500000, .i32⟩
  | .hbm, ⟨31, _⟩ => ⟨S1500000, .i32⟩
  | .hbm, ⟨32, _⟩ => ⟨S_, .f32⟩
  | .hbm, ⟨33, _⟩ => ⟨S1500000x1, .f32⟩
  | .hbm, ⟨34, _⟩ => ⟨S_, .f32⟩
  | .hbm, ⟨35, _⟩ => ⟨S400000x1, .f32⟩
  | .hbm, ⟨36, _⟩ => ⟨S1500000x1, .i32⟩
  | .hbm, ⟨37, _⟩ => ⟨S400000x1, .f32⟩
  | .hbm, ⟨38, _⟩ => ⟨S_, .f32⟩
  | .hbm, ⟨39, _⟩ => ⟨S1500000x1, .f32⟩
  | .hbm, ⟨40, _⟩ => ⟨S_, .f32⟩
  | .hbm, ⟨41, _⟩ => ⟨S400000x1, .f32⟩
  | .hbm, ⟨42, _⟩ => ⟨S1500000x1, .i32⟩
  | .hbm, ⟨43, _⟩ => ⟨S400000x1, .f32⟩
  | .hbm, ⟨44, _⟩ => ⟨S_, .i32⟩
  | .hbm, ⟨45, _⟩ => ⟨S1500000, .i32⟩
  | .hbm, ⟨46, _⟩ => ⟨S1500000, .i1⟩
  | .hbm, ⟨47, _⟩ => ⟨S_, .i32⟩
  | .hbm, ⟨48, _⟩ => ⟨S1500000, .i32⟩
  | .hbm, ⟨49, _⟩ => ⟨S1500000, .i32⟩
  | .hbm, ⟨50, _⟩ => ⟨S1500000, .i32⟩
  | .hbm, ⟨51, _⟩ => ⟨S1500000x1, .i32⟩
  | .hbm, ⟨52, _⟩ => ⟨S1500000x64, .f32⟩
  | .hbm, ⟨53, _⟩ => ⟨S_, .f32⟩
  | .hbm, ⟨54, _⟩ => ⟨S400000x64, .f32⟩
  | .hbm, ⟨55, _⟩ => ⟨S1500000x1, .i32⟩
  | .hbm, ⟨56, _⟩ => ⟨S400000x64, .f32⟩
  | .hbm, ⟨57, _⟩ => ⟨S1x32, .f32⟩
  | .hbm, ⟨58, _⟩ => ⟨S400000x32, .f32⟩
  | .hbm, ⟨59, _⟩ => ⟨S_, .i32⟩
  | .hbm, ⟨60, _⟩ => ⟨S1500000, .i32⟩
  | .hbm, ⟨61, _⟩ => ⟨S1500000, .i1⟩
  | .hbm, ⟨62, _⟩ => ⟨S_, .i32⟩
  | .hbm, ⟨63, _⟩ => ⟨S1500000, .i32⟩
  | .hbm, ⟨64, _⟩ => ⟨S1500000, .i32⟩
  | .hbm, ⟨65, _⟩ => ⟨S1500000, .i32⟩
  | .hbm, ⟨66, _⟩ => ⟨S1500000x1, .i32⟩
  | .hbm, ⟨67, _⟩ => ⟨S1500000x64, .f32⟩
  | .hbm, ⟨68, _⟩ => ⟨S_, .f32⟩
  | .hbm, ⟨69, _⟩ => ⟨S400000x64, .f32⟩
  | .hbm, ⟨70, _⟩ => ⟨S1500000x1, .i32⟩
  | .hbm, ⟨71, _⟩ => ⟨S400000x64, .f32⟩
  | .hbm, ⟨72, _⟩ => ⟨S1x32, .f32⟩
  | .hbm, ⟨73, _⟩ => ⟨S400000x32, .f32⟩
  | .hbm, ⟨74, _⟩ => ⟨S_, .i32⟩
  | .hbm, ⟨75, _⟩ => ⟨S1500000, .i32⟩
  | .hbm, ⟨76, _⟩ => ⟨S1500000, .i1⟩
  | .hbm, ⟨77, _⟩ => ⟨S_, .i32⟩
  | .hbm, ⟨78, _⟩ => ⟨S1500000, .i32⟩
  | .hbm, ⟨79, _⟩ => ⟨S1500000, .i32⟩
  | .hbm, ⟨80, _⟩ => ⟨S1500000, .i32⟩
  | .hbm, ⟨81, _⟩ => ⟨S1500000x1, .i32⟩
  | .hbm, ⟨82, _⟩ => ⟨S1500000x32, .f32⟩
  | .hbm, ⟨83, _⟩ => ⟨S_, .f32⟩
  | .hbm, ⟨84, _⟩ => ⟨S400000x32, .f32⟩
  | .hbm, ⟨85, _⟩ => ⟨S1500000x1, .i32⟩
  | .hbm, ⟨86, _⟩ => ⟨S400000x32, .f32⟩
  | .hbm, ⟨87, _⟩ => ⟨S1x32, .f32⟩
  | .hbm, ⟨88, _⟩ => ⟨S400000x32, .f32⟩
  | .hbm, ⟨89, _⟩ => ⟨S_, .i32⟩
  | .hbm, ⟨90, _⟩ => ⟨S1500000, .i32⟩
  | .hbm, ⟨91, _⟩ => ⟨S1500000, .i1⟩
  | .hbm, ⟨92, _⟩ => ⟨S_, .i32⟩
  | .hbm, ⟨93, _⟩ => ⟨S1500000, .i32⟩
  | .hbm, ⟨94, _⟩ => ⟨S1500000, .i32⟩
  | .hbm, ⟨95, _⟩ => ⟨S1500000, .i32⟩
  | .hbm, ⟨96, _⟩ => ⟨S1500000x1, .i32⟩
  | .hbm, ⟨97, _⟩ => ⟨S1500000x32, .f32⟩
  | .hbm, ⟨98, _⟩ => ⟨S_, .f32⟩
  | .hbm, ⟨99, _⟩ => ⟨S400000x32, .f32⟩
  | .hbm, ⟨100, _⟩ => ⟨S1500000x1, .i32⟩
  | .hbm, ⟨101, _⟩ => ⟨S400000x32, .f32⟩
  | .hbm, ⟨102, _⟩ => ⟨S1x32, .f32⟩
  | .hbm, ⟨103, _⟩ => ⟨S400000x32, .f32⟩
  | .hbm, ⟨104, _⟩ => ⟨S_, .i32⟩
  | .hbm, ⟨105, _⟩ => ⟨S1500000, .i32⟩
  | .hbm, ⟨106, _⟩ => ⟨S1500000, .i1⟩
  | .hbm, ⟨107, _⟩ => ⟨S_, .i32⟩
  | .hbm, ⟨108, _⟩ => ⟨S1500000, .i32⟩
  | .hbm, ⟨109, _⟩ => ⟨S1500000, .i32⟩
  | .hbm, ⟨110, _⟩ => ⟨S1500000, .i32⟩
  | .hbm, ⟨111, _⟩ => ⟨S1500000x1, .i32⟩
  | .hbm, ⟨112, _⟩ => ⟨S1500000x32, .f32⟩
  | .hbm, ⟨113, _⟩ => ⟨S_, .f32⟩
  | .hbm, ⟨114, _⟩ => ⟨S400000x32, .f32⟩
  | .hbm, ⟨115, _⟩ => ⟨S1500000x1, .i32⟩
  | .hbm, ⟨116, _⟩ => ⟨S400000x32, .f32⟩
  | .hbm, ⟨117, _⟩ => ⟨S1x32, .f32⟩
  | .hbm, ⟨118, _⟩ => ⟨S400000x32, .f32⟩
  | .hbm, ⟨119, _⟩ => ⟨S1x2, .f32⟩
  | .hbm, ⟨120, _⟩ => ⟨S400000x2, .f32⟩
  | .local _ .vmem, ⟨0, _⟩ => ⟨S20000x64, .f32⟩
  | .local _ .vmem, ⟨1, _⟩ => ⟨S20000x64, .f32⟩
  | .local _ .vmem, ⟨2, _⟩ => ⟨S20000x1, .f32⟩
  | .local _ .vmem, ⟨3, _⟩ => ⟨S20000x1, .f32⟩
  | .local _ .vmem, ⟨4, _⟩ => ⟨S20000x64, .f32⟩
  | .local _ .vmem, ⟨5, _⟩ => ⟨S20000x64, .f32⟩
  | .local _ .vmem, ⟨6, _⟩ => ⟨S64x32, .f32⟩
  | .local _ .vmem, ⟨7, _⟩ => ⟨S1x32, .f32⟩
  | .local _ .vmem, ⟨8, _⟩ => ⟨S64x32, .f32⟩
  | .local _ .vmem, ⟨9, _⟩ => ⟨S20000x32, .f32⟩
  | .local _ .vmem, ⟨10, _⟩ => ⟨S20000x32, .f32⟩
  | .local _ .vmem, ⟨11, _⟩ => ⟨S20000x64, .f32⟩
  | .local _ .vmem, ⟨12, _⟩ => ⟨S20000x64, .f32⟩
  | .local _ .vmem, ⟨13, _⟩ => ⟨S20000x1, .f32⟩
  | .local _ .vmem, ⟨14, _⟩ => ⟨S20000x1, .f32⟩
  | .local _ .vmem, ⟨15, _⟩ => ⟨S20000x64, .f32⟩
  | .local _ .vmem, ⟨16, _⟩ => ⟨S20000x64, .f32⟩
  | .local _ .vmem, ⟨17, _⟩ => ⟨S64x32, .f32⟩
  | .local _ .vmem, ⟨18, _⟩ => ⟨S1x32, .f32⟩
  | .local _ .vmem, ⟨19, _⟩ => ⟨S64x32, .f32⟩
  | .local _ .vmem, ⟨20, _⟩ => ⟨S20000x32, .f32⟩
  | .local _ .vmem, ⟨21, _⟩ => ⟨S20000x32, .f32⟩
  | .local _ .vmem, ⟨22, _⟩ => ⟨S20000x32, .f32⟩
  | .local _ .vmem, ⟨23, _⟩ => ⟨S20000x32, .f32⟩
  | .local _ .vmem, ⟨24, _⟩ => ⟨S20000x1, .f32⟩
  | .local _ .vmem, ⟨25, _⟩ => ⟨S20000x1, .f32⟩
  | .local _ .vmem, ⟨26, _⟩ => ⟨S20000x32, .f32⟩
  | .local _ .vmem, ⟨27, _⟩ => ⟨S20000x32, .f32⟩
  | .local _ .vmem, ⟨28, _⟩ => ⟨S32x32, .f32⟩
  | .local _ .vmem, ⟨29, _⟩ => ⟨S1x32, .f32⟩
  | .local _ .vmem, ⟨30, _⟩ => ⟨S32x32, .f32⟩
  | .local _ .vmem, ⟨31, _⟩ => ⟨S20000x32, .f32⟩
  | .local _ .vmem, ⟨32, _⟩ => ⟨S20000x32, .f32⟩
  | .local _ .vmem, ⟨33, _⟩ => ⟨S20000x32, .f32⟩
  | .local _ .vmem, ⟨34, _⟩ => ⟨S20000x32, .f32⟩
  | .local _ .vmem, ⟨35, _⟩ => ⟨S20000x1, .f32⟩
  | .local _ .vmem, ⟨36, _⟩ => ⟨S20000x1, .f32⟩
  | .local _ .vmem, ⟨37, _⟩ => ⟨S20000x32, .f32⟩
  | .local _ .vmem, ⟨38, _⟩ => ⟨S20000x32, .f32⟩
  | .local _ .vmem, ⟨39, _⟩ => ⟨S32x32, .f32⟩
  | .local _ .vmem, ⟨40, _⟩ => ⟨S1x32, .f32⟩
  | .local _ .vmem, ⟨41, _⟩ => ⟨S32x32, .f32⟩
  | .local _ .vmem, ⟨42, _⟩ => ⟨S20000x32, .f32⟩
  | .local _ .vmem, ⟨43, _⟩ => ⟨S20000x32, .f32⟩
  | .local _ .vmem, ⟨44, _⟩ => ⟨S20000x32, .f32⟩
  | .local _ .vmem, ⟨45, _⟩ => ⟨S20000x32, .f32⟩
  | .local _ .vmem, ⟨46, _⟩ => ⟨S20000x1, .f32⟩
  | .local _ .vmem, ⟨47, _⟩ => ⟨S20000x1, .f32⟩
  | .local _ .vmem, ⟨48, _⟩ => ⟨S20000x32, .f32⟩
  | .local _ .vmem, ⟨49, _⟩ => ⟨S20000x32, .f32⟩
  | .local _ .vmem, ⟨50, _⟩ => ⟨S32x32, .f32⟩
  | .local _ .vmem, ⟨51, _⟩ => ⟨S1x32, .f32⟩
  | .local _ .vmem, ⟨52, _⟩ => ⟨S32x32, .f32⟩
  | .local _ .vmem, ⟨53, _⟩ => ⟨S20000x32, .f32⟩
  | .local _ .vmem, ⟨54, _⟩ => ⟨S20000x32, .f32⟩
  | .local _ .vmem, ⟨55, _⟩ => ⟨S20000x32, .f32⟩
  | .local _ .vmem, ⟨56, _⟩ => ⟨S20000x32, .f32⟩
  | .local _ .vmem, ⟨57, _⟩ => ⟨S32x2, .f32⟩
  | .local _ .vmem, ⟨58, _⟩ => ⟨S1x2, .f32⟩
  | .local _ .vmem, ⟨59, _⟩ => ⟨S20000x2, .f32⟩
  | .local _ .vmem, ⟨60, _⟩ => ⟨S20000x2, .f32⟩
  | _, _ => ⟨S400000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_cst_0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_cst_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_5 : Ref sig .tc := ⟨.hbm, 59, rfl⟩
abbrev main_v28 : Ref sig .tc := ⟨.hbm, 60, rfl⟩
abbrev main_v29 : Ref sig .tc := ⟨.hbm, 61, rfl⟩
abbrev main_c_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_7 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_8 : Ref sig .tc := ⟨.hbm, 74, rfl⟩
abbrev main_v40 : Ref sig .tc := ⟨.hbm, 75, rfl⟩
abbrev main_v41 : Ref sig .tc := ⟨.hbm, 76, rfl⟩
abbrev main_c_9 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_10 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_11 : Ref sig .tc := ⟨.hbm, 89, rfl⟩
abbrev main_v52 : Ref sig .tc := ⟨.hbm, 90, rfl⟩
abbrev main_v53 : Ref sig .tc := ⟨.hbm, 91, rfl⟩
abbrev main_c_12 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_13 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_14 : Ref sig .tc := ⟨.hbm, 104, rfl⟩
abbrev main_v64 : Ref sig .tc := ⟨.hbm, 105, rfl⟩
abbrev main_v65 : Ref sig .tc := ⟨.hbm, 106, rfl⟩
abbrev main_c_15 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_16 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg3_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem3_1 : DmaSem sig := 60

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S20000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S20000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S20000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S20000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S20000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S32x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S20000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S20000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S20000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S20000x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S20000x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000x1 : S_.BroadcastsInDim S1500000x1 (![] : Fin 0 → Fin S1500000x1.rank)
  bcast_S_S400000x1 : S_.BroadcastsInDim S400000x1 (![] : Fin 0 → Fin S400000x1.rank)
  bcast_S1500000_S1500000x1_0 : S1500000.BroadcastsInDim S1500000x1 (![0] : Fin 1 → Fin S1500000x1.rank)
  bcast_S_S1500000 : S_.BroadcastsInDim S1500000 (![] : Fin 0 → Fin S1500000.rank)
  bcast_S_S400000x64 : S_.BroadcastsInDim S400000x64 (![] : Fin 0 → Fin S400000x64.rank)
  shapeCasts_S32_S1x32 : S32.ShapeCasts S1x32
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  broadcasts_S20000x1_S20000x64 : S20000x1.Broadcasts S20000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  inb_S20000x32_S20000x32_0_0 : ∀ a, (![0, 0] : Fin 2 → Nat) a + S20000x32.size a ≤ S20000x32.size a
  h_S20000x32 : 0 < S20000x32.numel
  bcast_S_S400000x32 : S_.BroadcastsInDim S400000x32 (![] : Fin 0 → Fin S400000x32.rank)
  shapeCasts_S20000x32_S20000x32 : S20000x32.ShapeCasts S20000x32
  broadcasts_S20000x1_S20000x32 : S20000x1.Broadcasts S20000x32
  inb_S32x32_S32x32_0_0 : ∀ a, (![0, 0] : Fin 2 → Nat) a + S32x32.size a ≤ S32x32.size a
  h_S32x32 : 0 < S32x32.numel
  shapeCasts_S2_S1x2 : S2.ShapeCasts S1x2
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S20000x2 : S1x2.Broadcasts S20000x2
  inb_S20000x2_S20000x2_0_0 : ∀ a, (![0, 0] : Fin 2 → Nat) a + S20000x2.size a ≤ S20000x2.size a
  h_S20000x2 : 0 < S20000x2.numel
  scatter_S400000x1_S1500000x1_S1500000x1_1_0_0_1_wf : ScatterDims.WF S400000x1 S1500000x1 S1500000x1 [1] [0] [0] 1
  gather_S400000x64_S1500000x1_S1500000x64_1_0_n_n_0_1_164_wf : GatherDims.WF S400000x64 S1500000x1 S1500000x64 [1] [0] [] [0] [] 1 ![1, 64]
  scatter_S400000x64_S1500000x1_S1500000x64_1_0_0_1_wf : ScatterDims.WF S400000x64 S1500000x1 S1500000x64 [1] [0] [0] 1
  dot_S20000x64_S64x32_S20000x32_1_0_0_1_n_n_wf : DotDims.WF S20000x64 S64x32 S20000x32 [1] [0] [0] [1] [] []
  gather_S400000x32_S1500000x1_S1500000x32_1_0_n_n_0_1_132_wf : GatherDims.WF S400000x32 S1500000x1 S1500000x32 [1] [0] [] [0] [] 1 ![1, 32]
  scatter_S400000x32_S1500000x1_S1500000x32_1_0_0_1_wf : ScatterDims.WF S400000x32 S1500000x1 S1500000x32 [1] [0] [0] 1
  dot_S20000x32_S32x32_S20000x32_1_0_0_1_n_n_wf : DotDims.WF S20000x32 S32x32 S20000x32 [1] [0] [0] [1] [] []
  dot_S20000x32_S32x2_S20000x2_1_0_0_1_n_n_wf : DotDims.WF S20000x32 S32x2 S20000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S400000x64.size a
  hwx0_0 : ∀ i : grid0.Coords, EltTy.bits .f32 = 32 ∨ (Rect.block (s := S400000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S400000x1.size a
  hwx0_1 : ∀ i : grid0.Coords, EltTy.bits .f32 = 32 ∨ (Rect.block (s := S400000x1) S20000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S400000x64.size a
  hwx0_2 : ∀ i : grid0.Coords, EltTy.bits .f32 = 32 ∨ (Rect.block (s := S400000x64) S20000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S20000x32.size a ≤ S400000x32.size a
  hwx0_6 : ∀ i : grid0.Coords, EltTy.bits .f32 = 32 ∨ (Rect.block (s := S400000x32) S20000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S400000x64.size a
  hwx1_0 : ∀ i : grid1.Coords, EltTy.bits .f32 = 32 ∨ (Rect.block (s := S400000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x1.size a ≤ S400000x1.size a
  hwx1_1 : ∀ i : grid1.Coords, EltTy.bits .f32 = 32 ∨ (Rect.block (s := S400000x1) S20000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S400000x64.size a
  hwx1_2 : ∀ i : grid1.Coords, EltTy.bits .f32 = 32 ∨ (Rect.block (s := S400000x64) S20000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S20000x32.size a ≤ S400000x32.size a
  hwx1_6 : ∀ i : grid1.Coords, EltTy.bits .f32 = 32 ∨ (Rect.block (s := S400000x32) S20000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S400000x32.size a
  hwx2_0 : ∀ i : grid2.Coords, EltTy.bits .f32 = 32 ∨ (Rect.block (s := S400000x32) S20000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x1.size a ≤ S400000x1.size a
  hwx2_1 : ∀ i : grid2.Coords, EltTy.bits .f32 = 32 ∨ (Rect.block (s := S400000x1) S20000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x32.size a ≤ S400000x32.size a
  hwx2_2 : ∀ i : grid2.Coords, EltTy.bits .f32 = 32 ∨ (Rect.block (s := S400000x32) S20000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S20000x32.size a ≤ S400000x32.size a
  hwx2_6 : ∀ i : grid2.Coords, EltTy.bits .f32 = 32 ∨ (Rect.block (s := S400000x32) S20000x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x32.size a ≤ S400000x32.size a
  hwx3_0 : ∀ i : grid3.Coords, EltTy.bits .f32 = 32 ∨ (Rect.block (s := S400000x32) S20000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20000x1.size a ≤ S400000x1.size a
  hwx3_1 : ∀ i : grid3.Coords, EltTy.bits .f32 = 32 ∨ (Rect.block (s := S400000x1) S20000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x32.size a ≤ S400000x32.size a
  hwx3_2 : ∀ i : grid3.Coords, EltTy.bits .f32 = 32 ∨ (Rect.block (s := S400000x32) S20000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x32.size a ≤ S32x32.size a
  hwx3_3 : ∀ i : grid3.Coords, EltTy.bits .f32 = 32 ∨ (Rect.block (s := S32x32) S32x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x32.size a ≤ S32x32.size a
  hwx3_5 : ∀ i : grid3.Coords, EltTy.bits .f32 = 32 ∨ (Rect.block (s := S32x32) S32x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S20000x32.size a ≤ S400000x32.size a
  hwx3_6 : ∀ i : grid3.Coords, EltTy.bits .f32 = 32 ∨ (Rect.block (s := S400000x32) S20000x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x32.size a ≤ S400000x32.size a
  hwx4_0 : ∀ i : grid4.Coords, EltTy.bits .f32 = 32 ∨ (Rect.block (s := S400000x32) S20000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S20000x1.size a ≤ S400000x1.size a
  hwx4_1 : ∀ i : grid4.Coords, EltTy.bits .f32 = 32 ∨ (Rect.block (s := S400000x1) S20000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x32.size a ≤ S400000x32.size a
  hwx4_2 : ∀ i : grid4.Coords, EltTy.bits .f32 = 32 ∨ (Rect.block (s := S400000x32) S20000x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x32.size a ≤ S32x32.size a
  hwx4_5 : ∀ i : grid4.Coords, EltTy.bits .f32 = 32 ∨ (Rect.block (s := S32x32) S32x32.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S20000x32.size a ≤ S400000x32.size a
  hwx4_6 : ∀ i : grid4.Coords, EltTy.bits .f32 = 32 ∨ (Rect.block (s := S400000x32) S20000x32.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x32.size a ≤ S400000x32.size a
  hwx5_0 : ∀ i : grid5.Coords, EltTy.bits .f32 = 32 ∨ (Rect.block (s := S400000x32) S20000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x2.size a ≤ S32x2.size a
  hwx5_1 : ∀ i : grid5.Coords, EltTy.bits .f32 = 32 ∨ (Rect.block (s := S32x2) S32x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2.size a ≤ S1x2.size a
  hwx5_2 : ∀ i : grid5.Coords, EltTy.bits .f32 = 32 ∨ (Rect.block (s := S1x2) S1x2.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S20000x2.size a ≤ S400000x2.size a
  hwx5_3 : ∀ i : grid5.Coords, EltTy.bits .f32 = 32 ∨ (Rect.block (s := S400000x2) S20000x2.size (cc5_transform_3 i) (hinb5_3 i)).WholeWords (EltTy.packing .f32)

variable [Facts₀]

def scatter_S400000x1_S1500000x1_S1500000x1_1_0_0_1 : ScatterDims S400000x1 S1500000x1 S1500000x1 where
  updateWindowDims := [1]
  insertedWindowDims := [0]
  scatterDimsToOperandDims := [0]
  indexVectorDim := 1
  wf := scatter_S400000x1_S1500000x1_S1500000x1_1_0_0_1_wf
def gather_S400000x64_S1500000x1_S1500000x64_1_0_n_n_0_1_164 : GatherDims S400000x64 S1500000x1 S1500000x64 where
  offsetDims := [1]
  collapsedSliceDims := [0]
  operandBatchingDims := []
  startIndicesBatchingDims := []
  startIndexMap := [0]
  indexVectorDim := 1
  sliceSizes := ![1, 64]
  wf := gather_S400000x64_S1500000x1_S1500000x64_1_0_n_n_0_1_164_wf
def scatter_S400000x64_S1500000x1_S1500000x64_1_0_0_1 : ScatterDims S400000x64 S1500000x1 S1500000x64 where
  updateWindowDims := [1]
  insertedWindowDims := [0]
  scatterDimsToOperandDims := [0]
  indexVectorDim := 1
  wf := scatter_S400000x64_S1500000x1_S1500000x64_1_0_0_1_wf
def dot_S20000x64_S64x32_S20000x32_1_0_0_1_n_n : DotDims S20000x64 S64x32 S20000x32 where
  lhsContracting := [1]
  rhsContracting := [0]
  lhsNonContracting := [0]
  rhsNonContracting := [1]
  lhsBatch := []
  rhsBatch := []
  wf := dot_S20000x64_S64x32_S20000x32_1_0_0_1_n_n_wf
def gather_S400000x32_S1500000x1_S1500000x32_1_0_n_n_0_1_132 : GatherDims S400000x32 S1500000x1 S1500000x32 where
  offsetDims := [1]
  collapsedSliceDims := [0]
  operandBatchingDims := []
  startIndicesBatchingDims := []
  startIndexMap := [0]
  indexVectorDim := 1
  sliceSizes := ![1, 32]
  wf := gather_S400000x32_S1500000x1_S1500000x32_1_0_n_n_0_1_132_wf
def scatter_S400000x32_S1500000x1_S1500000x32_1_0_0_1 : ScatterDims S400000x32 S1500000x1 S1500000x32 where
  updateWindowDims := [1]
  insertedWindowDims := [0]
  scatterDimsToOperandDims := [0]
  indexVectorDim := 1
  wf := scatter_S400000x32_S1500000x1_S1500000x32_1_0_0_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def dot_S20000x32_S32x2_S20000x2_1_0_0_1_n_n : DotDims S20000x32 S32x2 S20000x2 where
  lhsContracting := [1]
  rhsContracting := [0]
  lhsNonContracting := [0]
  rhsNonContracting := [1]
  lhsBatch := []
  rhsBatch := []
  wf := dot_S20000x32_S32x2_S20000x2_1_0_0_1_n_n_wf

abbrev win0_0 : Pipeline.Window sig grid0 :=
  Pipeline.Window.ofSpec (Memref.whole main_v25) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S20000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S20000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S20000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S20000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S20000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S20000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S20000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S20000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v61) S20000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S20000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S20000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S32x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S32x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S20000x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v73) S20000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S20000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S20000x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg19) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg21) S32x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S20000x32.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v75) S20000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg22) S32x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S20000x2.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S400000x64 : Shape := ⟨2, ![400000, 64]⟩
abbrev S2x1500000 : Shape := ⟨2, ![2, 1500000]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1500000 : Shape := ⟨2, ![1, 1500000]⟩
abbrev S1500000 : Shape := ⟨1, ![1500000]⟩
abbrev S_ : Shape := ⟨0, ![]⟩
abbrev S1500000x1 : Shape := ⟨2, ![1500000, 1]⟩
abbrev S1500000x64 : Shape := ⟨2, ![1500000, 64]⟩
abbrev S400000x1 : Shape := ⟨2, ![400000, 1]⟩
abbrev S400000x32 : Shape := ⟨2, ![400000, 32]⟩
abbrev S1x32 : Shape := ⟨2, ![1, 32]⟩
abbrev S1500000x32 : Shape := ⟨2, ![1500000, 32]⟩
abbrev S400000x2 : Shape := ⟨2, ![400000, 2]⟩
abbrev S1x2 : Shape := ⟨2, ![1, 2]⟩

abbrev nBuf : Space → Nat
  | .hbm => 213
  | .vmem => 0
  | .smem => 0
  | _ => 0

abbrev hbmTy0_0 (i : Nat) : BufTy := match i % 128 with
  | 0 => ⟨S400000x64, .f32⟩
  | 1 => ⟨S400000x64, .f32⟩
  | 2 => ⟨S2x1500000, .i32⟩
  | 3 => ⟨S2x1500000, .i32⟩
  | 4 => ⟨S64x32, .f32⟩
  | 5 => ⟨S32, .f32⟩
  | 6 => ⟨S64x32, .f32⟩
  | 7 => ⟨S64x32, .f32⟩
  | 8 => ⟨S32, .f32⟩
  | 9 => ⟨S64x32, .f32⟩
  | 10 => ⟨S32x32, .f32⟩
  | 11 => ⟨S32, .f32⟩
  | 12 => ⟨S32x32, .f32⟩
  | 13 => ⟨S32x32, .f32⟩
  | 14 => ⟨S32, .f32⟩
  | 15 => ⟨S32x32, .f32⟩
  | 16 => ⟨S32x32, .f32⟩
  | 17 => ⟨S32, .f32⟩
  | 18 => ⟨S32x32, .f32⟩
  | 19 => ⟨S32x32, .f32⟩
  | 20 => ⟨S32, .f32⟩
  | 21 => ⟨S32x32, .f32⟩
  | 22 => ⟨S32x2, .f32⟩
  | 23 => ⟨S2, .f32⟩
  | 24 => ⟨S1x1500000, .i32⟩
  | 25 => ⟨S1500000, .i32⟩
  | 26 => ⟨S1x1500000, .i32⟩
  | 27 => ⟨S1500000, .i32⟩
  | 28 => ⟨S_, .i32⟩
  | 29 => ⟨S1500000, .i32⟩
  | 30 => ⟨S1500000, .i1⟩
  | 31 => ⟨S_, .i32⟩
  | 32 => ⟨S1500000, .i32⟩
  | 33 => ⟨S1500000, .i32⟩
  | 34 => ⟨S1500000, .i32⟩
  | 35 => ⟨S1500000x1, .i32⟩
  | 36 => ⟨S1500000x64, .f32⟩
  | 37 => ⟨S_, .f32⟩
  | 38 => ⟨S400000x64, .f32⟩
  | 39 => ⟨S1500000x1, .i32⟩
  | 40 => ⟨S400000x64, .f32⟩
  | 41 => ⟨S_, .f32⟩
  | 42 => ⟨S1500000x1, .f32⟩
  | 43 => ⟨S_, .f32⟩
  | 44 => ⟨S400000x1, .f32⟩
  | 45 => ⟨S1500000x1, .i32⟩
  | 46 => ⟨S400000x1, .f32⟩
  | 47 => ⟨S_, .f32⟩
  | 48 => ⟨S400000x1, .f32⟩
  | 49 => ⟨S400000x1, .f32⟩
  | 50 => ⟨S400000x64, .f32⟩
  | 51 => ⟨S400000x64, .f32⟩
  | 52 => ⟨S400000x32, .f32⟩
  | 53 => ⟨S1x32, .f32⟩
  | 54 => ⟨S400000x32, .f32⟩
  | 55 => ⟨S400000x32, .f32⟩
  | 56 => ⟨S400000x32, .f32⟩
  | 57 => ⟨S400000x32, .f32⟩
  | 58 => ⟨S_, .f32⟩
  | 59 => ⟨S400000x32, .f32⟩
  | 60 => ⟨S400000x32, .f32⟩
  | 61 => ⟨S1x1500000, .i32⟩
  | 62 => ⟨S1500000, .i32⟩
  | 63 => ⟨S1x1500000, .i32⟩
  | 64 => ⟨S1500000, .i32⟩
  | 65 => ⟨S_, .i32⟩
  | 66 => ⟨S1500000, .i32⟩
  | 67 => ⟨S1500000, .i1⟩
  | 68 => ⟨S_, .i32⟩
  | 69 => ⟨S1500000, .i32⟩
  | 70 => ⟨S1500000, .i32⟩
  | 71 => ⟨S1500000, .i32⟩
  | 72 => ⟨S1500000x1, .i32⟩
  | 73 => ⟨S1500000x64, .f32⟩
  | 74 => ⟨S_, .f32⟩
  | 75 => ⟨S400000x64, .f32⟩
  | 76 => ⟨S1500000x1, .i32⟩
  | 77 => ⟨S400000x64, .f32⟩
  | 78 => ⟨S_, .f32⟩
  | 79 => ⟨S1500000x1, .f32⟩
  | 80 => ⟨S_, .f32⟩
  | 81 => ⟨S400000x1, .f32⟩
  | 82 => ⟨S1500000x1, .i32⟩
  | 83 => ⟨S400000x1, .f32⟩
  | 84 => ⟨S_, .f32⟩
  | 85 => ⟨S400000x1, .f32⟩
  | 86 => ⟨S400000x1, .f32⟩
  | 87 => ⟨S400000x64, .f32⟩
  | 88 => ⟨S400000x64, .f32⟩
  | 89 => ⟨S400000x32, .f32⟩
  | 90 => ⟨S1x32, .f32⟩
  | 91 => ⟨S400000x32, .f32⟩
  | 92 => ⟨S400000x32, .f32⟩
  | 93 => ⟨S400000x32, .f32⟩
  | 94 => ⟨S400000x32, .f32⟩
  | 95 => ⟨S_, .f32⟩
  | 96 => ⟨S400000x32, .f32⟩
  | 97 => ⟨S400000x32, .f32⟩
  | 98 => ⟨S1x1500000, .i32⟩
  | 99 => ⟨S1500000, .i32⟩
  | 100 => ⟨S1x1500000, .i32⟩
  | 101 => ⟨S1500000, .i32⟩
  | 102 => ⟨S_, .i32⟩
  | 103 => ⟨S1500000, .i32⟩
  | 104 => ⟨S1500000, .i1⟩
  | 105 => ⟨S_, .i32⟩
  | 106 => ⟨S1500000, .i32⟩
  | 107 => ⟨S1500000, .i32⟩
  | 108 => ⟨S1500000, .i32⟩
  | 109 => ⟨S1500000x1, .i32⟩
  | 110 => ⟨S1500000x32, .f32⟩
  | 111 => ⟨S_, .f32⟩
  | 112 => ⟨S400000x32, .f32⟩
  | 113 => ⟨S1500000x1, .i32⟩
  | 114 => ⟨S400000x32, .f32⟩
  | 115 => ⟨S_, .f32⟩
  | 116 => ⟨S1500000x1, .f32⟩
  | 117 => ⟨S_, .f32⟩
  | 118 => ⟨S400000x1, .f32⟩
  | 119 => ⟨S1500000x1, .i32⟩
  | 120 => ⟨S400000x1, .f32⟩
  | 121 => ⟨S_, .f32⟩
  | 122 => ⟨S400000x1, .f32⟩
  | 123 => ⟨S400000x1, .f32⟩
  | 124 => ⟨S400000x32, .f32⟩
  | 125 => ⟨S400000x32, .f32⟩
  | 126 => ⟨S400000x32, .f32⟩
  | 127 => ⟨S1x32, .f32⟩
  | _ => ⟨S400000x64, .f32⟩

abbrev hbmTy0_1 (i : Nat) : BufTy := match i % 128 with
  | 0 => ⟨S400000x32, .f32⟩
  | 1 => ⟨S400000x32, .f32⟩
  | 2 => ⟨S400000x32, .f32⟩
  | 3 => ⟨S400000x32, .f32⟩
  | 4 => ⟨S_, .f32⟩
  | 5 => ⟨S400000x32, .f32⟩
  | 6 => ⟨S400000x32, .f32⟩
  | 7 => ⟨S1x1500000, .i32⟩
  | 8 => ⟨S1500000, .i32⟩
  | 9 => ⟨S1x1500000, .i32⟩
  | 10 => ⟨S1500000, .i32⟩
  | 11 => ⟨S_, .i32⟩
  | 12 => ⟨S1500000, .i32⟩
  | 13 => ⟨S1500000, .i1⟩
  | 14 => ⟨S_, .i32⟩
  | 15 => ⟨S1500000, .i32⟩
  | 16 => ⟨S1500000, .i32⟩
  | 17 => ⟨S1500000, .i32⟩
  | 18 => ⟨S1500000x1, .i32⟩
  | 19 => ⟨S1500000x32, .f32⟩
  | 20 => ⟨S_, .f32⟩
  | 21 => ⟨S400000x32, .f32⟩
  | 22 => ⟨S1500000x1, .i32⟩
  | 23 => ⟨S400000x32, .f32⟩
  | 24 => ⟨S_, .f32⟩
  | 25 => ⟨S1500000x1, .f32⟩
  | 26 => ⟨S_, .f32⟩
  | 27 => ⟨S400000x1, .f32⟩
  | 28 => ⟨S1500000x1, .i32⟩
  | 29 => ⟨S400000x1, .f32⟩
  | 30 => ⟨S_, .f32⟩
  | 31 => ⟨S400000x1, .f32⟩
  | 32 => ⟨S400000x1, .f32⟩
  | 33 => ⟨S400000x32, .f32⟩
  | 34 => ⟨S400000x32, .f32⟩
  | 35 => ⟨S400000x32, .f32⟩
  | 36 => ⟨S1x32, .f32⟩
  | 37 => ⟨S400000x32, .f32⟩
  | 38 => ⟨S400000x32, .f32⟩
  | 39 => ⟨S400000x32, .f32⟩
  | 40 => ⟨S400000x32, .f32⟩
  | 41 => ⟨S_, .f32⟩
  | 42 => ⟨S400000x32, .f32⟩
  | 43 => ⟨S400000x32, .f32⟩
  | 44 => ⟨S1x1500000, .i32⟩
  | 45 => ⟨S1500000, .i32⟩
  | 46 => ⟨S1x1500000, .i32⟩
  | 47 => ⟨S1500000, .i32⟩
  | 48 => ⟨S_, .i32⟩
  | 49 => ⟨S1500000, .i32⟩
  | 50 => ⟨S1500000, .i1⟩
  | 51 => ⟨S_, .i32⟩
  | 52 => ⟨S1500000, .i32⟩
  | 53 => ⟨S1500000, .i32⟩
  | 54 => ⟨S1500000, .i32⟩
  | 55 => ⟨S1500000x1, .i32⟩
  | 56 => ⟨S1500000x32, .f32⟩
  | 57 => ⟨S_, .f32⟩
  | 58 => ⟨S400000x32, .f32⟩
  | 59 => ⟨S1500000x1, .i32⟩
  | 60 => ⟨S400000x32, .f32⟩
  | 61 => ⟨S_, .f32⟩
  | 62 => ⟨S1500000x1, .f32⟩
  | 63 => ⟨S_, .f32⟩
  | 64 => ⟨S400000x1, .f32⟩
  | 65 => ⟨S1500000x1, .i32⟩
  | 66 => ⟨S400000x1, .f32⟩
  | 67 => ⟨S_, .f32⟩
  | 68 => ⟨S400000x1, .f32⟩
  | 69 => ⟨S400000x1, .f32⟩
  | 70 => ⟨S400000x32, .f32⟩
  | 71 => ⟨S400000x32, .f32⟩
  | 72 => ⟨S400000x32, .f32⟩
  | 73 => ⟨S1x32, .f32⟩
  | 74 => ⟨S400000x32, .f32⟩
  | 75 => ⟨S400000x32, .f32⟩
  | 76 => ⟨S400000x32, .f32⟩
  | 77 => ⟨S400000x32, .f32⟩
  | 78 => ⟨S_, .f32⟩
  | 79 => ⟨S400000x32, .f32⟩
  | 80 => ⟨S400000x32, .f32⟩
  | 81 => ⟨S400000x2, .f32⟩
  | 82 => ⟨S1x2, .f32⟩
  | 83 => ⟨S400000x2, .f32⟩
  | 84 => ⟨S400000x2, .f32⟩
  | _ => ⟨S400000x64, .f32⟩

abbrev hbmTy (i : Nat) : BufTy := match i / 128 with
  | 0 => hbmTy0_0 i
  | 1 => hbmTy0_1 i
  | _ => ⟨S400000x64, .f32⟩

abbrev bufTy : (tb : Table) → Fin (tcTables nBuf tb) → BufTy
  | .hbm, ⟨i, _⟩ => hbmTy i
  | _, _ => ⟨S400000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_call0_cst : Ref sig .tc := ⟨.hbm, 58, rfl⟩
abbrev main_call0_v0 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_4 : Ref sig .tc := ⟨.hbm, 65, rfl⟩
abbrev main_v33 : Ref sig .tc := ⟨.hbm, 66, rfl⟩
abbrev main_v34 : Ref sig .tc := ⟨.hbm, 67, rfl⟩
abbrev main_c_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_cst_8 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_9 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call1_cst : Ref sig .tc := ⟨.hbm, 95, rfl⟩
abbrev main_call1_v0 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_10 : Ref sig .tc := ⟨.hbm, 102, rfl⟩
abbrev main_v62 : Ref sig .tc := ⟨.hbm, 103, rfl⟩
abbrev main_v63 : Ref sig .tc := ⟨.hbm, 104, rfl⟩
abbrev main_c_11 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_12 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_13 : Ref sig .tc := ⟨.hbm, 115, rfl⟩
abbrev main_v72 : Ref sig .tc := ⟨.hbm, 116, rfl⟩
abbrev main_cst_14 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_15 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_call2_cst : Ref sig .tc := ⟨.hbm, 132, rfl⟩
abbrev main_call2_v0 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_c_16 : Ref sig .tc := ⟨.hbm, 139, rfl⟩
abbrev main_v91 : Ref sig .tc := ⟨.hbm, 140, rfl⟩
abbrev main_v92 : Ref sig .tc := ⟨.hbm, 141, rfl⟩
abbrev main_c_17 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_18 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_19 : Ref sig .tc := ⟨.hbm, 152, rfl⟩
abbrev main_v101 : Ref sig .tc := ⟨.hbm, 153, rfl⟩
abbrev main_cst_20 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_21 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_call3_cst : Ref sig .tc := ⟨.hbm, 169, rfl⟩
abbrev main_call3_v0 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_c_22 : Ref sig .tc := ⟨.hbm, 176, rfl⟩
abbrev main_v120 : Ref sig .tc := ⟨.hbm, 177, rfl⟩
abbrev main_v121 : Ref sig .tc := ⟨.hbm, 178, rfl⟩
abbrev main_c_23 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_24 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_25 : Ref sig .tc := ⟨.hbm, 189, rfl⟩
abbrev main_v130 : Ref sig .tc := ⟨.hbm, 190, rfl⟩
abbrev main_cst_26 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_cst_27 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_call4_cst : Ref sig .tc := ⟨.hbm, 206, rfl⟩
abbrev main_call4_v0 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩

abbrev nD : Nat := 1
abbrev τ : Topo := Topo.v7x

variable {F : FTy → Type} [FloatOps F]

class Facts₀ : Prop where
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S400000x64 : S_.BroadcastsInDim S400000x64 (![] : Fin 0 → Fin S400000x64.rank)
  bcast_S_S1500000x1 : S_.BroadcastsInDim S1500000x1 (![] : Fin 0 → Fin S1500000x1.rank)
  bcast_S_S400000x1 : S_.BroadcastsInDim S400000x1 (![] : Fin 0 → Fin S400000x1.rank)
  bcast_S400000x1_S400000x64_0_1 : S400000x1.BroadcastsInDim S400000x64 (![0, 1] : Fin 2 → Fin S400000x64.rank)
  bcast_S32_S1x32_1 : S32.BroadcastsInDim S1x32 (![1] : Fin 1 → Fin S1x32.rank)
  bcast_S1x32_S400000x32_0_1 : S1x32.BroadcastsInDim S400000x32 (![0, 1] : Fin 2 → Fin S400000x32.rank)
  bcast_S_S400000x32 : S_.BroadcastsInDim S400000x32 (![] : Fin 0 → Fin S400000x32.rank)
  bcast_S400000x1_S400000x32_0_1 : S400000x1.BroadcastsInDim S400000x32 (![0, 1] : Fin 2 → Fin S400000x32.rank)
  bcast_S2_S1x2_1 : S2.BroadcastsInDim S1x2 (![1] : Fin 1 → Fin S1x2.rank)
  bcast_S1x2_S400000x2_0_1 : S1x2.BroadcastsInDim S400000x2 (![0, 1] : Fin 2 → Fin S400000x2.rank)
  gather_S400000x64_S1500000x1_S1500000x64_1_0_n_n_0_1_164_wf : GatherDims.WF S400000x64 S1500000x1 S1500000x64 [1] [0] [] [0] [] 1 ![1, 64]
  scatter_S400000x64_S1500000x1_S1500000x64_1_0_0_1_wf : ScatterDims.WF S400000x64 S1500000x1 S1500000x64 [1] [0] [0] 1
  scatter_S400000x1_S1500000x1_S1500000x1_1_0_0_1_wf : ScatterDims.WF S400000x1 S1500000x1 S1500000x1 [1] [0] [0] 1
  dot_S400000x64_S64x32_S400000x32_1_0_0_1_n_n_wf : DotDims.WF S400000x64 S64x32 S400000x32 [1] [0] [0] [1] [] []
  gather_S400000x32_S1500000x1_S1500000x32_1_0_n_n_0_1_132_wf : GatherDims.WF S400000x32 S1500000x1 S1500000x32 [1] [0] [] [0] [] 1 ![1, 32]
  scatter_S400000x32_S1500000x1_S1500000x32_1_0_0_1_wf : ScatterDims.WF S400000x32 S1500000x1 S1500000x32 [1] [0] [0] 1
  dot_S400000x32_S32x32_S400000x32_1_0_0_1_n_n_wf : DotDims.WF S400000x32 S32x32 S400000x32 [1] [0] [0] [1] [] []
  dot_S400000x32_S32x2_S400000x2_1_0_0_1_n_n_wf : DotDims.WF S400000x32 S32x2 S400000x2 [1] [0] [0] [1] [] []

variable [Facts₀]

def gather_S400000x64_S1500000x1_S1500000x64_1_0_n_n_0_1_164 : GatherDims S400000x64 S1500000x1 S1500000x64 where
  offsetDims := [1]
  collapsedSliceDims := [0]
  operandBatchingDims := []
  startIndicesBatchingDims := []
  startIndexMap := [0]
  indexVectorDim := 1
  sliceSizes := ![1, 64]
  wf := gather_S400000x64_S1500000x1_S1500000x64_1_0_n_n_0_1_164_wf
def scatter_S400000x64_S1500000x1_S1500000x64_1_0_0_1 : ScatterDims S400000x64 S1500000x1 S1500000x64 where
  updateWindowDims := [1]
  insertedWindowDims := [0]
  scatterDimsToOperandDims := [0]
  indexVectorDim := 1
  wf := scatter_S400000x64_S1500000x1_S1500000x64_1_0_0_1_wf
def scatter_S400000x1_S1500000x1_S1500000x1_1_0_0_1 : ScatterDims S400000x1 S1500000x1 S1500000x1 where
  updateWindowDims := [1]
  insertedWindowDims := [0]
  scatterDimsToOperandDims := [0]
  indexVectorDim := 1
  wf := scatter_S400000x1_S1500000x1_S1500000x1_1_0_0_1_wf
def dot_S400000x64_S64x32_S400000x32_1_0_0_1_n_n : DotDims S400000x64 S64x32 S400000x32 where
  lhsContracting := [1]
  rhsContracting := [0]
  lhsNonContracting := [0]
  rhsNonContracting := [1]
  lhsBatch := []
  rhsBatch := []
  wf := dot_S400000x64_S64x32_S400000x32_1_0_0_1_n_n_wf
def gather_S400000x32_S1500000x1_S1500000x32_1_0_n_n_0_1_132 : GatherDims S400000x32 S1500000x1 S1500000x32 where
  offsetDims := [1]
  collapsedSliceDims := [0]
  operandBatchingDims := []
  startIndicesBatchingDims := []
  startIndexMap := [0]
  indexVectorDim := 1
  sliceSizes := ![1, 32]
  wf := gather_S400000x32_S1500000x1_S1500000x32_1_0_n_n_0_1_132_wf
def scatter_S400000x32_S1500000x1_S1500000x32_1_0_0_1 : ScatterDims S400000x32 S1500000x1 S1500000x32 where
  updateWindowDims := [1]
  insertedWindowDims := [0]
  scatterDimsToOperandDims := [0]
  indexVectorDim := 1
  wf := scatter_S400000x32_S1500000x1_S1500000x32_1_0_0_1_wf
def dot_S400000x32_S32x32_S400000x32_1_0_0_1_n_n : DotDims S400000x32 S32x32 S400000x32 where
  lhsContracting := [1]
  rhsContracting := [0]
  lhsNonContracting := [0]
  rhsNonContracting := [1]
  lhsBatch := []
  rhsBatch := []
  wf := dot_S400000x32_S32x32_S400000x32_1_0_0_1_n_n_wf
def dot_S400000x32_S32x2_S400000x2_1_0_0_1_n_n : DotDims S400000x32 S32x2 S400000x2 where
  lhsContracting := [1]
  rhsContracting := [0]
  lhsNonContracting := [0]
  rhsNonContracting := [1]
  lhsBatch := []
  rhsBatch := []
  wf := dot_S400000x32_S32x2_S400000x2_1_0_0_1_n_n_wf

class Facts : Prop extends Facts₀ where

variable [Facts]
-- ==== Proof.SageSpec.lean ====
/-
  The SAGE layer and the classifier head as functions of whole arrays, entry by entry, over the extended reals.

  One layer, at a destination node `r` and an output channel `q`:
      relu( Σ_k (s[r,k] / max(cnt[r], 1)) · Wl[k,q]  +  bl[q]  +  Σ_k x[r,k] · Wr[k,q] )
  where `s` is the sum of the source rows over the incoming edges and `cnt` the number of incoming edges.
  The head is `Σ_k x[r,k] · W[k,q] + b[q]`.  Both depend on row `r` of the row-indexed operands only, so a
  block of rows of the result is the same function of the same block of rows of the operands.
-/
import Idealize.ShloMosaic.PureOps.Ideal
import Idealize.ShloMosaic.Lib.ValueIdx

noncomputable section

namespace Cert.Sage

open Idealize.ShloMosaic Idealize.ShloMosaic.ValueIdx

/-- An array of `a` rows and `b` columns over the extended reals. -/
abbrev Arr (a b : Nat) : Type := (⟨2, ![a, b]⟩ : Shape).Idx → EReal

/-- The row of an index of an `a × b` array. -/
abbrev row {a b : Nat} (i : (⟨2, ![a, b]⟩ : Shape).Idx) : Fin a := ⟨(i 0).val, (i 0).isLt⟩
/-- The column of an index of an `a × b` array. -/
abbrev col {a b : Nat} (i : (⟨2, ![a, b]⟩ : Shape).Idx) : Fin b := ⟨(i 1).val, (i 1).isLt⟩

/-- The float words 1.0 and 0.0 as extended reals. -/
abbrev one : EReal := Ideal.ofBits .f32 0x3F800000#32
abbrev zero : EReal := Ideal.ofBits .f32 0x00000000#32

/-- One SAGE layer with its relu: mean of the summed messages, two linear maps, a bias. -/
def combine {n fi h : Nat} (s : Arr n fi) (cnt : Arr n 1) (x : Arr n fi) (wl : Arr fi h) (bl : Arr 1 h) (wr : Arr fi h) : Arr n h :=
  fun i => max ((∑ k : Fin fi, Ideal.div (s (ix2 (row i) k)) (max (cnt (ix2 (row i) (0 : Fin 1))) one) * wl (ix2 k (col i)))
      + bl (ix2 (0 : Fin 1) (col i)) + ∑ k : Fin fi, x (ix2 (row i) k) * wr (ix2 k (col i))) zero

/-- The classifier head: one linear map and a bias. -/
def head {n fi h : Nat} (x : Arr n fi) (w : Arr fi h) (b : Arr 1 h) : Arr n h :=
  fun i => (∑ k : Fin fi, x (ix2 (row i) k) * w (ix2 k (col i))) + b (ix2 (0 : Fin 1) (col i))

/-- A layer's entry depends on one row of the row-indexed operands: if `e` sends the rows of a block to rows of the
    whole and the block's operands are the whole's read through `e`, the block's layer is the whole's read through `e`. -/
theorem combine_rows {n n' fi h : Nat} (e : Fin n' → Fin n)
    (s : Arr n fi) (cnt : Arr n 1) (x : Arr n fi) (wl : Arr fi h) (bl : Arr 1 h) (wr : Arr fi h)
    (s' : Arr n' fi) (cnt' : Arr n' 1) (x' : Arr n' fi)
    (hs : ∀ r k, s' (ix2 r k) = s (ix2 (e r) k)) (hc : ∀ r, cnt' (ix2 r (0 : Fin 1)) = cnt (ix2 (e r) (0 : Fin 1)))
    (hx : ∀ r k, x' (ix2 r k) = x (ix2 (e r) k)) (r : Fin n') (q : Fin h) :
    combine s' cnt' x' wl bl wr (ix2 r q) = combine s cnt x wl bl wr (ix2 (e r) q) := by
  unfold combine
  simp only [hs, hc, hx]
  rfl

/-- The same for the head. -/
theorem head_rows {n n' fi h : Nat} (e : Fin n' → Fin n) (x : Arr n fi) (w : Arr fi h) (b : Arr 1 h) (x' : Arr n' fi)
    (hx : ∀ r k, x' (ix2 r k) = x (ix2 (e r) k)) (r : Fin n') (q : Fin h) :
    head x' w b (ix2 r q) = head x w b (ix2 (e r) q) := by
  unfold head
  simp only [hx]
  rfl

end Cert.Sage

end
-- ==== Proof.KernelPayload.lean ====
/-
  Each kernel body's stored value, as one pure function of the blocks it loads, is the SAGE layer (or the head) of
  those blocks: on a block of 20000 rows the body divides the summed messages by max(count, 1), multiplies by the
  left weights into a zero accumulator, adds the bias row and the product of the destination rows with the right
  weights, and clamps at zero.  At the ideal instance a product into a zero accumulator is the plain sum over the
  contracted axis, and every layout step (a shape cast to the same shape, a column or a row laid over the block)
  reads one entry.
-/
import proofs.«426061_j5686536699973_1_alg».proof.Proof.Gen.KernelIdeal.Skeleton
import proofs.«426061_j5686536699973_1_alg».proof.Proof.SageSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-! ### A column laid over a block -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The product of a 20000 × 64 block with a 64 × 32 block -/

/-- The left operand's row is the output's row. -/
theorem lhs64_0 (i : S20000x32.Idx) (q : dot_S20000x64_S64x32_S20000x32_1_0_0_1_n_n.contr.Idx) :
    (dot_S20000x64_S64x32_S20000x32_1_0_0_1_n_n.lhsIdx i q 0).val = (i 0).val := by
  unfold DotDims.lhsIdx
  rw [dif_neg (show ¬(0 : Fin S20000x64.rank) ∈ dot_S20000x64_S64x32_S20000x32_1_0_0_1_n_n.lhsBatch by decide), dif_pos (show (0 : Fin S20000x64.rank) ∈ dot_S20000x64_S64x32_S20000x32_1_0_0_1_n_n.lhsNonContracting by decide)]
  rfl
/-- The left operand's column is the contraction index. -/
theorem lhs64_1 (i : S20000x32.Idx) (q : dot_S20000x64_S64x32_S20000x32_1_0_0_1_n_n.contr.Idx) :
    (dot_S20000x64_S64x32_S20000x32_1_0_0_1_n_n.lhsIdx i q 1).val = (q ⟨0, by decide⟩).val :=
  dot_S20000x64_S64x32_S20000x32_1_0_0_1_n_n.lhsIdx_val_of_single rfl i q
/-- The right operand's row is the contraction index. -/
theorem rhs64_0 (i : S20000x32.Idx) (q : dot_S20000x64_S64x32_S20000x32_1_0_0_1_n_n.contr.Idx) :
    (dot_S20000x64_S64x32_S20000x32_1_0_0_1_n_n.rhsIdx i q 0).val = (q ⟨0, by decide⟩).val :=
  dot_S20000x64_S64x32_S20000x32_1_0_0_1_n_n.rhsIdx_val_of_single rfl i q
/-- The right operand's column is the output's column. -/
theorem rhs64_1 (i : S20000x32.Idx) (q : dot_S20000x64_S64x32_S20000x32_1_0_0_1_n_n.contr.Idx) :
    (dot_S20000x64_S64x32_S20000x32_1_0_0_1_n_n.rhsIdx i q 1).val = (i 1).val := by
  unfold DotDims.rhsIdx
  rw [dif_neg (show ¬(1 : Fin S64x32.rank) ∈ dot_S20000x64_S64x32_S20000x32_1_0_0_1_n_n.rhsBatch by decide), dif_pos (show (1 : Fin S64x32.rank) ∈ dot_S20000x64_S64x32_S20000x32_1_0_0_1_n_n.rhsNonContracting by decide)]
  rfl

/-- Into a zero accumulator the product at `(p, q)` is `∑ k, l[p,k] · r[k,q]`. -/
theorem matmul64_apply (l : FVec Ideal S20000x64 .f32) (r : FVec Ideal S64x32 .f32) (p : Fin 20000) (q : Fin 32) :
    matmul (F := Ideal) dot_S20000x64_S64x32_S20000x32_1_0_0_1_n_n none l r (constant (F := Ideal) S20000x32 .f32 0x00000000#32) (ix2 p q)
      = ∑ k : Fin 64, l (ix2 p k) * r (ix2 k q) := by
  refine (Ideal.matmul_constant_zero_apply dot_S20000x64_S64x32_S20000x32_1_0_0_1_n_n none l r (ix2 p q)).trans ?_
  rw [← Equiv.sum_comp (ValueIdx.contrEquiv1 dot_S20000x64_S64x32_S20000x32_1_0_0_1_n_n 64 rfl rfl).symm]
  refine Finset.sum_congr rfl fun k _ => ?_
  have hk := ValueIdx.contrEquiv1_symm_val dot_S20000x64_S64x32_S20000x32_1_0_0_1_n_n 64 rfl rfl k
  have el : dot_S20000x64_S64x32_S20000x32_1_0_0_1_n_n.lhsIdx (ix2 p q) ((ValueIdx.contrEquiv1 dot_S20000x64_S64x32_S20000x32_1_0_0_1_n_n 64 rfl rfl).symm k) = ix2 p k := funext fun a => Fin.ext (by
    match a with
    | ⟨0, _⟩ => exact lhs64_0 _ _
    | ⟨1, _⟩ => exact (lhs64_1 _ _).trans hk)
  have er : dot_S20000x64_S64x32_S20000x32_1_0_0_1_n_n.rhsIdx (ix2 p q) ((ValueIdx.contrEquiv1 dot_S20000x64_S64x32_S20000x32_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ### The product of a 20000 × 32 block with a 32 × 32 block -/

/-- The left operand's row is the output's row. -/
theorem lhs32_0 (i : S20000x32.Idx) (q : dot_S20000x32_S32x32_S20000x32_1_0_0_1_n_n.contr.Idx) :
    (dot_S20000x32_S32x32_S20000x32_1_0_0_1_n_n.lhsIdx i q 0).val = (i 0).val := by
  unfold DotDims.lhsIdx
  rw [dif_neg (show ¬(0 : Fin S20000x32.rank) ∈ dot_S20000x32_S32x32_S20000x32_1_0_0_1_n_n.lhsBatch by decide), dif_pos (show (0 : Fin S20000x32.rank) ∈ dot_S20000x32_S32x32_S20000x32_1_0_0_1_n_n.lhsNonContracting by decide)]
  rfl
/-- The left operand's column is the contraction index. -/
theorem lhs32_1 (i : S20000x32.Idx) (q : dot_S20000x32_S32x32_S20000x32_1_0_0_1_n_n.contr.Idx) :
    (dot_S20000x32_S32x32_S20000x32_1_0_0_1_n_n.lhsIdx i q 1).val = (q ⟨0, by decide⟩).val :=
  dot_S20000x32_S32x32_S20000x32_1_0_0_1_n_n.lhsIdx_val_of_single rfl i q
/-- The right operand's row is the contraction index. -/
theorem rhs32_0 (i : S20000x32.Idx) (q : dot_S20000x32_S32x32_S20000x32_1_0_0_1_n_n.contr.Idx) :
    (dot_S20000x32_S32x32_S20000x32_1_0_0_1_n_n.rhsIdx i q 0).val = (q ⟨0, by decide⟩).val :=
  dot_S20000x32_S32x32_S20000x32_1_0_0_1_n_n.rhsIdx_val_of_single rfl i q
/-- The right operand's column is the output's column. -/
theorem rhs32_1 (i : S20000x32.Idx) (q : dot_S20000x32_S32x32_S20000x32_1_0_0_1_n_n.contr.Idx) :
    (dot_S20000x32_S32x32_S20000x32_1_0_0_1_n_n.rhsIdx i q 1).val = (i 1).val := by
  unfold DotDims.rhsIdx
  rw [dif_neg (show ¬(1 : Fin S32x32.rank) ∈ dot_S20000x32_S32x32_S20000x32_1_0_0_1_n_n.rhsBatch by decide), dif_pos (show (1 : Fin S32x32.rank) ∈ dot_S20000x32_S32x32_S20000x32_1_0_0_1_n_n.rhsNonContracting by decide)]
  rfl

/-- Into a zero accumulator the product at `(p, q)` is `∑ k, l[p,k] · r[k,q]`. -/
theorem matmul32_apply (l : FVec Ideal S20000x32 .f32) (r : FVec Ideal S32x32 .f32) (p : Fin 20000) (q : Fin 32) :
    matmul (F := Ideal) dot_S20000x32_S32x32_S20000x32_1_0_0_1_n_n none l r (constant (F := Ideal) S20000x32 .f32 0x00000000#32) (ix2 p q)
      = ∑ k : Fin 32, l (ix2 p k) * r (ix2 k q) := by
  refine (Ideal.matmul_constant_zero_apply dot_S20000x32_S32x32_S20000x32_1_0_0_1_n_n none l r (ix2 p q)).trans ?_
  rw [← Equiv.sum_comp (ValueIdx.contrEquiv1 dot_S20000x32_S32x32_S20000x32_1_0_0_1_n_n 32 rfl rfl).symm]
  refine Finset.sum_congr rfl fun k _ => ?_
  have hk := ValueIdx.contrEquiv1_symm_val dot_S20000x32_S32x32_S20000x32_1_0_0_1_n_n 32 rfl rfl k
  have el : dot_S20000x32_S32x32_S20000x32_1_0_0_1_n_n.lhsIdx (ix2 p q) ((ValueIdx.contrEquiv1 dot_S20000x32_S32x32_S20000x32_1_0_0_1_n_n 32 rfl rfl).symm k) = ix2 p k := funext fun a => Fin.ext (by
    match a with
    | ⟨0, _⟩ => exact lhs32_0 _ _
    | ⟨1, _⟩ => exact (lhs32_1 _ _).trans hk)
  have er : dot_S20000x32_S32x32_S20000x32_1_0_0_1_n_n.rhsIdx (ix2 p q) ((ValueIdx.contrEquiv1 dot_S20000x32_S32x32_S20000x32_1_0_0_1_n_n 32 rfl rfl).symm k) = ix2 k q := funext fun a => Fin.ext (by
    match a with
    | ⟨0, _⟩ => exact (rhs32_0 _ _).trans hk
    | ⟨1, _⟩ => exact rhs32_1 _ _)
  rw [el, er]

/-! ### The product of a 20000 × 32 block with a 32 × 2 block -/

/-- The left operand's row is the output's row. -/
theorem lhsHead_0 (i : S20000x2.Idx) (q : dot_S20000x32_S32x2_S20000x2_1_0_0_1_n_n.contr.Idx) :
    (dot_S20000x32_S32x2_S20000x2_1_0_0_1_n_n.lhsIdx i q 0).val = (i 0).val := by
  unfold DotDims.lhsIdx
  rw [dif_neg (show ¬(0 : Fin S20000x32.rank) ∈ dot_S20000x32_S32x2_S20000x2_1_0_0_1_n_n.lhsBatch by decide), dif_pos (show (0 : Fin S20000x32.rank) ∈ dot_S20000x32_S32x2_S20000x2_1_0_0_1_n_n.lhsNonContracting by decide)]
  rfl
/-- The left operand's column is the contraction index. -/
theorem lhsHead_1 (i : S20000x2.Idx) (q : dot_S20000x32_S32x2_S20000x2_1_0_0_1_n_n.contr.Idx) :
    (dot_S20000x32_S32x2_S20000x2_1_0_0_1_n_n.lhsIdx i q 1).val = (q ⟨0, by decide⟩).val :=
  dot_S20000x32_S32x2_S20000x2_1_0_0_1_n_n.lhsIdx_val_of_single rfl i q
/-- The right operand's row is the contraction index. -/
theorem rhsHead_0 (i : S20000x2.Idx) (q : dot_S20000x32_S32x2_S20000x2_1_0_0_1_n_n.contr.Idx) :
    (dot_S20000x32_S32x2_S20000x2_1_0_0_1_n_n.rhsIdx i q 0).val = (q ⟨0, by decide⟩).val :=
  dot_S20000x32_S32x2_S20000x2_1_0_0_1_n_n.rhsIdx_val_of_single rfl i q
/-- The right operand's column is the output's column. -/
theorem rhsHead_1 (i : S20000x2.Idx) (q : dot_S20000x32_S32x2_S20000x2_1_0_0_1_n_n.contr.Idx) :
    (dot_S20000x32_S32x2_S20000x2_1_0_0_1_n_n.rhsIdx i q 1).val = (i 1).val := by
  unfold DotDims.rhsIdx
  rw [dif_neg (show ¬(1 : Fin S32x2.rank) ∈ dot_S20000x32_S32x2_S20000x2_1_0_0_1_n_n.rhsBatch by decide), dif_pos (show (1 : Fin S32x2.rank) ∈ dot_S20000x32_S32x2_S20000x2_1_0_0_1_n_n.rhsNonContracting by decide)]
  rfl

/-- Into a zero accumulator the product at `(p, q)` is `∑ k, l[p,k] · r[k,q]`. -/
theorem matmulHead_apply (l : FVec Ideal S20000x32 .f32) (r : FVec Ideal S32x2 .f32) (p : Fin 20000) (q : Fin 2) :
    matmul (F := Ideal) dot_S20000x32_S32x2_S20000x2_1_0_0_1_n_n none l r (constant (F := Ideal) S20000x2 .f32 0x00000000#32) (ix2 p q)
      = ∑ k : Fin 32, l (ix2 p k) * r (ix2 k q) := by
  refine (Ideal.matmul_constant_zero_apply dot_S20000x32_S32x2_S20000x2_1_0_0_1_n_n none l r (ix2 p q)).trans ?_
  rw [← Equiv.sum_comp (ValueIdx.contrEquiv1 dot_S20000x32_S32x2_S20000x2_1_0_0_1_n_n 32 rfl rfl).symm]
  refine Finset.sum_congr rfl fun k _ => ?_
  have hk := ValueIdx.contrEquiv1_symm_val dot_S20000x32_S32x2_S20000x2_1_0_0_1_n_n 32 rfl rfl k
  have el : dot_S20000x32_S32x2_S20000x2_1_0_0_1_n_n.lhsIdx (ix2 p q) ((ValueIdx.contrEquiv1 dot_S20000x32_S32x2_S20000x2_1_0_0_1_n_n 32 rfl rfl).symm k) = ix2 p k := funext fun a => Fin.ext (by
    match a with
    | ⟨0, _⟩ => exact lhsHead_0 _ _
    | ⟨1, _⟩ => exact (lhsHead_1 _ _).trans hk)
  have er : dot_S20000x32_S32x2_S20000x2_1_0_0_1_n_n.rhsIdx (ix2 p q) ((ValueIdx.contrEquiv1 dot_S20000x32_S32x2_S20000x2_1_0_0_1_n_n 32 rfl rfl).symm k) = ix2 k q := funext fun a => Fin.ext (by
    match a with
    | ⟨0, _⟩ => exact (rhsHead_0 _ _).trans hk
    | ⟨1, _⟩ => exact rhsHead_1 _ _)
  rw [el, er]

/-! ### The layer on a block of 64 input features -/

/-- The mean of the messages times the left weights: the first product of the body at `(p, q)`. -/
theorem mean64_apply (v0 : FVec Ideal S20000x1 .f32) (v4 : FVec Ideal S20000x64 .f32) (v8 : FVec Ideal S64x32 .f32) (p : Fin 20000) (q : Fin 32) :
    matmul (F := Ideal) dot_S20000x64_S64x32_S20000x32_1_0_0_1_n_n none
        (divf (shapeCast S20000x64 v4 shapeCasts_S20000x64_S20000x64)
          (broadcastTo S20000x64 (maximumf (shapeCast S20000x1 v0 shapeCasts_S20000x1_S20000x1)
            (broadcast S20000x1 (Scalar.ofBits (F := Ideal) .f32 0x3F800000#32))) broadcasts_S20000x1_S20000x64))
        v8 (constant (F := Ideal) S20000x32 .f32 0x00000000#32) (ix2 p q)
      = ∑ k : Fin 64, Ideal.div (v4 (ix2 p k)) (max (v0 (ix2 p (0 : Fin 1))) Sage.one) * v8 (ix2 k q) := by
  refine (matmul64_apply _ v8 p q).trans (Finset.sum_congr rfl fun k _ => ?_)
  refine congrArg (· * v8 (ix2 k q)) ?_
  show Ideal.div (shapeCast S20000x64 v4 shapeCasts_S20000x64_S20000x64 (ix2 p k))
      (broadcastTo S20000x64 (maximumf (shapeCast S20000x1 v0 shapeCasts_S20000x1_S20000x1)
        (broadcast S20000x1 (Scalar.ofBits (F := Ideal) .f32 0x3F800000#32))) broadcasts_S20000x1_S20000x64 (ix2 p k))
    = Ideal.div (v4 (ix2 p k)) (max (v0 (ix2 p (0 : Fin 1))) Sage.one)
  rw [shapeCast_self v4, shapeCast_self v0]
  exact congrArg (Ideal.div (v4 (ix2 p k))) (broadcastTo_a1_ab_apply _ broadcasts_S20000x1_S20000x64 p k)

theorem pay0_eq (v0 : Vec Ideal S20000x1 .f32) (v4 : Vec Ideal S20000x64 .f32) (v8 : Vec Ideal S64x32 .f32)
    (v10 : Vec Ideal S1x32 .f32) (v14 : Vec Ideal S20000x64 .f32) (v15 : Vec Ideal S64x32 .f32) :
    k0_pay1 (F := Ideal) v0 v4 v8 v10 v14 v15 = Sage.combine v4 v0 v14 v8 v10 v15 := by
  funext j
  obtain ⟨p, q, rfl⟩ : ∃ (p : Fin 20000) (q : Fin 32), j = ix2 p q := ⟨j 0, j 1, eq_ix2 j⟩
  unfold k0_pay1 Sage.combine
  refine congrArg (max · Sage.zero) ?_
  refine congrArg₂ (· + ·) (congrArg₂ (· + ·) (mean64_apply v0 v4 v8 p q) ?_) (matmul64_apply v14 v15 p q)
  rw [shapeCast_self v10]
  exact broadcastTo_1b_ab_apply v10 broadcasts_S1x32_S20000x32 p q

theorem pay1_eq (v0 : Vec Ideal S20000x1 .f32) (v4 : Vec Ideal S20000x64 .f32) (v8 : Vec Ideal S64x32 .f32)
    (v10 : Vec Ideal S1x32 .f32) (v14 : Vec Ideal S20000x64 .f32) (v15 : Vec Ideal S64x32 .f32) :
    k1_pay1 (F := Ideal) v0 v4 v8 v10 v14 v15 = Sage.combine v4 v0 v14 v8 v10 v15 :=
  (show k1_pay1 (F := Ideal) v0 v4 v8 v10 v14 v15 = k0_pay1 (F := Ideal) v0 v4 v8 v10 v14 v15 from rfl).trans
    (pay0_eq v0 v4 v8 v10 v14 v15)

/-! ### The layer on a block of 32 input features -/

/-- The mean of the messages times the left weights: the first product of the body at `(p, q)`. -/
theorem mean32_apply (v0 : FVec Ideal S20000x1 .f32) (v4 : FVec Ideal S20000x32 .f32) (v8 : FVec Ideal S32x32 .f32) (p : Fin 20000) (q : Fin 32) :
    matmul (F := Ideal) dot_S20000x32_S32x32_S20000x32_1_0_0_1_n_n none
        (divf (shapeCast S20000x32 v4 shapeCasts_S20000x32_S20000x32)
          (broadcastTo S20000x32 (maximumf (shapeCast S20000x1 v0 shapeCasts_S20000x1_S20000x1)
            (broadcast S20000x1 (Scalar.ofBits (F := Ideal) .f32 0x3F800000#32))) broadcasts_S20000x1_S20000x32))
        v8 (constant (F := Ideal) S20000x32 .f32 0x00000000#32) (ix2 p q)
      = ∑ k : Fin 32, Ideal.div (v4 (ix2 p k)) (max (v0 (ix2 p (0 : Fin 1))) Sage.one) * v8 (ix2 k q) := by
  refine (matmul32_apply _ v8 p q).trans (Finset.sum_congr rfl fun k _ => ?_)
  refine congrArg (· * v8 (ix2 k q)) ?_
  show Ideal.div (shapeCast S20000x32 v4 shapeCasts_S20000x32_S20000x32 (ix2 p k))
      (broadcastTo S20000x32 (maximumf (shapeCast S20000x1 v0 shapeCasts_S20000x1_S20000x1)
        (broadcast S20000x1 (Scalar.ofBits (F := Ideal) .f32 0x3F800000#32))) broadcasts_S20000x1_S20000x32 (ix2 p k))
    = Ideal.div (v4 (ix2 p k)) (max (v0 (ix2 p (0 : Fin 1))) Sage.one)
  rw [shapeCast_self v4, shapeCast_self v0]
  exact congrArg (Ideal.div (v4 (ix2 p k))) (broadcastTo_a1_ab_apply _ broadcasts_S20000x1_S20000x32 p k)

theorem pay2_eq (v0 : Vec Ideal S20000x1 .f32) (v4 : Vec Ideal S20000x32 .f32) (v8 : Vec Ideal S32x32 .f32)
    (v10 : Vec Ideal S1x32 .f32) (v14 : Vec Ideal S20000x32 .f32) (v16 : Vec Ideal S32x32 .f32) :
    k2_pay1 (F := Ideal) v0 v4 v8 v10 v14 v16 = Sage.combine v4 v0 v14 v8 v10 v16 := by
  funext j
  obtain ⟨p, q, rfl⟩ : ∃ (p : Fin 20000) (q : Fin 32), j = ix2 p q := ⟨j 0, j 1, eq_ix2 j⟩
  unfold k2_pay1 Sage.combine
  refine congrArg (max · Sage.zero) ?_
  refine congrArg₂ (· + ·) (congrArg₂ (· + ·) (mean32_apply v0 v4 v8 p q) ?_) ?_
  · rw [shapeCast_self v10]
    exact broadcastTo_1b_ab_apply v10 broadcasts_S1x32_S20000x32 p q
  · rw [shapeCast_self v14]
    exact matmul32_apply v14 v16 p q

theorem pay3_eq (v0 : Vec Ideal S20000x1 .f32) (v4 : Vec Ideal S20000x32 .f32) (v8 : Vec Ideal S32x32 .f32)
    (v10 : Vec Ideal S1x32 .f32) (v14 : Vec Ideal S20000x32 .f32) (v16 : Vec Ideal S32x32 .f32) :
    k3_pay1 (F := Ideal) v0 v4 v8 v10 v14 v16 = Sage.combine v4 v0 v14 v8 v10 v16 :=
  (show k3_pay1 (F := Ideal) v0 v4 v8 v10 v14 v16 = k2_pay1 (F := Ideal) v0 v4 v8 v10 v14 v16 from rfl).trans
    (pay2_eq v0 v4 v8 v10 v14 v16)

theorem pay4_eq (v0 : Vec Ideal S20000x1 .f32) (v4 : Vec Ideal S20000x32 .f32) (v8 : Vec Ideal S32x32 .f32)
    (v10 : Vec Ideal S1x32 .f32) (v14 : Vec Ideal S20000x32 .f32) (v16 : Vec Ideal S32x32 .f32) :
    k4_pay1 (F := Ideal) v0 v4 v8 v10 v14 v16 = Sage.combine v4 v0 v14 v8 v10 v16 :=
  (show k4_pay1 (F := Ideal) v0 v4 v8 v10 v14 v16 = k2_pay1 (F := Ideal) v0 v4 v8 v10 v14 v16 from rfl).trans
    (pay2_eq v0 v4 v8 v10 v14 v16)

/-! ### The head -/

theorem pay5_eq (v0 : Vec Ideal S20000x32 .f32) (v2 : Vec Ideal S32x2 .f32) (v4 : Vec Ideal S1x2 .f32) :
    k5_pay1 (F := Ideal) v0 v2 v4 = Sage.head v0 v2 v4 := by
  funext j
  obtain ⟨p, q, rfl⟩ : ∃ (p : Fin 20000) (q : Fin 2), j = ix2 p q := ⟨j 0, j 1, eq_ix2 j⟩
  unfold k5_pay1 Sage.head
  refine congrArg₂ (· + ·) ?_ ?_
  · rw [shapeCast_self v0]
    exact matmulHead_apply v0 v2 p q
  · rw [shapeCast_self v4]
    exact broadcastTo_1b_ab_apply v4 broadcasts_S1x2_S20000x2 p q

end Cert.KernelIdeal.Payload

end
-- ==== Proof.RefLayer.lean ====
/-
  The reference computes each SAGE layer with whole-array host operations: the summed messages divided by the
  count clamped below at one (the count column laid over the feature axis), a product with the left weights, the
  bias laid over the rows, a product of the destination features with the right weights, and a maximum with zero.
  Read at an entry (r, q), at the ideal instance, that is the layer of SageSpec: the host's product is the plain sum
  over the contracted axis and every broadcast reads one entry.  The head is one product and a bias.
-/
import proofs.«426061_j5686536699973_1_alg».proof.Proof.Gen.ReferenceIdeal.Read
import proofs.«426061_j5686536699973_1_alg».proof.Proof.SageSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.Layer

open Cert.ReferenceIdeal Cert.ReferenceIdeal.Gen Cert.ReferenceIdeal.Read Idealize.ShloMosaic Idealize.ShloMosaic.ValueIdx

/-! ## The host's product at an entry

At the ideal instance the host's product of an m x K array with a K x n array, read at the entry (r, q), is the sum
over the K contracted positions of the left operand at (r, k) times the right operand at (k, q): the left index keeps
the result's row on its free axis and takes the contracted position on the other, the right index the reverse. One
such reading per shape of product the reference has. -/

theorem dot64_lhs_0 (i : S400000x32.Idx) (q : dot_S400000x64_S64x32_S400000x32_1_0_0_1_n_n.contr.Idx) :
    (dot_S400000x64_S64x32_S400000x32_1_0_0_1_n_n.lhsIdx i q 0).val = (i 0).val := by
  unfold DotDims.lhsIdx
  rw [dif_neg (show ¬(0 : Fin S400000x64.rank) ∈ dot_S400000x64_S64x32_S400000x32_1_0_0_1_n_n.lhsBatch by decide), dif_pos (show (0 : Fin S400000x64.rank) ∈ dot_S400000x64_S64x32_S400000x32_1_0_0_1_n_n.lhsNonContracting by decide)]
  rfl
theorem dot64_lhs_1 (i : S400000x32.Idx) (q : dot_S400000x64_S64x32_S400000x32_1_0_0_1_n_n.contr.Idx) :
    (dot_S400000x64_S64x32_S400000x32_1_0_0_1_n_n.lhsIdx i q 1).val = (q ⟨0, by decide⟩).val :=
  dot_S400000x64_S64x32_S400000x32_1_0_0_1_n_n.lhsIdx_val_of_single rfl i q
theorem dot64_rhs_0 (i : S400000x32.Idx) (q : dot_S400000x64_S64x32_S400000x32_1_0_0_1_n_n.contr.Idx) :
    (dot_S400000x64_S64x32_S400000x32_1_0_0_1_n_n.rhsIdx i q 0).val = (q ⟨0, by decide⟩).val :=
  dot_S400000x64_S64x32_S400000x32_1_0_0_1_n_n.rhsIdx_val_of_single rfl i q
theorem dot64_rhs_1 (i : S400000x32.Idx) (q : dot_S400000x64_S64x32_S400000x32_1_0_0_1_n_n.contr.Idx) :
    (dot_S400000x64_S64x32_S400000x32_1_0_0_1_n_n.rhsIdx i q 1).val = (i 1).val := by
  unfold DotDims.rhsIdx
  rw [dif_neg (show ¬(1 : Fin S64x32.rank) ∈ dot_S400000x64_S64x32_S400000x32_1_0_0_1_n_n.rhsBatch by decide), dif_pos (show (1 : Fin S64x32.rank) ∈ dot_S400000x64_S64x32_S400000x32_1_0_0_1_n_n.rhsNonContracting by decide)]
  rfl

/-- The product of a 400000 x 64 array with a 64 x 32 array at the entry (r, q): the sum over the 64 contracted positions. -/
theorem dot64_apply (l : FVec Ideal S400000x64 .f32) (w : FVec Ideal S64x32 .f32) (r : Fin 400000) (q : Fin 32) :
    Host.dotGeneral (F := Ideal) dot_S400000x64_S64x32_S400000x32_1_0_0_1_n_n none l w (ix2 r q)
      = ∑ k : Fin 64, l (ix2 r k) * w (ix2 k q) := by
  simp only [Host.dotGeneral]
  rw [Ideal.dotGeneral_apply, ← Equiv.sum_comp (ValueIdx.contrEquiv1 dot_S400000x64_S64x32_S400000x32_1_0_0_1_n_n 64 rfl rfl).symm]
  refine Finset.sum_congr rfl fun k _ => ?_
  have hk := ValueIdx.contrEquiv1_symm_val dot_S400000x64_S64x32_S400000x32_1_0_0_1_n_n 64 rfl rfl k
  have el : dot_S400000x64_S64x32_S400000x32_1_0_0_1_n_n.lhsIdx (ix2 r q) ((ValueIdx.contrEquiv1 dot_S400000x64_S64x32_S400000x32_1_0_0_1_n_n 64 rfl rfl).symm k) = ix2 r k := funext fun a => Fin.ext (by
    match a with
    | ⟨0, _⟩ => exact dot64_lhs_0 _ _
    | ⟨1, _⟩ => exact (dot64_lhs_1 _ _).trans hk)
  have er : dot_S400000x64_S64x32_S400000x32_1_0_0_1_n_n.rhsIdx (ix2 r q) ((ValueIdx.contrEquiv1 dot_S400000x64_S64x32_S400000x32_1_0_0_1_n_n 64 rfl rfl).symm k) = ix2 k q := funext fun a => Fin.ext (by
    match a with
    | ⟨0, _⟩ => exact (dot64_rhs_0 _ _).trans hk
    | ⟨1, _⟩ => exact dot64_rhs_1 _ _)
  rw [el, er]

theorem dot32_lhs_0 (i : S400000x32.Idx) (q : dot_S400000x32_S32x32_S400000x32_1_0_0_1_n_n.contr.Idx) :
    (dot_S400000x32_S32x32_S400000x32_1_0_0_1_n_n.lhsIdx i q 0).val = (i 0).val := by
  unfold DotDims.lhsIdx
  rw [dif_neg (show ¬(0 : Fin S400000x32.rank) ∈ dot_S400000x32_S32x32_S400000x32_1_0_0_1_n_n.lhsBatch by decide), dif_pos (show (0 : Fin S400000x32.rank) ∈ dot_S400000x32_S32x32_S400000x32_1_0_0_1_n_n.lhsNonContracting by decide)]
  rfl
theorem dot32_lhs_1 (i : S400000x32.Idx) (q : dot_S400000x32_S32x32_S400000x32_1_0_0_1_n_n.contr.Idx) :
    (dot_S400000x32_S32x32_S400000x32_1_0_0_1_n_n.lhsIdx i q 1).val = (q ⟨0, by decide⟩).val :=
  dot_S400000x32_S32x32_S400000x32_1_0_0_1_n_n.lhsIdx_val_of_single rfl i q
theorem dot32_rhs_0 (i : S400000x32.Idx) (q : dot_S400000x32_S32x32_S400000x32_1_0_0_1_n_n.contr.Idx) :
    (dot_S400000x32_S32x32_S400000x32_1_0_0_1_n_n.rhsIdx i q 0).val = (q ⟨0, by decide⟩).val :=
  dot_S400000x32_S32x32_S400000x32_1_0_0_1_n_n.rhsIdx_val_of_single rfl i q
theorem dot32_rhs_1 (i : S400000x32.Idx) (q : dot_S400000x32_S32x32_S400000x32_1_0_0_1_n_n.contr.Idx) :
    (dot_S400000x32_S32x32_S400000x32_1_0_0_1_n_n.rhsIdx i q 1).val = (i 1).val := by
  unfold DotDims.rhsIdx
  rw [dif_neg (show ¬(1 : Fin S32x32.rank) ∈ dot_S400000x32_S32x32_S400000x32_1_0_0_1_n_n.rhsBatch by decide), dif_pos (show (1 : Fin S32x32.rank) ∈ dot_S400000x32_S32x32_S400000x32_1_0_0_1_n_n.rhsNonContracting by decide)]
  rfl

/-- The product of a 400000 x 32 array with a 32 x 32 array at the entry (r, q): the sum over the 32 contracted positions. -/
theorem dot32_apply (l : FVec Ideal S400000x32 .f32) (w : FVec Ideal S32x32 .f32) (r : Fin 400000) (q : Fin 32) :
    Host.dotGeneral (F := Ideal) dot_S400000x32_S32x32_S400000x32_1_0_0_1_n_n none l w (ix2 r q)
      = ∑ k : Fin 32, l (ix2 r k) * w (ix2 k q) := by
  simp only [Host.dotGeneral]
  rw [Ideal.dotGeneral_apply, ← Equiv.sum_comp (ValueIdx.contrEquiv1 dot_S400000x32_S32x32_S400000x32_1_0_0_1_n_n 32 rfl rfl).symm]
  refine Finset.sum_congr rfl fun k _ => ?_
  have hk := ValueIdx.contrEquiv1_symm_val dot_S400000x32_S32x32_S400000x32_1_0_0_1_n_n 32 rfl rfl k
  have el : dot_S400000x32_S32x32_S400000x32_1_0_0_1_n_n.lhsIdx (ix2 r q) ((ValueIdx.contrEquiv1 dot_S400000x32_S32x32_S400000x32_1_0_0_1_n_n 32 rfl rfl).symm k) = ix2 r k := funext fun a => Fin.ext (by
    match a with
    | ⟨0, _⟩ => exact dot32_lhs_0 _ _
    | ⟨1, _⟩ => exact (dot32_lhs_1 _ _).trans hk)
  have er : dot_S400000x32_S32x32_S400000x32_1_0_0_1_n_n.rhsIdx (ix2 r q) ((ValueIdx.contrEquiv1 dot_S400000x32_S32x32_S400000x32_1_0_0_1_n_n 32 rfl rfl).symm k) = ix2 k q := funext fun a => Fin.ext (by
    match a with
    | ⟨0, _⟩ => exact (dot32_rhs_0 _ _).trans hk
    | ⟨1, _⟩ => exact dot32_rhs_1 _ _)
  rw [el, er]

theorem dot2_lhs_0 (i : S400000x2.Idx) (q : dot_S400000x32_S32x2_S400000x2_1_0_0_1_n_n.contr.Idx) :
    (dot_S400000x32_S32x2_S400000x2_1_0_0_1_n_n.lhsIdx i q 0).val = (i 0).val := by
  unfold DotDims.lhsIdx
  rw [dif_neg (show ¬(0 : Fin S400000x32.rank) ∈ dot_S400000x32_S32x2_S400000x2_1_0_0_1_n_n.lhsBatch by decide), dif_pos (show (0 : Fin S400000x32.rank) ∈ dot_S400000x32_S32x2_S400000x2_1_0_0_1_n_n.lhsNonContracting by decide)]
  rfl
theorem dot2_lhs_1 (i : S400000x2.Idx) (q : dot_S400000x32_S32x2_S400000x2_1_0_0_1_n_n.contr.Idx) :
    (dot_S400000x32_S32x2_S400000x2_1_0_0_1_n_n.lhsIdx i q 1).val = (q ⟨0, by decide⟩).val :=
  dot_S400000x32_S32x2_S400000x2_1_0_0_1_n_n.lhsIdx_val_of_single rfl i q
theorem dot2_rhs_0 (i : S400000x2.Idx) (q : dot_S400000x32_S32x2_S400000x2_1_0_0_1_n_n.contr.Idx) :
    (dot_S400000x32_S32x2_S400000x2_1_0_0_1_n_n.rhsIdx i q 0).val = (q ⟨0, by decide⟩).val :=
  dot_S400000x32_S32x2_S400000x2_1_0_0_1_n_n.rhsIdx_val_of_single rfl i q
theorem dot2_rhs_1 (i : S400000x2.Idx) (q : dot_S400000x32_S32x2_S400000x2_1_0_0_1_n_n.contr.Idx) :
    (dot_S400000x32_S32x2_S400000x2_1_0_0_1_n_n.rhsIdx i q 1).val = (i 1).val := by
  unfold DotDims.rhsIdx
  rw [dif_neg (show ¬(1 : Fin S32x2.rank) ∈ dot_S400000x32_S32x2_S400000x2_1_0_0_1_n_n.rhsBatch by decide), dif_pos (show (1 : Fin S32x2.rank) ∈ dot_S400000x32_S32x2_S400000x2_1_0_0_1_n_n.rhsNonContracting by decide)]
  rfl

/-- The product of a 400000 x 32 array with a 32 x 2 array at the entry (r, q): the sum over the 32 contracted positions. -/
theorem dot2_apply (l : FVec Ideal S400000x32 .f32) (w : FVec Ideal S32x2 .f32) (r : Fin 400000) (q : Fin 2) :
    Host.dotGeneral (F := Ideal) dot_S400000x32_S32x2_S400000x2_1_0_0_1_n_n none l w (ix2 r q)
      = ∑ k : Fin 32, l (ix2 r k) * w (ix2 k q) := by
  simp only [Host.dotGeneral]
  rw [Ideal.dotGeneral_apply, ← Equiv.sum_comp (ValueIdx.contrEquiv1 dot_S400000x32_S32x2_S400000x2_1_0_0_1_n_n 32 rfl rfl).symm]
  refine Finset.sum_congr rfl fun k _ => ?_
  have hk := ValueIdx.contrEquiv1_symm_val dot_S400000x32_S32x2_S400000x2_1_0_0_1_n_n 32 rfl rfl k
  have el : dot_S400000x32_S32x2_S400000x2_1_0_0_1_n_n.lhsIdx (ix2 r q) ((ValueIdx.contrEquiv1 dot_S400000x32_S32x2_S400000x2_1_0_0_1_n_n 32 rfl rfl).symm k) = ix2 r k := funext fun a => Fin.ext (by
    match a with
    | ⟨0, _⟩ => exact dot2_lhs_0 _ _
    | ⟨1, _⟩ => exact (dot2_lhs_1 _ _).trans hk)
  have er : dot_S400000x32_S32x2_S400000x2_1_0_0_1_n_n.rhsIdx (ix2 r q) ((ValueIdx.contrEquiv1 dot_S400000x32_S32x2_S400000x2_1_0_0_1_n_n 32 rfl rfl).symm k) = ix2 k q := funext fun a => Fin.ext (by
    match a with
    | ⟨0, _⟩ => exact (dot2_rhs_0 _ _).trans hk
    | ⟨1, _⟩ => exact dot2_rhs_1 _ _)
  rw [el, er]

/-! ## The broadcasts at an entry

A broadcast along an axis of extent one reads position 0 of that axis and keeps the other coordinate; a broadcast of
a scalar reads the scalar. -/

/-- The count column laid over 64 features reads the column's entry of the same row. -/
theorem overFeatures64_apply (c : FVec Ideal S400000x1 .f32) (r : Fin 400000) (k : Fin 64) :
    broadcastInDim S400000x64 ![0, 1] bcast_S400000x1_S400000x64_0_1 c (ix2 r k) = c (ix2 r (0 : Fin 1)) :=
  broadcastInDim_apply _ bcast_S400000x1_S400000x64_0_1 c (ix2 r k) (ix2 r (0 : Fin 1)) (fun a => match a with
    | ⟨0, _⟩ => by show r.val = if (400000 : Nat) = 1 then 0 else r.val; rw [if_neg (by decide)]
    | ⟨1, _⟩ => by show 0 = if (1 : Nat) = 1 then 0 else k.val; rw [if_pos rfl])

/-- The count column laid over 32 features reads the column's entry of the same row. -/
theorem overFeatures32_apply (c : FVec Ideal S400000x1 .f32) (r : Fin 400000) (k : Fin 32) :
    broadcastInDim S400000x32 ![0, 1] bcast_S400000x1_S400000x32_0_1 c (ix2 r k) = c (ix2 r (0 : Fin 1)) :=
  broadcastInDim_apply _ bcast_S400000x1_S400000x32_0_1 c (ix2 r k) (ix2 r (0 : Fin 1)) (fun a => match a with
    | ⟨0, _⟩ => by show r.val = if (400000 : Nat) = 1 then 0 else r.val; rw [if_neg (by decide)]
    | ⟨1, _⟩ => by show 0 = if (1 : Nat) = 1 then 0 else k.val; rw [if_pos rfl])

/-- A bias row of 32 channels laid over the 400000 rows reads the row's entry of the same column. -/
theorem overRows32_apply (b : FVec Ideal S1x32 .f32) (r : Fin 400000) (q : Fin 32) :
    broadcastInDim S400000x32 ![0, 1] bcast_S1x32_S400000x32_0_1 b (ix2 r q) = b (ix2 (0 : Fin 1) q) :=
  broadcastInDim_apply _ bcast_S1x32_S400000x32_0_1 b (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)])

/-- A bias row of 2 channels laid over the 400000 rows reads the row's entry of the same column. -/
theorem overRows2_apply (b : FVec Ideal S1x2 .f32) (r : Fin 400000) (q : Fin 2) :
    broadcastInDim S400000x2 ![0, 1] bcast_S1x2_S400000x2_0_1 b (ix2 r q) = b (ix2 (0 : Fin 1) q) :=
  broadcastInDim_apply _ bcast_S1x2_S400000x2_0_1 b (ix2 r q) (ix2 (0 : Fin 1) q) (fun a => match a with
    | ⟨0, _⟩ => by show 0 = if (1 : Nat) = 1 then 0 else r.val; rw [if_pos rfl]
    | ⟨1, _⟩ => by show q.val = if (2 : Nat) = 1 then 0 else q.val; rw [if_neg (by decide)])

/-- The scalar 1.0 laid over a column is 1.0 at every entry. -/
theorem ones_apply (j : S400000x1.Idx) :
    broadcastInDim S400000x1 ![] bcast_S_S400000x1 (constant (F := Ideal) S_ .f32 0x3F800000#32) j = Sage.one :=
  broadcastInDim_scalar_apply bcast_S_S400000x1 _ j

/-- The scalar 0.0 laid over the layer's result is 0.0 at every entry. -/
theorem zeros32_apply (j : S400000x32.Idx) :
    broadcastInDim S400000x32 ![] bcast_S_S400000x32 (constant (F := Ideal) S_ .f32 0x00000000#32) j = Sage.zero :=
  broadcastInDim_scalar_apply bcast_S_S400000x32 _ j

/-- The count clamped below at one and laid over 64 features, at an entry. -/
theorem clamp64_apply (cnt : FVec Ideal S400000x1 .f32) (r : Fin 400000) (k : Fin 64) :
    broadcastInDim S400000x64 ![0, 1] bcast_S400000x1_S400000x64_0_1 (maximumf cnt (broadcastInDim S400000x1 ![] bcast_S_S400000x1 (constant (F := Ideal) S_ .f32 0x3F800000#32))) (ix2 r k)
      = max (cnt (ix2 r (0 : Fin 1))) Sage.one := by
  refine (overFeatures64_apply _ r k).trans ?_
  exact congrArg (max (cnt (ix2 r (0 : Fin 1)))) (ones_apply _)

/-- The count clamped below at one and laid over 32 features, at an entry. -/
theorem clamp32_apply (cnt : FVec Ideal S400000x1 .f32) (r : Fin 400000) (k : Fin 32) :
    broadcastInDim S400000x32 ![0, 1] bcast_S400000x1_S400000x32_0_1 (maximumf cnt (broadcastInDim S400000x1 ![] bcast_S_S400000x1 (constant (F := Ideal) S_ .f32 0x3F800000#32))) (ix2 r k)
      = max (cnt (ix2 r (0 : Fin 1))) Sage.one := by
  refine (overFeatures32_apply _ r k).trans ?_
  exact congrArg (max (cnt (ix2 r (0 : Fin 1)))) (ones_apply _)

/-! ## The layer and the head over variables

Read at the entry (r, q): the maximum and the two sums are entrywise, each product is the sum over the contracted
axis, the bias and the zero are read through their broadcasts, and inside the left product the quotient's divisor is
the clamped count of row r. What is left is the layer of SageSpec at (r, q), whose row and column are r and q. -/

/-- The host's layer over 64 input features, as one term of its six operands, is the layer of SageSpec. -/
theorem layer64_eq (s : FVec Ideal S400000x64 .f32) (cnt : FVec Ideal S400000x1 .f32) (x : FVec Ideal S400000x64 .f32)
    (wl : FVec Ideal S64x32 .f32) (bl : FVec Ideal S32 .f32) (wr : FVec Ideal S64x32 .f32) :
    maximumf (addf (addf (Host.dotGeneral dot_S400000x64_S64x32_S400000x32_1_0_0_1_n_n none (Host.divf s (broadcastInDim S400000x64 ![0, 1] bcast_S400000x1_S400000x64_0_1 (maximumf cnt (broadcastInDim S400000x1 ![] bcast_S_S400000x1 (constant S_ .f32 0x3F800000#32))))) wl) (broadcastInDim S400000x32 ![0, 1] bcast_S1x32_S400000x32_0_1 (broadcastInDim S1x32 ![1] bcast_S32_S1x32_1 bl))) (Host.dotGeneral dot_S400000x64_S64x32_S400000x32_1_0_0_1_n_n none x wr)) (broadcastInDim S400000x32 ![] bcast_S_S400000x32 (constant S_ .f32 0x00000000#32))
      = Sage.combine s cnt x wl (broadcastInDim S1x32 ![1] bcast_S32_S1x32_1 bl) wr := by
  funext i
  obtain ⟨r, q, rfl⟩ : ∃ (r : Fin 400000) (q : Fin 32), i = ix2 r q := ⟨i 0, i 1, eq_ix2 i⟩
  unfold Sage.combine
  simp only [maximumf_apply, addf_apply]
  rw [dot64_apply, dot64_apply, overRows32_apply, zeros32_apply]
  refine congrArg (fun t => max (t + _ + _) _) (Finset.sum_congr rfl fun k _ => ?_)
  exact congrArg (fun t => Ideal.div (s (ix2 r k)) t * wl (ix2 k q)) (clamp64_apply cnt r k)

/-- The host's layer over 32 input features. -/
theorem layer32_eq (s : FVec Ideal S400000x32 .f32) (cnt : FVec Ideal S400000x1 .f32) (x : FVec Ideal S400000x32 .f32)
    (wl : FVec Ideal S32x32 .f32) (bl : FVec Ideal S32 .f32) (wr : FVec Ideal S32x32 .f32) :
    maximumf (addf (addf (Host.dotGeneral dot_S400000x32_S32x32_S400000x32_1_0_0_1_n_n none (Host.divf s (broadcastInDim S400000x32 ![0, 1] bcast_S400000x1_S400000x32_0_1 (maximumf cnt (broadcastInDim S400000x1 ![] bcast_S_S400000x1 (constant S_ .f32 0x3F800000#32))))) wl) (broadcastInDim S400000x32 ![0, 1] bcast_S1x32_S400000x32_0_1 (broadcastInDim S1x32 ![1] bcast_S32_S1x32_1 bl))) (Host.dotGeneral dot_S400000x32_S32x32_S400000x32_1_0_0_1_n_n none x wr)) (broadcastInDim S400000x32 ![] bcast_S_S400000x32 (constant S_ .f32 0x00000000#32))
      = Sage.combine s cnt x wl (broadcastInDim S1x32 ![1] bcast_S32_S1x32_1 bl) wr := by
  funext i
  obtain ⟨r, q, rfl⟩ : ∃ (r : Fin 400000) (q : Fin 32), i = ix2 r q := ⟨i 0, i 1, eq_ix2 i⟩
  unfold Sage.combine
  simp only [maximumf_apply, addf_apply]
  rw [dot32_apply, dot32_apply, overRows32_apply, zeros32_apply]
  refine congrArg (fun t => max (t + _ + _) _) (Finset.sum_congr rfl fun k _ => ?_)
  exact congrArg (fun t => Ideal.div (s (ix2 r k)) t * wl (ix2 k q)) (clamp32_apply cnt r k)

/-- The host's classifier head. -/
theorem head_eq (x : FVec Ideal S400000x32 .f32) (w : FVec Ideal S32x2 .f32) (b : FVec Ideal S2 .f32) :
    addf (Host.dotGeneral dot_S400000x32_S32x2_S400000x2_1_0_0_1_n_n none x w) (broadcastInDim S400000x2 ![0, 1] bcast_S1x2_S400000x2_0_1 (broadcastInDim S1x2 ![1] bcast_S2_S1x2_1 b))
      = Sage.head x w (broadcastInDim S1x2 ![1] bcast_S2_S1x2_1 b) := by
  funext i
  obtain ⟨r, q, rfl⟩ : ∃ (r : Fin 400000) (q : Fin 2), i = ix2 r q := ⟨i 0, i 1, eq_ix2 i⟩
  unfold Sage.head
  simp only [addf_apply]
  exact congrArg₂ (fun a c => a + c) (dot2_apply x w r q) (overRows2_apply _ r q)

/-! ## The reference's stages, one layer at a time

Each stage of the reference is the host's layer (or head) term at particular operands: unfolding the operations
between the stage and its operand stages, and no further, leaves exactly that term. -/

/-- Layer 1 at the transaction nodes. -/
theorem tx_eq (x0 : (⟨S400000x64, .f32⟩ : BufTy).Contents (Elt Ideal)) (x1 : (⟨S400000x64, .f32⟩ : BufTy).Contents (Elt Ideal)) (x2 : (⟨S2x1500000, .i32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) :
    val_main_v28 (F := Ideal) x0 x1 x2 x4 x5 x6 = Sage.combine (val_main_v13 (F := Ideal) x0 x2) (val_main_v17 (F := Ideal) x2) x1 x4 (val_main_v23 (F := Ideal) x5) x6 := by
  unfold val_main_v28 val_main_v27 val_main_v25 val_main_v22 val_main_v21 val_main_v20 val_main_v19 val_main_v18 val_main_cst_3 val_main_v24 val_main_v23 val_main_v26 val_main_call0_v0 val_main_call0_cst
  exact layer64_eq _ _ _ _ _ _

/-- Layer 1 at the address nodes. -/
theorem ad_eq (x0 : (⟨S400000x64, .f32⟩ : BufTy).Contents (Elt Ideal)) (x1 : (⟨S400000x64, .f32⟩ : BufTy).Contents (Elt Ideal)) (x3 : (⟨S2x1500000, .i32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) :
    val_main_v57 (F := Ideal) x0 x1 x3 x7 x8 x9 = Sage.combine (val_main_v42 (F := Ideal) x1 x3) (val_main_v46 (F := Ideal) x3) x0 x7 (val_main_v52 (F := Ideal) x8) x9 := by
  unfold val_main_v57 val_main_v56 val_main_v54 val_main_v51 val_main_v50 val_main_v49 val_main_v48 val_main_v47 val_main_cst_9 val_main_v53 val_main_v52 val_main_v55 val_main_call1_v0 val_main_call1_cst
  exact layer64_eq _ _ _ _ _ _

/-- Layer 2 at the transaction nodes: the destination features are layer 1's. -/
theorem tx2_eq (x0 : (⟨S400000x64, .f32⟩ : BufTy).Contents (Elt Ideal)) (x1 : (⟨S400000x64, .f32⟩ : BufTy).Contents (Elt Ideal)) (x2 : (⟨S2x1500000, .i32⟩ : BufTy).Contents (Elt Ideal)) (x3 : (⟨S2x1500000, .i32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S32x32, .f32⟩ : BufTy).Contents (Elt Ideal)) :
    val_main_v86 (F := Ideal) x0 x1 x2 x3 x4 x5 x6 x7 x8 x9 x10 x11 x12 = Sage.combine (val_main_v71 (F := Ideal) x0 x1 x2 x3 x7 x8 x9) (val_main_v75 (F := Ideal) x2) (val_main_v28 (F := Ideal) x0 x1 x2 x4 x5 x6) x10 (val_main_v81 (F := Ideal) x11) x12 := by
  unfold val_main_v86 val_main_v85 val_main_v83 val_main_v80 val_main_v79 val_main_v78 val_main_v77 val_main_v76 val_main_cst_15 val_main_v82 val_main_v81 val_main_v84 val_main_call2_v0 val_main_call2_cst
  exact layer32_eq _ _ _ _ _ _

/-- Layer 2 at the address nodes. -/
theorem ad2_eq (x0 : (⟨S400000x64, .f32⟩ : BufTy).Contents (Elt Ideal)) (x1 : (⟨S400000x64, .f32⟩ : BufTy).Contents (Elt Ideal)) (x2 : (⟨S2x1500000, .i32⟩ : BufTy).Contents (Elt Ideal)) (x3 : (⟨S2x1500000, .i32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x13 : (⟨S32x32, .f32⟩ : BufTy).Contents (Elt Ideal)) (x14 : (⟨S32, .f32⟩ : BufTy).Contents (Elt Ideal)) (x15 : (⟨S32x32, .f32⟩ : BufTy).Contents (Elt Ideal)) :
    val_main_v115 (F := Ideal) x0 x1 x2 x3 x4 x5 x6 x7 x8 x9 x13 x14 x15 = Sage.combine (val_main_v100 (F := Ideal) x0 x1 x2 x3 x4 x5 x6) (val_main_v104 (F := Ideal) x3) (val_main_v57 (F := Ideal) x0 x1 x3 x7 x8 x9) x13 (val_main_v110 (F := Ideal) x14) x15 := by
  unfold val_main_v115 val_main_v114 val_main_v112 val_main_v109 val_main_v108 val_main_v107 val_main_v106 val_main_v105 val_main_cst_21 val_main_v111 val_main_v110 val_main_v113 val_main_call3_v0 val_main_call3_cst
  exact layer32_eq _ _ _ _ _ _

/-- Layer 3 at the address nodes. -/
theorem ad3_eq (x0 : (⟨S400000x64, .f32⟩ : BufTy).Contents (Elt Ideal)) (x1 : (⟨S400000x64, .f32⟩ : BufTy).Contents (Elt Ideal)) (x2 : (⟨S2x1500000, .i32⟩ : BufTy).Contents (Elt Ideal)) (x3 : (⟨S2x1500000, .i32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S32x32, .f32⟩ : BufTy).Contents (Elt Ideal)) (x13 : (⟨S32x32, .f32⟩ : BufTy).Contents (Elt Ideal)) (x14 : (⟨S32, .f32⟩ : BufTy).Contents (Elt Ideal)) (x15 : (⟨S32x32, .f32⟩ : BufTy).Contents (Elt Ideal)) (x19 : (⟨S32x32, .f32⟩ : BufTy).Contents (Elt Ideal)) (x20 : (⟨S32, .f32⟩ : BufTy).Contents (Elt Ideal)) (x21 : (⟨S32x32, .f32⟩ : BufTy).Contents (Elt Ideal)) :
    val_main_v144 (F := Ideal) x0 x1 x2 x3 x4 x5 x6 x7 x8 x9 x10 x11 x12 x13 x14 x15 x19 x20 x21 = Sage.combine (val_main_v129 (F := Ideal) x0 x1 x2 x3 x4 x5 x6 x7 x8 x9 x10 x11 x12) (val_main_v133 (F := Ideal) x3) (val_main_v115 (F := Ideal) x0 x1 x2 x3 x4 x5 x6 x7 x8 x9 x13 x14 x15) x19 (val_main_v139 (F := Ideal) x20) x21 := by
  unfold val_main_v144 val_main_v143 val_main_v141 val_main_v138 val_main_v137 val_main_v136 val_main_v135 val_main_v134 val_main_cst_27 val_main_v140 val_main_v139 val_main_v142 val_main_call4_v0 val_main_call4_cst
  exact layer32_eq _ _ _ _ _ _

/-- The result: the head of layer 3's address features. -/
theorem out_eq (x0 : (⟨S400000x64, .f32⟩ : BufTy).Contents (Elt Ideal)) (x1 : (⟨S400000x64, .f32⟩ : BufTy).Contents (Elt Ideal)) (x2 : (⟨S2x1500000, .i32⟩ : BufTy).Contents (Elt Ideal)) (x3 : (⟨S2x1500000, .i32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S32x32, .f32⟩ : BufTy).Contents (Elt Ideal)) (x13 : (⟨S32x32, .f32⟩ : BufTy).Contents (Elt Ideal)) (x14 : (⟨S32, .f32⟩ : BufTy).Contents (Elt Ideal)) (x15 : (⟨S32x32, .f32⟩ : BufTy).Contents (Elt Ideal)) (x19 : (⟨S32x32, .f32⟩ : BufTy).Contents (Elt Ideal)) (x20 : (⟨S32, .f32⟩ : BufTy).Contents (Elt Ideal)) (x21 : (⟨S32x32, .f32⟩ : BufTy).Contents (Elt Ideal)) (x22 : (⟨S32x2, .f32⟩ : BufTy).Contents (Elt Ideal)) (x23 : (⟨S2, .f32⟩ : BufTy).Contents (Elt Ideal)) :
    val_main_v148 (F := Ideal) x0 x1 x2 x3 x4 x5 x6 x7 x8 x9 x10 x11 x12 x13 x14 x15 x19 x20 x21 x22 x23 = Sage.head (val_main_v144 (F := Ideal) x0 x1 x2 x3 x4 x5 x6 x7 x8 x9 x10 x11 x12 x13 x14 x15 x19 x20 x21) x22 (val_main_v146 (F := Ideal) x23) := by
  unfold val_main_v148 val_main_v145 val_main_v147 val_main_v146
  exact head_eq _ _ _

end Cert.ReferenceIdeal.Layer

end
-- ==== Proof.LibRowCast.lean ====
/-
  A vector of n entries made into a one-row matrix: by a reshape, or by laying it along axis 1 of a 1 × n array.
  Both read entry (0, j) from entry j, so they are the same array.
-/
import Idealize.ShloMosaic.Lib.Pipeline.Value
import Idealize.ShloMosaic.Lib.ValueIdx

noncomputable section

namespace Cert.LibRowCast

open Idealize.ShloMosaic Idealize.ShloMosaic.ValueIdx

/-- Reshaping a vector of `n` entries to `1 × n` is broadcasting it along axis 1 of a `1 × n` array. -/
theorem shapeCast_row_eq_broadcastInDim {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]; show (i 1).val = (i 0).val * n + (i 1).val
    rw [show (i 0).val = 0 from by omega]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Cert.LibRowCast

end
-- ==== Proof.Region0.lean ====
/-
  The first region (layer 1 at the transaction nodes): the array its write-backs leave is the SAGE layer of the
  arrays it found.  The grid has 20 points; point t stages rows 20000·t … 20000·t + 19999 of the three row-indexed
  operands and of the result, and the whole of the two weight matrices and of the bias row.  What the body stores
  is the layer of the staged blocks, and a layer's entry depends on one row of the row-indexed operands, so point
  t writes back rows 20000·t … of the layer of the whole arrays; the 20 blocks tile the result.
-/
import proofs.«426061_j5686536699973_1_alg».proof.Proof.Gen.KernelIdeal.Frame
import proofs.«426061_j5686536699973_1_alg».proof.Proof.SageSpec
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Row r of block t is row 20000·t + r of the whole. -/
def blockRow (t : Fin cfg0.N) (r : Fin 20000) : Fin 400000 :=
  ⟨t.val * 20000 + r.val, by have ht : t.val < 20 := t.isLt; have hr := r.isLt; omega⟩

/-- The printed index maps over the grid: the row-indexed windows sit at block t of the rows, the others at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer of the arrays the region finds. -/
abbrev layer (c : Dev nD) : Sage.Arr 400000 32 :=
  Sage.combine (V c main_v25) (V c main_v11) (V c main_arg1) (V c main_arg4) (V c main_v26) (V c main_arg6)

/-- The blocks of the row-indexed operands, entry by entry. -/
theorem sums_block (c : Dev nD) (t : Fin cfg0.N) (r : Fin 20000) (k : Fin 64) :
    (iblk0 V c 0 t : Vec Ideal S20000x64 .f32) (ix2 r k) = (V c main_v25 : Vec Ideal S400000x64 .f32) (ix2 (blockRow t r) k) := by
  obtain ⟨e0, e1, -⟩ := index_maps t
  show V c main_v25 (((cfg0.win 0).blk t).view.emb (ix2 r k)) = _
  refine congrArg (V c main_v25) (funext fun a => Fin.ext ?_)
  match a with
  | ⟨0, _⟩ => show win0_0.index t (0 : Fin 2) * 20000 + 1 * r.val = t.val * 20000 + r.val; omega
  | ⟨1, _⟩ => show win0_0.index t (1 : Fin 2) * 64 + 1 * k.val = k.val; omega

theorem count_block (c : Dev nD) (t : Fin cfg0.N) (r : Fin 20000) :
    (iblk0 V c 1 t : Vec Ideal S20000x1 .f32) (ix2 r (0 : Fin 1)) = (V c main_v11 : Vec Ideal S400000x1 .f32) (ix2 (blockRow t r) (0 : Fin 1)) := by
  obtain ⟨-, -, e0, e1, -⟩ := index_maps t
  show V c main_v11 (((cfg0.win 1).blk t).view.emb (ix2 r (0 : Fin 1))) = _
  refine congrArg (V c main_v11) (funext fun a => Fin.ext ?_)
  match a with
  | ⟨0, _⟩ => show win0_1.index t (0 : Fin 2) * 20000 + 1 * r.val = t.val * 20000 + r.val; omega
  | ⟨1, _⟩ => show win0_1.index t (1 : Fin 2) * 1 + 1 * 0 = 0; omega

theorem dest_block (c : Dev nD) (t : Fin cfg0.N) (r : Fin 20000) (k : Fin 64) :
    (iblk0 V c 2 t : Vec Ideal S20000x64 .f32) (ix2 r k) = (V c main_arg1 : Vec Ideal S400000x64 .f32) (ix2 (blockRow t r) k) := by
  obtain ⟨-, -, -, -, e0, e1, -⟩ := index_maps t
  show V c main_arg1 (((cfg0.win 2).blk t).view.emb (ix2 r k)) = _
  refine congrArg (V c main_arg1) (funext fun a => Fin.ext ?_)
  match a with
  | ⟨0, _⟩ => show win0_2.index t (0 : Fin 2) * 20000 + 1 * r.val = t.val * 20000 + r.val; omega
  | ⟨1, _⟩ => show win0_2.index t (1 : Fin 2) * 64 + 1 * k.val = k.val; omega

/-- The weight and bias windows stage their whole arrays at every point. -/
theorem left_block (c : Dev nD) (t : Fin cfg0.N) : (iblk0 V c 3 t : Vec Ideal S64x32 .f32) = V c main_arg4 := by
  obtain ⟨-, -, -, -, -, -, e0, e1, -⟩ := index_maps t
  funext y
  show V c main_arg4 (((cfg0.win 3).blk t).view.emb y) = _
  refine congrArg (V c main_arg4) (funext fun a => Fin.ext ?_)
  match a with
  | ⟨0, _⟩ => show win0_3.index t (0 : Fin 2) * 64 + 1 * (y 0).val = (y 0).val; omega
  | ⟨1, _⟩ => show win0_3.index t (1 : Fin 2) * 32 + 1 * (y 1).val = (y 1).val; omega

theorem bias_block (c : Dev nD) (t : Fin cfg0.N) : (iblk0 V c 4 t : Vec Ideal S1x32 .f32) = V c main_v26 := by
  obtain ⟨-, -, -, -, -, -, -, -, e0, e1, -⟩ := index_maps t
  funext y
  show V c main_v26 (((cfg0.win 4).blk t).view.emb y) = _
  refine congrArg (V c main_v26) (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

theorem right_block (c : Dev nD) (t : Fin cfg0.N) : (iblk0 V c 5 t : Vec Ideal S64x32 .f32) = V c main_arg6 := by
  obtain ⟨-, -, -, -, -, -, -, -, -, -, e0, e1, -⟩ := index_maps t
  funext y
  show V c main_arg6 (((cfg0.win 5).blk t).view.emb y) = _
  refine congrArg (V c main_arg6) (funext fun a => Fin.ext ?_)
  match a with
  | ⟨0, _⟩ => show win0_5.index t (0 : Fin 2) * 64 + 1 * (y 0).val = (y 0).val; omega
  | ⟨1, _⟩ => show win0_5.index t (1 : Fin 2) * 32 + 1 * (y 1).val = (y 1).val; omega

/-- Where block t of the result sits in the whole. -/
theorem result_index (t : Fin cfg0.N) (p : Fin 20000) (q : Fin 32) :
    ((cfg0.win 6).blk t).view.emb (ix2 p q) = ix2 (blockRow t p) q := by
  obtain ⟨-, -, -, -, -, -, -, -, -, -, -, -, e0, e1⟩ := index_maps t
  funext a; apply Fin.ext
  match a with
  | ⟨0, _⟩ => show win0_6.index t (0 : Fin 2) * 20000 + 1 * p.val = t.val * 20000 + p.val; omega
  | ⟨1, _⟩ => show win0_6.index t (1 : Fin 2) * 32 + 1 * q.val = q.val; omega

/-- WHAT POINT t WRITES BACK is block t of the layer of the arrays the region found. -/
theorem flushed_eq
    (hpay : ∀ (v0 : Vec Ideal S20000x1 .f32) (v4 : Vec Ideal S20000x64 .f32) (v8 : Vec Ideal S64x32 .f32) (v10 : Vec Ideal S1x32 .f32)
      (v14 : Vec Ideal S20000x64 .f32) (v15 : Vec Ideal S64x32 .f32), k0_pay1 (F := Ideal) v0 v4 v8 v10 v14 v15 = Sage.combine v4 v0 v14 v8 v10 v15)
    (c : Dev nD) (t : Fin cfg0.N) :
    (dat0 (F := Ideal) V c).flushed 6 t = ((cfg0.win 6).blk t).view.read (Elt Ideal) (layer V c) := by
  show (cfg0.win 6).cut (grid0.coords t) ((dat0 (F := Ideal) V c).after 6 t) = _
  rw [after0_6]
  unfold out0_6
  rw [View.canon_unit_zero zero_offsets]
  simp only [View.ld_unit_zero (S := S20000x64) zero_offsets, View.ld_unit_zero (S := S20000x1) zero_offsets,
    View.ld_unit_zero (S := S64x32) zero_offsets, View.ld_unit_zero (S := S1x32) zero_offsets]
  rw [hpay, left_block V c t, bias_block V c t, right_block V c t]
  funext j
  obtain ⟨p, q, rfl⟩ : ∃ (p : Fin 20000) (q : Fin 32), j = ix2 p q := ⟨j 0, j 1, eq_ix2 j⟩
  show Sage.combine (iblk0 V c 0 t : Vec Ideal S20000x64 .f32) (iblk0 V c 1 t : Vec Ideal S20000x1 .f32) (iblk0 V c 2 t : Vec Ideal S20000x64 .f32)
      (V c main_arg4) (V c main_v26) (V c main_arg6) (ix2 p q) = layer V c (((cfg0.win 6).blk t).view.emb (ix2 p q))
  rw [result_index t p q]
  exact Sage.combine_rows (blockRow t) (V c main_v25) (V c main_v11) (V c main_arg1) (V c main_arg4) (V c main_v26) (V c main_arg6)
    (iblk0 V c 0 t : Vec Ideal S20000x64 .f32) (iblk0 V c 1 t : Vec Ideal S20000x1 .f32) (iblk0 V c 2 t : Vec Ideal S20000x64 .f32)
    (sums_block V c t) (count_block V c t) (dest_block V c t) p q

/-- An index of the result is in point t's block iff each coordinate is in the block's range on its axis. -/
theorem mem_block (t : Fin cfg0.N) (i : S400000x32.Idx) :
    i ∈ ((cfg0.win 6).blk t).view.set ↔ ∀ a : Fin 2, win0_6.index t a * S20000x32.size a ≤ (i a).val ∧ (i a).val < win0_6.index t a * S20000x32.size a + S20000x32.size a := by
  show i ∈ ((View.whole main_v27).slice (win0_6.rect t)).set ↔ _
  rw [View.set_slice_whole, Rect.mem_set_unit]
  exact Iff.rfl

/-- Every entry of the result is in the block of the point its row falls in. -/
theorem covered (i : S400000x32.Idx) : ∃ t : Fin cfg0.N, (cfg0.win 6).flush t = true ∧ i ∈ ((cfg0.win 6).blk t).view.set := by
  have hi0 : (i 0).val < 400000 := (i 0).isLt
  have hi1 : (i 1).val < 32 := (i 1).isLt
  let t : Fin cfg0.N := ⟨(i 0).val / 20000, by show (i 0).val / 20000 < 20; omega⟩
  obtain ⟨-, -, -, -, -, -, -, -, -, -, -, -, e0, e1⟩ := index_maps t
  have ht : t.val = (i 0).val / 20000 := rfl
  refine ⟨t, flush0_6 t, ?_⟩
  rw [mem_block]
  intro a
  match a with
  | ⟨0, _⟩ => show win0_6.index t (0 : Fin 2) * 20000 ≤ (i 0).val ∧ (i 0).val < win0_6.index t (0 : Fin 2) * 20000 + 20000; omega
  | ⟨1, _⟩ => show win0_6.index t (1 : Fin 2) * 32 ≤ (i 1).val ∧ (i 1).val < win0_6.index t (1 : Fin 2) * 32 + 32; omega

/-- THE RESULT ARRAY after the region: the layer of the arrays it found. -/
theorem value
    (hpay : ∀ (v0 : Vec Ideal S20000x1 .f32) (v4 : Vec Ideal S20000x64 .f32) (v8 : Vec Ideal S64x32 .f32) (v10 : Vec Ideal S1x32 .f32)
      (v14 : Vec Ideal S20000x64 .f32) (v15 : Vec Ideal S64x32 .f32), k0_pay1 (F := Ideal) v0 v4 v8 v10 v14 v15 = Sage.combine v4 v0 v14 v8 v10 v15)
    (c : Dev nD) : (dat0 (F := Ideal) V c).arrAt 6 cfg0.N = layer V c :=
  (dat0 (F := Ideal) V c).arrAt_eq_of_cover 6 (layer V c) (fun t _ => flushed_eq V hpay c t) covered

end Cert.KernelIdeal.Region0

end
-- ==== Proof.Region1.lean ====
/-
  The second region (layer 1 at the address nodes): the array its write-backs leave is the SAGE layer of the
  arrays it found.  The grid has 20 points; point t stages rows 20000·t … 20000·t + 19999 of the three row-indexed
  operands and of the result, and the whole of the two weight matrices and of the bias row.  What the body stores
  is the layer of the staged blocks, and a layer's entry depends on one row of the row-indexed operands, so point
  t writes back rows 20000·t … of the layer of the whole arrays; the 20 blocks tile the result.
-/
import proofs.«426061_j5686536699973_1_alg».proof.Proof.Gen.KernelIdeal.Frame
import proofs.«426061_j5686536699973_1_alg».proof.Proof.SageSpec
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Row r of block t is row 20000·t + r of the whole. -/
def blockRow (t : Fin cfg1.N) (r : Fin 20000) : Fin 400000 :=
  ⟨t.val * 20000 + r.val, by have ht : t.val < 20 := t.isLt; have hr := r.isLt; omega⟩

/-- The printed index maps over the grid: the row-indexed windows sit at block t of the rows, the others at block 0. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer of the arrays the region finds. -/
abbrev layer (c : Dev nD) : Sage.Arr 400000 32 :=
  Sage.combine (V c main_v37) (V c main_v15) (V c main_arg0) (V c main_arg7) (V c main_v38) (V c main_arg9)

/-- The blocks of the row-indexed operands, entry by entry. -/
theorem sums_block (c : Dev nD) (t : Fin cfg1.N) (r : Fin 20000) (k : Fin 64) :
    (iblk1 V c 0 t : Vec Ideal S20000x64 .f32) (ix2 r k) = (V c main_v37 : Vec Ideal S400000x64 .f32) (ix2 (blockRow t r) k) := by
  obtain ⟨e0, e1, -⟩ := index_maps t
  show V c main_v37 (((cfg1.win 0).blk t).view.emb (ix2 r k)) = _
  refine congrArg (V c main_v37) (funext fun a => Fin.ext ?_)
  match a with
  | ⟨0, _⟩ => show win1_0.index t (0 : Fin 2) * 20000 + 1 * r.val = t.val * 20000 + r.val; omega
  | ⟨1, _⟩ => show win1_0.index t (1 : Fin 2) * 64 + 1 * k.val = k.val; omega

theorem count_block (c : Dev nD) (t : Fin cfg1.N) (r : Fin 20000) :
    (iblk1 V c 1 t : Vec Ideal S20000x1 .f32) (ix2 r (0 : Fin 1)) = (V c main_v15 : Vec Ideal S400000x1 .f32) (ix2 (blockRow t r) (0 : Fin 1)) := by
  obtain ⟨-, -, e0, e1, -⟩ := index_maps t
  show V c main_v15 (((cfg1.win 1).blk t).view.emb (ix2 r (0 : Fin 1))) = _
  refine congrArg (V c main_v15) (funext fun a => Fin.ext ?_)
  match a with
  | ⟨0, _⟩ => show win1_1.index t (0 : Fin 2) * 20000 + 1 * r.val = t.val * 20000 + r.val; omega
  | ⟨1, _⟩ => show win1_1.index t (1 : Fin 2) * 1 + 1 * 0 = 0; omega

theorem dest_block (c : Dev nD) (t : Fin cfg1.N) (r : Fin 20000) (k : Fin 64) :
    (iblk1 V c 2 t : Vec Ideal S20000x64 .f32) (ix2 r k) = (V c main_arg0 : Vec Ideal S400000x64 .f32) (ix2 (blockRow t r) k) := by
  obtain ⟨-, -, -, -, e0, e1, -⟩ := index_maps t
  show V c main_arg0 (((cfg1.win 2).blk t).view.emb (ix2 r k)) = _
  refine congrArg (V c main_arg0) (funext fun a => Fin.ext ?_)
  match a with
  | ⟨0, _⟩ => show win1_2.index t (0 : Fin 2) * 20000 + 1 * r.val = t.val * 20000 + r.val; omega
  | ⟨1, _⟩ => show win1_2.index t (1 : Fin 2) * 64 + 1 * k.val = k.val; omega

/-- The weight and bias windows stage their whole arrays at every point. -/
theorem left_block (c : Dev nD) (t : Fin cfg1.N) : (iblk1 V c 3 t : Vec Ideal S64x32 .f32) = V c main_arg7 := by
  obtain ⟨-, -, -, -, -, -, e0, e1, -⟩ := index_maps t
  funext y
  show V c main_arg7 (((cfg1.win 3).blk t).view.emb y) = _
  refine congrArg (V c main_arg7) (funext fun a => Fin.ext ?_)
  match a with
  | ⟨0, _⟩ => show win1_3.index t (0 : Fin 2) * 64 + 1 * (y 0).val = (y 0).val; omega
  | ⟨1, _⟩ => show win1_3.index t (1 : Fin 2) * 32 + 1 * (y 1).val = (y 1).val; omega

theorem bias_block (c : Dev nD) (t : Fin cfg1.N) : (iblk1 V c 4 t : Vec Ideal S1x32 .f32) = V c main_v38 := by
  obtain ⟨-, -, -, -, -, -, -, -, e0, e1, -⟩ := index_maps t
  funext y
  show V c main_v38 (((cfg1.win 4).blk t).view.emb y) = _
  refine congrArg (V c main_v38) (funext fun a => Fin.ext ?_)
  match a with
  | ⟨0, _⟩ => show win1_4.index t (0 : Fin 2) * 1 + 1 * (y 0).val = (y 0).val; omega
  | ⟨1, _⟩ => show win1_4.index t (1 : Fin 2) * 32 + 1 * (y 1).val = (y 1).val; omega

theorem right_block (c : Dev nD) (t : Fin cfg1.N) : (iblk1 V c 5 t : Vec Ideal S64x32 .f32) = V c main_arg9 := by
  obtain ⟨-, -, -, -, -, -, -, -, -, -, e0, e1, -⟩ := index_maps t
  funext y
  show V c main_arg9 (((cfg1.win 5).blk t).view.emb y) = _
  refine congrArg (V c main_arg9) (funext fun a => Fin.ext ?_)
  match a with
  | ⟨0, _⟩ => show win1_5.index t (0 : Fin 2) * 64 + 1 * (y 0).val = (y 0).val; omega
  | ⟨1, _⟩ => show win1_5.index t (1 : Fin 2) * 32 + 1 * (y 1).val = (y 1).val; omega

/-- Where block t of the result sits in the whole. -/
theorem result_index (t : Fin cfg1.N) (p : Fin 20000) (q : Fin 32) :
    ((cfg1.win 6).blk t).view.emb (ix2 p q) = ix2 (blockRow t p) q := by
  obtain ⟨-, -, -, -, -, -, -, -, -, -, -, -, e0, e1⟩ := index_maps t
  funext a; apply Fin.ext
  match a with
  | ⟨0, _⟩ => show win1_6.index t (0 : Fin 2) * 20000 + 1 * p.val = t.val * 20000 + p.val; omega
  | ⟨1, _⟩ => show win1_6.index t (1 : Fin 2) * 32 + 1 * q.val = q.val; omega

/-- WHAT POINT t WRITES BACK is block t of the layer of the arrays the region found. -/
theorem flushed_eq
    (hpay : ∀ (v0 : Vec Ideal S20000x1 .f32) (v4 : Vec Ideal S20000x64 .f32) (v8 : Vec Ideal S64x32 .f32) (v10 : Vec Ideal S1x32 .f32)
      (v14 : Vec Ideal S20000x64 .f32) (v15 : Vec Ideal S64x32 .f32), k1_pay1 (F := Ideal) v0 v4 v8 v10 v14 v15 = Sage.combine v4 v0 v14 v8 v10 v15)
    (c : Dev nD) (t : Fin cfg1.N) :
    (dat1 (F := Ideal) V c).flushed 6 t = ((cfg1.win 6).blk t).view.read (Elt Ideal) (layer V c) := by
  show (cfg1.win 6).cut (grid1.coords t) ((dat1 (F := Ideal) V c).after 6 t) = _
  rw [after1_6]
  unfold out1_6
  rw [View.canon_unit_zero zero_offsets]
  simp only [View.ld_unit_zero (S := S20000x64) zero_offsets, View.ld_unit_zero (S := S20000x1) zero_offsets,
    View.ld_unit_zero (S := S64x32) zero_offsets, View.ld_unit_zero (S := S1x32) zero_offsets]
  rw [hpay, left_block V c t, bias_block V c t, right_block V c t]
  funext j
  obtain ⟨p, q, rfl⟩ : ∃ (p : Fin 20000) (q : Fin 32), j = ix2 p q := ⟨j 0, j 1, eq_ix2 j⟩
  show Sage.combine (iblk1 V c 0 t : Vec Ideal S20000x64 .f32) (iblk1 V c 1 t : Vec Ideal S20000x1 .f32) (iblk1 V c 2 t : Vec Ideal S20000x64 .f32)
      (V c main_arg7) (V c main_v38) (V c main_arg9) (ix2 p q) = layer V c (((cfg1.win 6).blk t).view.emb (ix2 p q))
  rw [result_index t p q]
  exact Sage.combine_rows (blockRow t) (V c main_v37) (V c main_v15) (V c main_arg0) (V c main_arg7) (V c main_v38) (V c main_arg9)
    (iblk1 V c 0 t : Vec Ideal S20000x64 .f32) (iblk1 V c 1 t : Vec Ideal S20000x1 .f32) (iblk1 V c 2 t : Vec Ideal S20000x64 .f32)
    (sums_block V c t) (count_block V c t) (dest_block V c t) p q

/-- An index of the result is in point t's block iff each coordinate is in the block's range on its axis. -/
theorem mem_block (t : Fin cfg1.N) (i : S400000x32.Idx) :
    i ∈ ((cfg1.win 6).blk t).view.set ↔ ∀ a : Fin 2, win1_6.index t a * S20000x32.size a ≤ (i a).val ∧ (i a).val < win1_6.index t a * S20000x32.size a + S20000x32.size a := by
  show i ∈ ((View.whole main_v39).slice (win1_6.rect t)).set ↔ _
  rw [View.set_slice_whole, Rect.mem_set_unit]
  exact Iff.rfl

/-- Every entry of the result is in the block of the point its row falls in. -/
theorem covered (i : S400000x32.Idx) : ∃ t : Fin cfg1.N, (cfg1.win 6).flush t = true ∧ i ∈ ((cfg1.win 6).blk t).view.set := by
  have hi0 : (i 0).val < 400000 := (i 0).isLt
  have hi1 : (i 1).val < 32 := (i 1).isLt
  let t : Fin cfg1.N := ⟨(i 0).val / 20000, by show (i 0).val / 20000 < 20; omega⟩
  obtain ⟨-, -, -, -, -, -, -, -, -, -, -, -, e0, e1⟩ := index_maps t
  have ht : t.val = (i 0).val / 20000 := rfl
  refine ⟨t, flush1_6 t, ?_⟩
  rw [mem_block]
  intro a
  match a with
  | ⟨0, _⟩ => show win1_6.index t (0 : Fin 2) * 20000 ≤ (i 0).val ∧ (i 0).val < win1_6.index t (0 : Fin 2) * 20000 + 20000; omega
  | ⟨1, _⟩ => show win1_6.index t (1 : Fin 2) * 32 ≤ (i 1).val ∧ (i 1).val < win1_6.index t (1 : Fin 2) * 32 + 32; omega

/-- THE RESULT ARRAY after the region: the layer of the arrays it found. -/
theorem value
    (hpay : ∀ (v0 : Vec Ideal S20000x1 .f32) (v4 : Vec Ideal S20000x64 .f32) (v8 : Vec Ideal S64x32 .f32) (v10 : Vec Ideal S1x32 .f32)
      (v14 : Vec Ideal S20000x64 .f32) (v15 : Vec Ideal S64x32 .f32), k1_pay1 (F := Ideal) v0 v4 v8 v10 v14 v15 = Sage.combine v4 v0 v14 v8 v10 v15)
    (c : Dev nD) : (dat1 (F := Ideal) V c).arrAt 6 cfg1.N = layer V c :=
  (dat1 (F := Ideal) V c).arrAt_eq_of_cover 6 (layer V c) (fun t _ => flushed_eq V hpay c t) covered

end Cert.KernelIdeal.Region1

end
-- ==== Proof.Region2.lean ====
/-
  The third region (layer 2 at the transaction nodes): the array its write-backs leave is the SAGE layer of the
  arrays it found.  The grid has 20 points; point t stages rows 20000·t … 20000·t + 19999 of the three row-indexed
  operands and of the result, and the whole of the two weight matrices and of the bias row.  What the body stores
  is the layer of the staged blocks, and a layer's entry depends on one row of the row-indexed operands, so point
  t writes back rows 20000·t … of the layer of the whole arrays; the 20 blocks tile the result.
-/
import proofs.«426061_j5686536699973_1_alg».proof.Proof.Gen.KernelIdeal.Frame
import proofs.«426061_j5686536699973_1_alg».proof.Proof.SageSpec
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Row r of block t is row 20000·t + r of the whole. -/
def blockRow (t : Fin cfg2.N) (r : Fin 20000) : Fin 400000 :=
  ⟨t.val * 20000 + r.val, by have ht : t.val < 20 := t.isLt; have hr := r.isLt; omega⟩

/-- The printed index maps over the grid: the row-indexed windows sit at block t of the rows, the others at block 0. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The layer of the arrays the region finds. -/
abbrev layer (c : Dev nD) : Sage.Arr 400000 32 :=
  Sage.combine (V c main_v49) (V c main_v11) (V c main_v27) (V c main_arg10) (V c main_v50) (V c main_arg12)

/-- The blocks of the row-indexed operands, entry by entry. -/
theorem sums_block (c : Dev nD) (t : Fin cfg2.N) (r : Fin 20000) (k : Fin 32) :
    (iblk2 V c 0 t : Vec Ideal S20000x32 .f32) (ix2 r k) = (V c main_v49 : Vec Ideal S400000x32 .f32) (ix2 (blockRow t r) k) := by
  obtain ⟨e0, e1, -⟩ := index_maps t
  show V c main_v49 (((cfg2.win 0).blk t).view.emb (ix2 r k)) = _
  refine congrArg (V c main_v49) (funext fun a => Fin.ext ?_)
  match a with
  | ⟨0, _⟩ => show win2_0.index t (0 : Fin 2) * 20000 + 1 * r.val = t.val * 20000 + r.val; omega
  | ⟨1, _⟩ => show win2_0.index t (1 : Fin 2) * 32 + 1 * k.val = k.val; omega

theorem count_block (c : Dev nD) (t : Fin cfg2.N) (r : Fin 20000) :
    (iblk2 V c 1 t : Vec Ideal S20000x1 .f32) (ix2 r (0 : Fin 1)) = (V c main_v11 : Vec Ideal S400000x1 .f32) (ix2 (blockRow t r) (0 : Fin 1)) := by
  obtain ⟨-, -, e0, e1, -⟩ := index_maps t
  show V c main_v11 (((cfg2.win 1).blk t).view.emb (ix2 r (0 : Fin 1))) = _
  refine congrArg (V c main_v11) (funext fun a => Fin.ext ?_)
  match a with
  | ⟨0, _⟩ => show win2_1.index t (0 : Fin 2) * 20000 + 1 * r.val = t.val * 20000 + r.val; omega
  | ⟨1, _⟩ => show win2_1.index t (1 : Fin 2) * 1 + 1 * 0 = 0; omega

theorem dest_block (c : Dev nD) (t : Fin cfg2.N) (r : Fin 20000) (k : Fin 32) :
    (iblk2 V c 2 t : Vec Ideal S20000x32 .f32) (ix2 r k) = (V c main_v27 : Vec Ideal S400000x32 .f32) (ix2 (blockRow t r) k) := by
  obtain ⟨-, -, -, -, e0, e1, -⟩ := index_maps t
  show V c main_v27 (((cfg2.win 2).blk t).view.emb (ix2 r k)) = _
  refine congrArg (V c main_v27) (funext fun a => Fin.ext ?_)
  match a with
  | ⟨0, _⟩ => show win2_2.index t (0 : Fin 2) * 20000 + 1 * r.val = t.val * 20000 + r.val; omega
  | ⟨1, _⟩ => show win2_2.index t (1 : Fin 2) * 32 + 1 * k.val = k.val; omega

/-- The weight and bias windows stage their whole arrays at every point. -/
theorem left_block (c : Dev nD) (t : Fin cfg2.N) : (iblk2 V c 3 t : Vec Ideal S32x32 .f32) = V c main_arg10 := by
  obtain ⟨-, -, -, -, -, -, e0, e1, -⟩ := index_maps t
  funext y
  show V c main_arg10 (((cfg2.win 3).blk t).view.emb y) = _
  refine congrArg (V c main_arg10) (funext fun a => Fin.ext ?_)
  match a with
  | ⟨0, _⟩ => show win2_3.index t (0 : Fin 2) * 32 + 1 * (y 0).val = (y 0).val; omega
  | ⟨1, _⟩ => show win2_3.index t (1 : Fin 2) * 32 + 1 * (y 1).val = (y 1).val; omega

theorem bias_block (c : Dev nD) (t : Fin cfg2.N) : (iblk2 V c 4 t : Vec Ideal S1x32 .f32) = V c main_v50 := by
  obtain ⟨-, -, -, -, -, -, -, -, e0, e1, -⟩ := index_maps t
  funext y
  show V c main_v50 (((cfg2.win 4).blk t).view.emb y) = _
  refine congrArg (V c main_v50) (funext fun a => Fin.ext ?_)
  match a with
  | ⟨0, _⟩ => show win2_4.index t (0 : Fin 2) * 1 + 1 * (y 0).val = (y 0).val; omega
  | ⟨1, _⟩ => show win2_4.index t (1 : Fin 2) * 32 + 1 * (y 1).val = (y 1).val; omega

theorem right_block (c : Dev nD) (t : Fin cfg2.N) : (iblk2 V c 5 t : Vec Ideal S32x32 .f32) = V c main_arg12 := by
  obtain ⟨-, -, -, -, -, -, -, -, -, -, e0, e1, -⟩ := index_maps t
  funext y
  show V c main_arg12 (((cfg2.win 5).blk t).view.emb y) = _
  refine congrArg (V c main_arg12) (funext fun a => Fin.ext ?_)
  match a with
  | ⟨0, _⟩ => show win2_5.index t (0 : Fin 2) * 32 + 1 * (y 0).val = (y 0).val; omega
  | ⟨1, _⟩ => show win2_5.index t (1 : Fin 2) * 32 + 1 * (y 1).val = (y 1).val; omega

/-- Where block t of the result sits in the whole. -/
theorem result_index (t : Fin cfg2.N) (p : Fin 20000) (q : Fin 32) :
    ((cfg2.win 6).blk t).view.emb (ix2 p q) = ix2 (blockRow t p) q := by
  obtain ⟨-, -, -, -, -, -, -, -, -, -, -, -, e0, e1⟩ := index_maps t
  funext a; apply Fin.ext
  match a with
  | ⟨0, _⟩ => show win2_6.index t (0 : Fin 2) * 20000 + 1 * p.val = t.val * 20000 + p.val; omega
  | ⟨1, _⟩ => show win2_6.index t (1 : Fin 2) * 32 + 1 * q.val = q.val; omega

/-- WHAT POINT t WRITES BACK is block t of the layer of the arrays the region found. -/
theorem flushed_eq
    (hpay : ∀ (v0 : Vec Ideal S20000x1 .f32) (v4 : Vec Ideal S20000x32 .f32) (v8 : Vec Ideal S32x32 .f32) (v10 : Vec Ideal S1x32 .f32)
      (v14 : Vec Ideal S20000x32 .f32) (v15 : Vec Ideal S32x32 .f32), k2_pay1 (F := Ideal) v0 v4 v8 v10 v14 v15 = Sage.combine v4 v0 v14 v8 v10 v15)
    (c : Dev nD) (t : Fin cfg2.N) :
    (dat2 (F := Ideal) V c).flushed 6 t = ((cfg2.win 6).blk t).view.read (Elt Ideal) (layer V c) := by
  show (cfg2.win 6).cut (grid2.coords t) ((dat2 (F := Ideal) V c).after 6 t) = _
  rw [after2_6]
  unfold out2_6
  rw [View.canon_unit_zero zero_offsets]
  simp only [View.ld_unit_zero (S := S20000x32) zero_offsets, View.ld_unit_zero (S := S20000x1) zero_offsets,
    View.ld_unit_zero (S := S32x32) zero_offsets, View.ld_unit_zero (S := S1x32) zero_offsets]
  rw [hpay, left_block V c t, bias_block V c t, right_block V c t]
  funext j
  obtain ⟨p, q, rfl⟩ : ∃ (p : Fin 20000) (q : Fin 32), j = ix2 p q := ⟨j 0, j 1, eq_ix2 j⟩
  show Sage.combine (iblk2 V c 0 t : Vec Ideal S20000x32 .f32) (iblk2 V c 1 t : Vec Ideal S20000x1 .f32) (iblk2 V c 2 t : Vec Ideal S20000x32 .f32)
      (V c main_arg10) (V c main_v50) (V c main_arg12) (ix2 p q) = layer V c (((cfg2.win 6).blk t).view.emb (ix2 p q))
  rw [result_index t p q]
  exact Sage.combine_rows (blockRow t) (V c main_v49) (V c main_v11) (V c main_v27) (V c main_arg10) (V c main_v50) (V c main_arg12)
    (iblk2 V c 0 t : Vec Ideal S20000x32 .f32) (iblk2 V c 1 t : Vec Ideal S20000x1 .f32) (iblk2 V c 2 t : Vec Ideal S20000x32 .f32)
    (sums_block V c t) (count_block V c t) (dest_block V c t) p q

/-- An index of the result is in point t's block iff each coordinate is in the block's range on its axis. -/
theorem mem_block (t : Fin cfg2.N) (i : S400000x32.Idx) :
    i ∈ ((cfg2.win 6).blk t).view.set ↔ ∀ a : Fin 2, win2_6.index t a * S20000x32.size a ≤ (i a).val ∧ (i a).val < win2_6.index t a * S20000x32.size a + S20000x32.size a := by
  show i ∈ ((View.whole main_v51).slice (win2_6.rect t)).set ↔ _
  rw [View.set_slice_whole, Rect.mem_set_unit]
  exact Iff.rfl

/-- Every entry of the result is in the block of the point its row falls in. -/
theorem covered (i : S400000x32.Idx) : ∃ t : Fin cfg2.N, (cfg2.win 6).flush t = true ∧ i ∈ ((cfg2.win 6).blk t).view.set := by
  have hi0 : (i 0).val < 400000 := (i 0).isLt
  have hi1 : (i 1).val < 32 := (i 1).isLt
  let t : Fin cfg2.N := ⟨(i 0).val / 20000, by show (i 0).val / 20000 < 20; omega⟩
  obtain ⟨-, -, -, -, -, -, -, -, -, -, -, -, e0, e1⟩ := index_maps t
  have ht : t.val = (i 0).val / 20000 := rfl
  refine ⟨t, flush2_6 t, ?_⟩
  rw [mem_block]
  intro a
  match a with
  | ⟨0, _⟩ => show win2_6.index t (0 : Fin 2) * 20000 ≤ (i 0).val ∧ (i 0).val < win2_6.index t (0 : Fin 2) * 20000 + 20000; omega
  | ⟨1, _⟩ => show win2_6.index t (1 : Fin 2) * 32 ≤ (i 1).val ∧ (i 1).val < win2_6.index t (1 : Fin 2) * 32 + 32; omega

/-- THE RESULT ARRAY after the region: the layer of the arrays it found. -/
theorem value
    (hpay : ∀ (v0 : Vec Ideal S20000x1 .f32) (v4 : Vec Ideal S20000x32 .f32) (v8 : Vec Ideal S32x32 .f32) (v10 : Vec Ideal S1x32 .f32)
      (v14 : Vec Ideal S20000x32 .f32) (v15 : Vec Ideal S32x32 .f32), k2_pay1 (F := Ideal) v0 v4 v8 v10 v14 v15 = Sage.combine v4 v0 v14 v8 v10 v15)
    (c : Dev nD) : (dat2 (F := Ideal) V c).arrAt 6 cfg2.N = layer V c :=
  (dat2 (F := Ideal) V c).arrAt_eq_of_cover 6 (layer V c) (fun t _ => flushed_eq V hpay c t) covered

end Cert.KernelIdeal.Region2

end
-- ==== Proof.Region3.lean ====
/-
  The fourth region (layer 2 at the address nodes): the array its write-backs leave is the SAGE layer of the
  arrays it found.  The grid has 20 points; point t stages rows 20000·t … 20000·t + 19999 of the three row-indexed
  operands and of the result, and the whole of the two weight matrices and of the bias row.  What the body stores
  is the layer of the staged blocks, and a layer's entry depends on one row of the row-indexed operands, so point
  t writes back rows 20000·t … of the layer of the whole arrays; the 20 blocks tile the result.
-/
import proofs.«426061_j5686536699973_1_alg».proof.Proof.Gen.KernelIdeal.Frame
import proofs.«426061_j5686536699973_1_alg».proof.Proof.SageSpec
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Row r of block t is row 20000·t + r of the whole. -/
def blockRow (t : Fin cfg3.N) (r : Fin 20000) : Fin 400000 :=
  ⟨t.val * 20000 + r.val, by have ht : t.val < 20 := t.isLt; have hr := r.isLt; omega⟩

/-- The printed index maps over the grid: the row-indexed windows sit at block t of the rows, the others at block 0. -/
theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The layer of the arrays the region finds. -/
abbrev layer (c : Dev nD) : Sage.Arr 400000 32 :=
  Sage.combine (V c main_v61) (V c main_v15) (V c main_v39) (V c main_arg13) (V c main_v62) (V c main_arg15)

/-- The blocks of the row-indexed operands, entry by entry. -/
theorem sums_block (c : Dev nD) (t : Fin cfg3.N) (r : Fin 20000) (k : Fin 32) :
    (iblk3 V c 0 t : Vec Ideal S20000x32 .f32) (ix2 r k) = (V c main_v61 : Vec Ideal S400000x32 .f32) (ix2 (blockRow t r) k) := by
  obtain ⟨e0, e1, -⟩ := index_maps t
  show V c main_v61 (((cfg3.win 0).blk t).view.emb (ix2 r k)) = _
  refine congrArg (V c main_v61) (funext fun a => Fin.ext ?_)
  match a with
  | ⟨0, _⟩ => show win3_0.index t (0 : Fin 2) * 20000 + 1 * r.val = t.val * 20000 + r.val; omega
  | ⟨1, _⟩ => show win3_0.index t (1 : Fin 2) * 32 + 1 * k.val = k.val; omega

theorem count_block (c : Dev nD) (t : Fin cfg3.N) (r : Fin 20000) :
    (iblk3 V c 1 t : Vec Ideal S20000x1 .f32) (ix2 r (0 : Fin 1)) = (V c main_v15 : Vec Ideal S400000x1 .f32) (ix2 (blockRow t r) (0 : Fin 1)) := by
  obtain ⟨-, -, e0, e1, -⟩ := index_maps t
  show V c main_v15 (((cfg3.win 1).blk t).view.emb (ix2 r (0 : Fin 1))) = _
  refine congrArg (V c main_v15) (funext fun a => Fin.ext ?_)
  match a with
  | ⟨0, _⟩ => show win3_1.index t (0 : Fin 2) * 20000 + 1 * r.val = t.val * 20000 + r.val; omega
  | ⟨1, _⟩ => show win3_1.index t (1 : Fin 2) * 1 + 1 * 0 = 0; omega

theorem dest_block (c : Dev nD) (t : Fin cfg3.N) (r : Fin 20000) (k : Fin 32) :
    (iblk3 V c 2 t : Vec Ideal S20000x32 .f32) (ix2 r k) = (V c main_v39 : Vec Ideal S400000x32 .f32) (ix2 (blockRow t r) k) := by
  obtain ⟨-, -, -, -, e0, e1, -⟩ := index_maps t
  show V c main_v39 (((cfg3.win 2).blk t).view.emb (ix2 r k)) = _
  refine congrArg (V c main_v39) (funext fun a => Fin.ext ?_)
  match a with
  | ⟨0, _⟩ => show win3_2.index t (0 : Fin 2) * 20000 + 1 * r.val = t.val * 20000 + r.val; omega
  | ⟨1, _⟩ => show win3_2.index t (1 : Fin 2) * 32 + 1 * k.val = k.val; omega

/-- The weight and bias windows stage their whole arrays at every point. -/
theorem left_block (c : Dev nD) (t : Fin cfg3.N) : (iblk3 V c 3 t : Vec Ideal S32x32 .f32) = V c main_arg13 := by
  obtain ⟨-, -, -, -, -, -, e0, e1, -⟩ := index_maps t
  funext y
  show V c main_arg13 (((cfg3.win 3).blk t).view.emb y) = _
  refine congrArg (V c main_arg13) (funext fun a => Fin.ext ?_)
  match a with
  | ⟨0, _⟩ => show win3_3.index t (0 : Fin 2) * 32 + 1 * (y 0).val = (y 0).val; omega
  | ⟨1, _⟩ => show win3_3.index t (1 : Fin 2) * 32 + 1 * (y 1).val = (y 1).val; omega

theorem bias_block (c : Dev nD) (t : Fin cfg3.N) : (iblk3 V c 4 t : Vec Ideal S1x32 .f32) = V c main_v62 := by
  obtain ⟨-, -, -, -, -, -, -, -, e0, e1, -⟩ := index_maps t
  funext y
  show V c main_v62 (((cfg3.win 4).blk t).view.emb y) = _
  refine congrArg (V c main_v62) (funext fun a => Fin.ext ?_)
  match a with
  | ⟨0, _⟩ => show win3_4.index t (0 : Fin 2) * 1 + 1 * (y 0).val = (y 0).val; omega
  | ⟨1, _⟩ => show win3_4.index t (1 : Fin 2) * 32 + 1 * (y 1).val = (y 1).val; omega

theorem right_block (c : Dev nD) (t : Fin cfg3.N) : (iblk3 V c 5 t : Vec Ideal S32x32 .f32) = V c main_arg15 := by
  obtain ⟨-, -, -, -, -, -, -, -, -, -, e0, e1, -⟩ := index_maps t
  funext y
  show V c main_arg15 (((cfg3.win 5).blk t).view.emb y) = _
  refine congrArg (V c main_arg15) (funext fun a => Fin.ext ?_)
  match a with
  | ⟨0, _⟩ => show win3_5.index t (0 : Fin 2) * 32 + 1 * (y 0).val = (y 0).val; omega
  | ⟨1, _⟩ => show win3_5.index t (1 : Fin 2) * 32 + 1 * (y 1).val = (y 1).val; omega

/-- Where block t of the result sits in the whole. -/
theorem result_index (t : Fin cfg3.N) (p : Fin 20000) (q : Fin 32) :
    ((cfg3.win 6).blk t).view.emb (ix2 p q) = ix2 (blockRow t p) q := by
  obtain ⟨-, -, -, -, -, -, -, -, -, -, -, -, e0, e1⟩ := index_maps t
  funext a; apply Fin.ext
  match a with
  | ⟨0, _⟩ => show win3_6.index t (0 : Fin 2) * 20000 + 1 * p.val = t.val * 20000 + p.val; omega
  | ⟨1, _⟩ => show win3_6.index t (1 : Fin 2) * 32 + 1 * q.val = q.val; omega

/-- WHAT POINT t WRITES BACK is block t of the layer of the arrays the region found. -/
theorem flushed_eq
    (hpay : ∀ (v0 : Vec Ideal S20000x1 .f32) (v4 : Vec Ideal S20000x32 .f32) (v8 : Vec Ideal S32x32 .f32) (v10 : Vec Ideal S1x32 .f32)
      (v14 : Vec Ideal S20000x32 .f32) (v15 : Vec Ideal S32x32 .f32), k3_pay1 (F := Ideal) v0 v4 v8 v10 v14 v15 = Sage.combine v4 v0 v14 v8 v10 v15)
    (c : Dev nD) (t : Fin cfg3.N) :
    (dat3 (F := Ideal) V c).flushed 6 t = ((cfg3.win 6).blk t).view.read (Elt Ideal) (layer V c) := by
  show (cfg3.win 6).cut (grid3.coords t) ((dat3 (F := Ideal) V c).after 6 t) = _
  rw [after3_6]
  unfold out3_6
  rw [View.canon_unit_zero zero_offsets]
  simp only [View.ld_unit_zero (S := S20000x32) zero_offsets, View.ld_unit_zero (S := S20000x1) zero_offsets,
    View.ld_unit_zero (S := S32x32) zero_offsets, View.ld_unit_zero (S := S1x32) zero_offsets]
  rw [hpay, left_block V c t, bias_block V c t, right_block V c t]
  funext j
  obtain ⟨p, q, rfl⟩ : ∃ (p : Fin 20000) (q : Fin 32), j = ix2 p q := ⟨j 0, j 1, eq_ix2 j⟩
  show Sage.combine (iblk3 V c 0 t : Vec Ideal S20000x32 .f32) (iblk3 V c 1 t : Vec Ideal S20000x1 .f32) (iblk3 V c 2 t : Vec Ideal S20000x32 .f32)
      (V c main_arg13) (V c main_v62) (V c main_arg15) (ix2 p q) = layer V c (((cfg3.win 6).blk t).view.emb (ix2 p q))
  rw [result_index t p q]
  exact Sage.combine_rows (blockRow t) (V c main_v61) (V c main_v15) (V c main_v39) (V c main_arg13) (V c main_v62) (V c main_arg15)
    (iblk3 V c 0 t : Vec Ideal S20000x32 .f32) (iblk3 V c 1 t : Vec Ideal S20000x1 .f32) (iblk3 V c 2 t : Vec Ideal S20000x32 .f32)
    (sums_block V c t) (count_block V c t) (dest_block V c t) p q

/-- An index of the result is in point t's block iff each coordinate is in the block's range on its axis. -/
theorem mem_block (t : Fin cfg3.N) (i : S400000x32.Idx) :
    i ∈ ((cfg3.win 6).blk t).view.set ↔ ∀ a : Fin 2, win3_6.index t a * S20000x32.size a ≤ (i a).val ∧ (i a).val < win3_6.index t a * S20000x32.size a + S20000x32.size a := by
  show i ∈ ((View.whole main_v63).slice (win3_6.rect t)).set ↔ _
  rw [View.set_slice_whole, Rect.mem_set_unit]
  exact Iff.rfl

/-- Every entry of the result is in the block of the point its row falls in. -/
theorem covered (i : S400000x32.Idx) : ∃ t : Fin cfg3.N, (cfg3.win 6).flush t = true ∧ i ∈ ((cfg3.win 6).blk t).view.set := by
  have hi0 : (i 0).val < 400000 := (i 0).isLt
  have hi1 : (i 1).val < 32 := (i 1).isLt
  let t : Fin cfg3.N := ⟨(i 0).val / 20000, by show (i 0).val / 20000 < 20; omega⟩
  obtain ⟨-, -, -, -, -, -, -, -, -, -, -, -, e0, e1⟩ := index_maps t
  have ht : t.val = (i 0).val / 20000 := rfl
  refine ⟨t, flush3_6 t, ?_⟩
  rw [mem_block]
  intro a
  match a with
  | ⟨0, _⟩ => show win3_6.index t (0 : Fin 2) * 20000 ≤ (i 0).val ∧ (i 0).val < win3_6.index t (0 : Fin 2) * 20000 + 20000; omega
  | ⟨1, _⟩ => show win3_6.index t (1 : Fin 2) * 32 ≤ (i 1).val ∧ (i 1).val < win3_6.index t (1 : Fin 2) * 32 + 32; omega

/-- THE RESULT ARRAY after the region: the layer of the arrays it found. -/
theorem value
    (hpay : ∀ (v0 : Vec Ideal S20000x1 .f32) (v4 : Vec Ideal S20000x32 .f32) (v8 : Vec Ideal S32x32 .f32) (v10 : Vec Ideal S1x32 .f32)
      (v14 : Vec Ideal S20000x32 .f32) (v15 : Vec Ideal S32x32 .f32), k3_pay1 (F := Ideal) v0 v4 v8 v10 v14 v15 = Sage.combine v4 v0 v14 v8 v10 v15)
    (c : Dev nD) : (dat3 (F := Ideal) V c).arrAt 6 cfg3.N = layer V c :=
  (dat3 (F := Ideal) V c).arrAt_eq_of_cover 6 (layer V c) (fun t _ => flushed_eq V hpay c t) covered

end Cert.KernelIdeal.Region3

end
-- ==== Proof.Region4.lean ====
/-
  The fifth region (layer 3 at the address nodes): the array its write-backs leave is the SAGE layer of the
  arrays it found.  The grid has 20 points; point t stages rows 20000·t … 20000·t + 19999 of the three row-indexed
  operands and of the result, and the whole of the two weight matrices and of the bias row.  What the body stores
  is the layer of the staged blocks, and a layer's entry depends on one row of the row-indexed operands, so point
  t writes back rows 20000·t … of the layer of the whole arrays; the 20 blocks tile the result.
-/
import proofs.«426061_j5686536699973_1_alg».proof.Proof.Gen.KernelIdeal.Frame
import proofs.«426061_j5686536699973_1_alg».proof.Proof.SageSpec
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Row r of block t is row 20000·t + r of the whole. -/
def blockRow (t : Fin cfg4.N) (r : Fin 20000) : Fin 400000 :=
  ⟨t.val * 20000 + r.val, by have ht : t.val < 20 := t.isLt; have hr := r.isLt; omega⟩

/-- The printed index maps over the grid: the row-indexed windows sit at block t of the rows, the others at block 0. -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The layer of the arrays the region finds. -/
abbrev layer (c : Dev nD) : Sage.Arr 400000 32 :=
  Sage.combine (V c main_v73) (V c main_v15) (V c main_v63) (V c main_arg19) (V c main_v74) (V c main_arg21)

/-- The blocks of the row-indexed operands, entry by entry. -/
theorem sums_block (c : Dev nD) (t : Fin cfg4.N) (r : Fin 20000) (k : Fin 32) :
    (iblk4 V c 0 t : Vec Ideal S20000x32 .f32) (ix2 r k) = (V c main_v73 : Vec Ideal S400000x32 .f32) (ix2 (blockRow t r) k) := by
  obtain ⟨e0, e1, -⟩ := index_maps t
  show V c main_v73 (((cfg4.win 0).blk t).view.emb (ix2 r k)) = _
  refine congrArg (V c main_v73) (funext fun a => Fin.ext ?_)
  match a with
  | ⟨0, _⟩ => show win4_0.index t (0 : Fin 2) * 20000 + 1 * r.val = t.val * 20000 + r.val; omega
  | ⟨1, _⟩ => show win4_0.index t (1 : Fin 2) * 32 + 1 * k.val = k.val; omega

theorem count_block (c : Dev nD) (t : Fin cfg4.N) (r : Fin 20000) :
    (iblk4 V c 1 t : Vec Ideal S20000x1 .f32) (ix2 r (0 : Fin 1)) = (V c main_v15 : Vec Ideal S400000x1 .f32) (ix2 (blockRow t r) (0 : Fin 1)) := by
  obtain ⟨-, -, e0, e1, -⟩ := index_maps t
  show V c main_v15 (((cfg4.win 1).blk t).view.emb (ix2 r (0 : Fin 1))) = _
  refine congrArg (V c main_v15) (funext fun a => Fin.ext ?_)
  match a with
  | ⟨0, _⟩ => show win4_1.index t (0 : Fin 2) * 20000 + 1 * r.val = t.val * 20000 + r.val; omega
  | ⟨1, _⟩ => show win4_1.index t (1 : Fin 2) * 1 + 1 * 0 = 0; omega

theorem dest_block (c : Dev nD) (t : Fin cfg4.N) (r : Fin 20000) (k : Fin 32) :
    (iblk4 V c 2 t : Vec Ideal S20000x32 .f32) (ix2 r k) = (V c main_v63 : Vec Ideal S400000x32 .f32) (ix2 (blockRow t r) k) := by
  obtain ⟨-, -, -, -, e0, e1, -⟩ := index_maps t
  show V c main_v63 (((cfg4.win 2).blk t).view.emb (ix2 r k)) = _
  refine congrArg (V c main_v63) (funext fun a => Fin.ext ?_)
  match a with
  | ⟨0, _⟩ => show win4_2.index t (0 : Fin 2) * 20000 + 1 * r.val = t.val * 20000 + r.val; omega
  | ⟨1, _⟩ => show win4_2.index t (1 : Fin 2) * 32 + 1 * k.val = k.val; omega

/-- The weight and bias windows stage their whole arrays at every point. -/
theorem left_block (c : Dev nD) (t : Fin cfg4.N) : (iblk4 V c 3 t : Vec Ideal S32x32 .f32) = V c main_arg19 := by
  obtain ⟨-, -, -, -, -, -, e0, e1, -⟩ := index_maps t
  funext y
  show V c main_arg19 (((cfg4.win 3).blk t).view.emb y) = _
  refine congrArg (V c main_arg19) (funext fun a => Fin.ext ?_)
  match a with
  | ⟨0, _⟩ => show win4_3.index t (0 : Fin 2) * 32 + 1 * (y 0).val = (y 0).val; omega
  | ⟨1, _⟩ => show win4_3.index t (1 : Fin 2) * 32 + 1 * (y 1).val = (y 1).val; omega

theorem bias_block (c : Dev nD) (t : Fin cfg4.N) : (iblk4 V c 4 t : Vec Ideal S1x32 .f32) = V c main_v74 := by
  obtain ⟨-, -, -, -, -, -, -, -, e0, e1, -⟩ := index_maps t
  funext y
  show V c main_v74 (((cfg4.win 4).blk t).view.emb y) = _
  refine congrArg (V c main_v74) (funext fun a => Fin.ext ?_)
  match a with
  | ⟨0, _⟩ => show win4_4.index t (0 : Fin 2) * 1 + 1 * (y 0).val = (y 0).val; omega
  | ⟨1, _⟩ => show win4_4.index t (1 : Fin 2) * 32 + 1 * (y 1).val = (y 1).val; omega

theorem right_block (c : Dev nD) (t : Fin cfg4.N) : (iblk4 V c 5 t : Vec Ideal S32x32 .f32) = V c main_arg21 := by
  obtain ⟨-, -, -, -, -, -, -, -, -, -, e0, e1, -⟩ := index_maps t
  funext y
  show V c main_arg21 (((cfg4.win 5).blk t).view.emb y) = _
  refine congrArg (V c main_arg21) (funext fun a => Fin.ext ?_)
  match a with
  | ⟨0, _⟩ => show win4_5.index t (0 : Fin 2) * 32 + 1 * (y 0).val = (y 0).val; omega
  | ⟨1, _⟩ => show win4_5.index t (1 : Fin 2) * 32 + 1 * (y 1).val = (y 1).val; omega

/-- Where block t of the result sits in the whole. -/
theorem result_index (t : Fin cfg4.N) (p : Fin 20000) (q : Fin 32) :
    ((cfg4.win 6).blk t).view.emb (ix2 p q) = ix2 (blockRow t p) q := by
  obtain ⟨-, -, -, -, -, -, -, -, -, -, -, -, e0, e1⟩ := index_maps t
  funext a; apply Fin.ext
  match a with
  | ⟨0, _⟩ => show win4_6.index t (0 : Fin 2) * 20000 + 1 * p.val = t.val * 20000 + p.val; omega
  | ⟨1, _⟩ => show win4_6.index t (1 : Fin 2) * 32 + 1 * q.val = q.val; omega

/-- WHAT POINT t WRITES BACK is block t of the layer of the arrays the region found. -/
theorem flushed_eq
    (hpay : ∀ (v0 : Vec Ideal S20000x1 .f32) (v4 : Vec Ideal S20000x32 .f32) (v8 : Vec Ideal S32x32 .f32) (v10 : Vec Ideal S1x32 .f32)
      (v14 : Vec Ideal S20000x32 .f32) (v15 : Vec Ideal S32x32 .f32), k4_pay1 (F := Ideal) v0 v4 v8 v10 v14 v15 = Sage.combine v4 v0 v14 v8 v10 v15)
    (c : Dev nD) (t : Fin cfg4.N) :
    (dat4 (F := Ideal) V c).flushed 6 t = ((cfg4.win 6).blk t).view.read (Elt Ideal) (layer V c) := by
  show (cfg4.win 6).cut (grid4.coords t) ((dat4 (F := Ideal) V c).after 6 t) = _
  rw [after4_6]
  unfold out4_6
  rw [View.canon_unit_zero zero_offsets]
  simp only [View.ld_unit_zero (S := S20000x32) zero_offsets, View.ld_unit_zero (S := S20000x1) zero_offsets,
    View.ld_unit_zero (S := S32x32) zero_offsets, View.ld_unit_zero (S := S1x32) zero_offsets]
  rw [hpay, left_block V c t, bias_block V c t, right_block V c t]
  funext j
  obtain ⟨p, q, rfl⟩ : ∃ (p : Fin 20000) (q : Fin 32), j = ix2 p q := ⟨j 0, j 1, eq_ix2 j⟩
  show Sage.combine (iblk4 V c 0 t : Vec Ideal S20000x32 .f32) (iblk4 V c 1 t : Vec Ideal S20000x1 .f32) (iblk4 V c 2 t : Vec Ideal S20000x32 .f32)
      (V c main_arg19) (V c main_v74) (V c main_arg21) (ix2 p q) = layer V c (((cfg4.win 6).blk t).view.emb (ix2 p q))
  rw [result_index t p q]
  exact Sage.combine_rows (blockRow t) (V c main_v73) (V c main_v15) (V c main_v63) (V c main_arg19) (V c main_v74) (V c main_arg21)
    (iblk4 V c 0 t : Vec Ideal S20000x32 .f32) (iblk4 V c 1 t : Vec Ideal S20000x1 .f32) (iblk4 V c 2 t : Vec Ideal S20000x32 .f32)
    (sums_block V c t) (count_block V c t) (dest_block V c t) p q

/-- An index of the result is in point t's block iff each coordinate is in the block's range on its axis. -/
theorem mem_block (t : Fin cfg4.N) (i : S400000x32.Idx) :
    i ∈ ((cfg4.win 6).blk t).view.set ↔ ∀ a : Fin 2, win4_6.index t a * S20000x32.size a ≤ (i a).val ∧ (i a).val < win4_6.index t a * S20000x32.size a + S20000x32.size a := by
  show i ∈ ((View.whole main_v75).slice (win4_6.rect t)).set ↔ _
  rw [View.set_slice_whole, Rect.mem_set_unit]
  exact Iff.rfl

/-- Every entry of the result is in the block of the point its row falls in. -/
theorem covered (i : S400000x32.Idx) : ∃ t : Fin cfg4.N, (cfg4.win 6).flush t = true ∧ i ∈ ((cfg4.win 6).blk t).view.set := by
  have hi0 : (i 0).val < 400000 := (i 0).isLt
  have hi1 : (i 1).val < 32 := (i 1).isLt
  let t : Fin cfg4.N := ⟨(i 0).val / 20000, by show (i 0).val / 20000 < 20; omega⟩
  obtain ⟨-, -, -, -, -, -, -, -, -, -, -, -, e0, e1⟩ := index_maps t
  have ht : t.val = (i 0).val / 20000 := rfl
  refine ⟨t, flush4_6 t, ?_⟩
  rw [mem_block]
  intro a
  match a with
  | ⟨0, _⟩ => show win4_6.index t (0 : Fin 2) * 20000 ≤ (i 0).val ∧ (i 0).val < win4_6.index t (0 : Fin 2) * 20000 + 20000; omega
  | ⟨1, _⟩ => show win4_6.index t (1 : Fin 2) * 32 ≤ (i 1).val ∧ (i 1).val < win4_6.index t (1 : Fin 2) * 32 + 32; omega

/-- THE RESULT ARRAY after the region: the layer of the arrays it found. -/
theorem value
    (hpay : ∀ (v0 : Vec Ideal S20000x1 .f32) (v4 : Vec Ideal S20000x32 .f32) (v8 : Vec Ideal S32x32 .f32) (v10 : Vec Ideal S1x32 .f32)
      (v14 : Vec Ideal S20000x32 .f32) (v15 : Vec Ideal S32x32 .f32), k4_pay1 (F := Ideal) v0 v4 v8 v10 v14 v15 = Sage.combine v4 v0 v14 v8 v10 v15)
    (c : Dev nD) : (dat4 (F := Ideal) V c).arrAt 6 cfg4.N = layer V c :=
  (dat4 (F := Ideal) V c).arrAt_eq_of_cover 6 (layer V c) (fun t _ => flushed_eq V hpay c t) covered

end Cert.KernelIdeal.Region4

end
-- ==== Proof.Region5.lean ====
/-
  The last region (the classifier head at the address nodes): the array its write-backs leave is the head of the
  arrays it found.  The grid has 20 points; point t stages rows 20000·t … 20000·t + 19999 of the features and of the
  result, and the whole of the weight matrix and of the bias row.  What the body stores is the head of the staged
  blocks, and a head's entry depends on one row of the features, so point t writes back rows 20000·t … of the head
  of the whole arrays; the 20 blocks tile the result.
-/
import proofs.«426061_j5686536699973_1_alg».proof.Proof.Gen.KernelIdeal.Frame
import proofs.«426061_j5686536699973_1_alg».proof.Proof.SageSpec
import Idealize.ShloMosaic.Lib.Pipeline.Value
import Idealize.ShloMosaic.Lib.ValueIdx

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Row r of block t is row 20000·t + r of the whole. -/
def blockRow (t : Fin cfg5.N) (r : Fin 20000) : Fin 400000 :=
  ⟨t.val * 20000 + r.val, by have ht : t.val < 20 := t.isLt; have hr := r.isLt; omega⟩

/-- The printed index maps over the grid: the features and the result sit at block t of the rows, the weights and
    the bias at block 0. -/
theorem index_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The head of the arrays the region finds. -/
abbrev scores (c : Dev nD) : Sage.Arr 400000 2 :=
  Sage.head (V c main_v75) (V c main_arg22) (V c main_v76)

/-- The block of the features, entry by entry. -/
theorem feats_block (c : Dev nD) (t : Fin cfg5.N) (r : Fin 20000) (k : Fin 32) :
    (iblk5 V c 0 t : Vec Ideal S20000x32 .f32) (ix2 r k) = (V c main_v75 : Vec Ideal S400000x32 .f32) (ix2 (blockRow t r) k) := by
  obtain ⟨e0, e1, -⟩ := index_maps t
  show V c main_v75 (((cfg5.win 0).blk t).view.emb (ix2 r k)) = _
  refine congrArg (V c main_v75) (funext fun a => Fin.ext ?_)
  match a with
  | ⟨0, _⟩ => show win5_0.index t (0 : Fin 2) * 20000 + 1 * r.val = t.val * 20000 + r.val; omega
  | ⟨1, _⟩ => show win5_0.index t (1 : Fin 2) * 32 + 1 * k.val = k.val; omega

/-- The weight and bias windows stage their whole arrays at every point. -/
theorem weight_block (c : Dev nD) (t : Fin cfg5.N) : (iblk5 V c 1 t : Vec Ideal S32x2 .f32) = V c main_arg22 := by
  obtain ⟨-, -, e0, e1, -⟩ := index_maps t
  funext y
  show V c main_arg22 (((cfg5.win 1).blk t).view.emb y) = _
  refine congrArg (V c main_arg22) (funext fun a => Fin.ext ?_)
  match a with
  | ⟨0, _⟩ => show win5_1.index t (0 : Fin 2) * 32 + 1 * (y 0).val = (y 0).val; omega
  | ⟨1, _⟩ => show win5_1.index t (1 : Fin 2) * 2 + 1 * (y 1).val = (y 1).val; omega

theorem bias_block (c : Dev nD) (t : Fin cfg5.N) : (iblk5 V c 2 t : Vec Ideal S1x2 .f32) = V c main_v76 := by
  obtain ⟨-, -, -, -, e0, e1, -⟩ := index_maps t
  funext y
  show V c main_v76 (((cfg5.win 2).blk t).view.emb y) = _
  refine congrArg (V c main_v76) (funext fun a => Fin.ext ?_)
  match a with
  | ⟨0, _⟩ => show win5_2.index t (0 : Fin 2) * 1 + 1 * (y 0).val = (y 0).val; omega
  | ⟨1, _⟩ => show win5_2.index t (1 : Fin 2) * 2 + 1 * (y 1).val = (y 1).val; omega

/-- Where block t of the result sits in the whole. -/
theorem result_index (t : Fin cfg5.N) (p : Fin 20000) (q : Fin 2) :
    ((cfg5.win 3).blk t).view.emb (ix2 p q) = ix2 (blockRow t p) q := by
  obtain ⟨-, -, -, -, -, -, e0, e1⟩ := index_maps t
  funext a; apply Fin.ext
  match a with
  | ⟨0, _⟩ => show win5_3.index t (0 : Fin 2) * 20000 + 1 * p.val = t.val * 20000 + p.val; omega
  | ⟨1, _⟩ => show win5_3.index t (1 : Fin 2) * 2 + 1 * q.val = q.val; omega

/-- WHAT POINT t WRITES BACK is block t of the head of the arrays the region found. -/
theorem flushed_eq
    (hpay : ∀ (v0 : Vec Ideal S20000x32 .f32) (v2 : Vec Ideal S32x2 .f32) (v4 : Vec Ideal S1x2 .f32),
      k5_pay1 (F := Ideal) v0 v2 v4 = Sage.head v0 v2 v4)
    (c : Dev nD) (t : Fin cfg5.N) :
    (dat5 (F := Ideal) V c).flushed 3 t = ((cfg5.win 3).blk t).view.read (Elt Ideal) (scores V c) := by
  show (cfg5.win 3).cut (grid5.coords t) ((dat5 (F := Ideal) V c).after 3 t) = _
  rw [after5_3]
  unfold out5_3
  rw [View.canon_unit_zero zero_offsets]
  simp only [View.ld_unit_zero (S := S20000x32) zero_offsets, View.ld_unit_zero (S := S32x2) zero_offsets,
    View.ld_unit_zero (S := S1x2) zero_offsets]
  rw [hpay, weight_block V c t, bias_block V c t]
  funext j
  obtain ⟨p, q, rfl⟩ : ∃ (p : Fin 20000) (q : Fin 2), j = ix2 p q := ⟨j 0, j 1, eq_ix2 j⟩
  show Sage.head (iblk5 V c 0 t : Vec Ideal S20000x32 .f32) (V c main_arg22) (V c main_v76) (ix2 p q)
      = scores V c (((cfg5.win 3).blk t).view.emb (ix2 p q))
  rw [result_index t p q]
  exact Sage.head_rows (blockRow t) (V c main_v75) (V c main_arg22) (V c main_v76)
    (iblk5 V c 0 t : Vec Ideal S20000x32 .f32) (feats_block V c t) p q

/-- An index of the result is in point t's block iff each coordinate is in the block's range on its axis. -/
theorem mem_block (t : Fin cfg5.N) (i : S400000x2.Idx) :
    i ∈ ((cfg5.win 3).blk t).view.set ↔ ∀ a : Fin 2, win5_3.index t a * S20000x2.size a ≤ (i a).val ∧ (i a).val < win5_3.index t a * S20000x2.size a + S20000x2.size a := by
  show i ∈ ((View.whole main_v77).slice (win5_3.rect t)).set ↔ _
  rw [View.set_slice_whole, Rect.mem_set_unit]
  exact Iff.rfl

/-- Every entry of the result is in the block of the point its row falls in. -/
theorem covered (i : S400000x2.Idx) : ∃ t : Fin cfg5.N, (cfg5.win 3).flush t = true ∧ i ∈ ((cfg5.win 3).blk t).view.set := by
  have hi0 : (i 0).val < 400000 := (i 0).isLt
  have hi1 : (i 1).val < 2 := (i 1).isLt
  let t : Fin cfg5.N := ⟨(i 0).val / 20000, by show (i 0).val / 20000 < 20; omega⟩
  obtain ⟨-, -, -, -, -, -, e0, e1⟩ := index_maps t
  have ht : t.val = (i 0).val / 20000 := rfl
  refine ⟨t, flush5_3 t, ?_⟩
  rw [mem_block]
  intro a
  match a with
  | ⟨0, _⟩ => show win5_3.index t (0 : Fin 2) * 20000 ≤ (i 0).val ∧ (i 0).val < win5_3.index t (0 : Fin 2) * 20000 + 20000; omega
  | ⟨1, _⟩ => show win5_3.index t (1 : Fin 2) * 2 ≤ (i 1).val ∧ (i 1).val < win5_3.index t (1 : Fin 2) * 2 + 2; omega

/-- THE RESULT ARRAY after the region: the head of the arrays it found. -/
theorem value
    (hpay : ∀ (v0 : Vec Ideal S20000x32 .f32) (v2 : Vec Ideal S32x2 .f32) (v4 : Vec Ideal S1x2 .f32),
      k5_pay1 (F := Ideal) v0 v2 v4 = Sage.head v0 v2 v4)
    (c : Dev nD) : (dat5 (F := Ideal) V c).arrAt 3 cfg5.N = scores V c :=
  (dat5 (F := Ideal) V c).arrAt_eq_of_cover 3 (scores V c) (fun t _ => flushed_eq V hpay c t) covered

end Cert.KernelIdeal.Region5

end
-- ==== Proof.KernelValue.lean ====
/-
  The kernel's result as a function of its arguments.  @main alternates six stretches of host operations with six
  kernel regions; the buffer contents at the twelve boundaries are a fold from the launch memory.  Read at the
  buffers that matter the fold is: the two edge lists sliced into source and destination rows, the in-degree counts
  (a scatter-add of ones), per layer the summed messages (a gather of the source features scatter-added at the
  destinations), and after each region its result, which is the SAGE layer of what the region found.  The reference
  computes the same stages with host operations only, so each buffer is the reference's stage of the same
  arguments: layer by layer, down to the classifier head.
-/
import proofs.«426061_j5686536699973_1_alg».proof.Proof.Gen.KernelIdeal.Frame
import proofs.«426061_j5686536699973_1_alg».proof.Proof.Gen.ReferenceIdeal.Read
import proofs.«426061_j5686536699973_1_alg».proof.Proof.SageSpec
import proofs.«426061_j5686536699973_1_alg».proof.Proof.KernelPayload
import proofs.«426061_j5686536699973_1_alg».proof.Proof.RefLayer
import proofs.«426061_j5686536699973_1_alg».proof.Proof.LibRowCast
import proofs.«426061_j5686536699973_1_alg».proof.Proof.Region0
import proofs.«426061_j5686536699973_1_alg».proof.Proof.Region1
import proofs.«426061_j5686536699973_1_alg».proof.Proof.Region2
import proofs.«426061_j5686536699973_1_alg».proof.Proof.Region3
import proofs.«426061_j5686536699973_1_alg».proof.Proof.Region4
import proofs.«426061_j5686536699973_1_alg».proof.Proof.Region5
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument's contents at launch. -/
abbrev A (b : Ref sig .tc) := W0 m ρ c (Proc.devRef .tc b)

/-! ## A region leaves every buffer that is not one of its arrays as it found it -/

theorem keep2 (b : Ref sig .tc) (hb : ∀ w, Pipeline.arrRef spec0 w ≠ b) : W2 m ρ c (no_index (Proc.devRef .tc b)) = W1 m ρ c (Proc.devRef .tc b) := W2_of_ne m ρ c b hb
theorem keep4 (b : Ref sig .tc) (hb : ∀ w, Pipeline.arrRef spec1 w ≠ b) : W4 m ρ c (no_index (Proc.devRef .tc b)) = W3 m ρ c (Proc.devRef .tc b) := W4_of_ne m ρ c b hb
theorem keep6 (b : Ref sig .tc) (hb : ∀ w, Pipeline.arrRef spec2 w ≠ b) : W6 m ρ c (no_index (Proc.devRef .tc b)) = W5 m ρ c (Proc.devRef .tc b) := W6_of_ne m ρ c b hb
theorem keep8 (b : Ref sig .tc) (hb : ∀ w, Pipeline.arrRef spec3 w ≠ b) : W8 m ρ c (no_index (Proc.devRef .tc b)) = W7 m ρ c (Proc.devRef .tc b) := W8_of_ne m ρ c b hb
theorem keep10 (b : Ref sig .tc) (hb : ∀ w, Pipeline.arrRef spec4 w ≠ b) : W10 m ρ c (no_index (Proc.devRef .tc b)) = W9 m ρ c (Proc.devRef .tc b) := W10_of_ne m ρ c b hb
theorem keep12 (b : Ref sig .tc) (hb : ∀ w, Pipeline.arrRef spec5 w ≠ b) : W12 m ρ c (no_index (Proc.devRef .tc b)) = W11 m ρ c (Proc.devRef .tc b) := W12_of_ne m ρ c b hb

/-- Reads a boundary's contents at a buffer back through the fold: a host stretch at the buffer an operation writes is
    the operation of its operands, at any other buffer what was there; a region at a buffer that is none of its arrays
    is what was there; the listed facts say what a region leaves in its own arrays. -/
syntax "walk" "[" Lean.Parser.Tactic.simpLemma,* "]" : tactic
macro_rules
  | `(tactic| walk [$ls,*]) => `(tactic| simp (disch := decide) only [W1, W3, W5, W7, W9, W11, hostOps0, hostOps1, hostOps2, hostOps3, hostOps4, hostOps5,
      after_cons, after_nil, nullary_result', unary_result', binary_result', ternary_result', quaternary_result', reshape_result',
      nullary_result_ne', unary_result_ne', binary_result_ne', ternary_result_ne', quaternary_result_ne', reshape_result_ne',
      keep2, keep4, keep6, keep8, keep10, keep12, $ls,*])

theorem combine_congr {n fi h : Nat} {s s' : Sage.Arr n fi} {cnt cnt' : Sage.Arr n 1} {x x' : Sage.Arr n fi} {wl wl' : Sage.Arr fi h}
    {bl bl' : Sage.Arr 1 h} {wr wr' : Sage.Arr fi h} (hs : s = s') (hc : cnt = cnt') (hx : x = x') (hwl : wl = wl') (hbl : bl = bl') (hwr : wr = wr') :
    Sage.combine s cnt x wl bl wr = Sage.combine s' cnt' x' wl' bl' wr' := by
  subst hs hc hx hwl hbl hwr; rfl

theorem head_congr {n fi h : Nat} {x x' : Sage.Arr n fi} {w w' : Sage.Arr fi h} {b b' : Sage.Arr 1 h} (hx : x = x') (hw : w = w') (hb : b = b') :
    Sage.head x w b = Sage.head x' w' b' := by
  subst hx hw hb; rfl

/-! ## Layer 1 at the transaction nodes (region 0) -/

/-- The messages summed at the transaction nodes: the address features gathered along the address-to-transaction edges. -/
theorem sums0 : V1 m ρ c main_v25 = Cert.ReferenceIdeal.Read.val_main_v13 (F := Ideal) (A m ρ c main_arg0) (A m ρ c main_arg2) := by
  show W1 m ρ c (Proc.devRef .tc main_v25) = _
  walk []
  unfold Cert.ReferenceIdeal.Read.val_main_v13 Cert.ReferenceIdeal.Read.val_main_v11 Cert.ReferenceIdeal.Read.val_main_cst Cert.ReferenceIdeal.Read.val_main_v12 Cert.ReferenceIdeal.Read.val_main_v3 Cert.ReferenceIdeal.Read.val_main_v2 Cert.ReferenceIdeal.Read.val_main_v10 Cert.ReferenceIdeal.Read.val_main_v9 Cert.ReferenceIdeal.Read.val_main_v8 Cert.ReferenceIdeal.Read.val_main_v5 Cert.ReferenceIdeal.Read.val_main_v1 Cert.ReferenceIdeal.Read.val_main_v0 Cert.ReferenceIdeal.Read.val_main_v4 Cert.ReferenceIdeal.Read.val_main_c Cert.ReferenceIdeal.Read.val_main_v7 Cert.ReferenceIdeal.Read.val_main_v6 Cert.ReferenceIdeal.Read.val_main_c_0
  rfl

/-- The in-degrees of the transaction nodes. -/
theorem count0 : V1 m ρ c main_v11 = Cert.ReferenceIdeal.Read.val_main_v17 (F := Ideal) (A m ρ c main_arg2) := by
  show W1 m ρ c (Proc.devRef .tc main_v11) = _
  walk []
  unfold Cert.ReferenceIdeal.Read.val_main_v17 Cert.ReferenceIdeal.Read.val_main_v15 Cert.ReferenceIdeal.Read.val_main_cst_2 Cert.ReferenceIdeal.Read.val_main_v16 Cert.ReferenceIdeal.Read.val_main_v3 Cert.ReferenceIdeal.Read.val_main_v2 Cert.ReferenceIdeal.Read.val_main_v14 Cert.ReferenceIdeal.Read.val_main_cst_1
  rfl

theorem dest0 : V1 m ρ c main_arg1 = A m ρ c main_arg1 := by
  show W1 m ρ c (Proc.devRef .tc main_arg1) = _
  walk []

theorem left0 : V1 m ρ c main_arg4 = A m ρ c main_arg4 := by
  show W1 m ρ c (Proc.devRef .tc main_arg4) = _
  walk []

theorem bias0 : V1 m ρ c main_v26 = Cert.ReferenceIdeal.Read.val_main_v23 (F := Ideal) (A m ρ c main_arg5) := by
  show W1 m ρ c (Proc.devRef .tc main_v26) = _
  walk []
  unfold Cert.ReferenceIdeal.Read.val_main_v23
  exact Cert.LibRowCast.shapeCast_row_eq_broadcastInDim _ _ _

theorem right0 : V1 m ρ c main_arg6 = A m ρ c main_arg6 := by
  show W1 m ρ c (Proc.devRef .tc main_arg6) = _
  walk []

/-- After region 0 its result holds the reference's layer-1 transaction features. -/
theorem tx_val : W2 m ρ c (Proc.devRef .tc main_v27) = Cert.ReferenceIdeal.Read.val_main_v28 (F := Ideal) (A m ρ c main_arg0) (A m ρ c main_arg1) (A m ρ c main_arg2) (A m ρ c main_arg4) (A m ρ c main_arg5) (A m ρ c main_arg6) :=
  (W2_arr m ρ c 6).trans ((Cert.KernelIdeal.Region0.value (V1 m ρ) Cert.KernelIdeal.Payload.pay0_eq c).trans
    ((combine_congr (sums0 m ρ c) (count0 m ρ c) (dest0 m ρ c) (left0 m ρ c) (bias0 m ρ c) (right0 m ρ c)).trans
      (Cert.ReferenceIdeal.Layer.tx_eq (A m ρ c main_arg0) (A m ρ c main_arg1) (A m ρ c main_arg2) (A m ρ c main_arg4) (A m ρ c main_arg5) (A m ρ c main_arg6)).symm))

/-- Region 0 leaves its input arrays as it found them. -/
theorem count_thru2 : W2 m ρ c (Proc.devRef .tc main_v11) = W1 m ρ c (Proc.devRef .tc main_v11) :=
  (W2_arr m ρ c 1).trans (((dat0 (V1 m ρ) c).arrAt_in 1 rfl _).trans (A_eq0 (V1 m ρ) c 1))

theorem xtx_thru2 : W2 m ρ c (Proc.devRef .tc main_arg1) = W1 m ρ c (Proc.devRef .tc main_arg1) :=
  (W2_arr m ρ c 2).trans (((dat0 (V1 m ρ) c).arrAt_in 2 rfl _).trans (A_eq0 (V1 m ρ) c 2))

/-! ## Layer 1 at the address nodes (region 1) -/

/-- The messages summed at the address nodes: the transaction features gathered along the transaction-to-address edges. -/
theorem sums1 : V3 m ρ c main_v37 = Cert.ReferenceIdeal.Read.val_main_v42 (F := Ideal) (A m ρ c main_arg1) (A m ρ c main_arg3) := by
  show W3 m ρ c (Proc.devRef .tc main_v37) = _
  walk [xtx_thru2 m ρ c]
  unfold Cert.ReferenceIdeal.Read.val_main_v42 Cert.ReferenceIdeal.Read.val_main_v40 Cert.ReferenceIdeal.Read.val_main_cst_6 Cert.ReferenceIdeal.Read.val_main_v41 Cert.ReferenceIdeal.Read.val_main_v32 Cert.ReferenceIdeal.Read.val_main_v31 Cert.ReferenceIdeal.Read.val_main_v39 Cert.ReferenceIdeal.Read.val_main_v38 Cert.ReferenceIdeal.Read.val_main_v37 Cert.ReferenceIdeal.Read.val_main_v34 Cert.ReferenceIdeal.Read.val_main_v30 Cert.ReferenceIdeal.Read.val_main_v29 Cert.ReferenceIdeal.Read.val_main_v33 Cert.ReferenceIdeal.Read.val_main_c_4 Cert.ReferenceIdeal.Read.val_main_v36 Cert.ReferenceIdeal.Read.val_main_v35 Cert.ReferenceIdeal.Read.val_main_c_5
  rfl

/-- The in-degrees of the address nodes. -/
theorem count1 : V3 m ρ c main_v15 = Cert.ReferenceIdeal.Read.val_main_v46 (F := Ideal) (A m ρ c main_arg3) := by
  show W3 m ρ c (Proc.devRef .tc main_v15) = _
  walk []
  unfold Cert.ReferenceIdeal.Read.val_main_v46 Cert.ReferenceIdeal.Read.val_main_v44 Cert.ReferenceIdeal.Read.val_main_cst_8 Cert.ReferenceIdeal.Read.val_main_v45 Cert.ReferenceIdeal.Read.val_main_v32 Cert.ReferenceIdeal.Read.val_main_v31 Cert.ReferenceIdeal.Read.val_main_v43 Cert.ReferenceIdeal.Read.val_main_cst_7
  rfl

theorem dest1 : V3 m ρ c main_arg0 = A m ρ c main_arg0 := by
  show W3 m ρ c (Proc.devRef .tc main_arg0) = _
  walk []

theorem left1 : V3 m ρ c main_arg7 = A m ρ c main_arg7 := by
  show W3 m ρ c (Proc.devRef .tc main_arg7) = _
  walk []

theorem bias1 : V3 m ρ c main_v38 = Cert.ReferenceIdeal.Read.val_main_v52 (F := Ideal) (A m ρ c main_arg8) := by
  show W3 m ρ c (Proc.devRef .tc main_v38) = _
  walk []
  unfold Cert.ReferenceIdeal.Read.val_main_v52
  exact Cert.LibRowCast.shapeCast_row_eq_broadcastInDim _ _ _

theorem right1 : V3 m ρ c main_arg9 = A m ρ c main_arg9 := by
  show W3 m ρ c (Proc.devRef .tc main_arg9) = _
  walk []

/-- After region 1 its result holds the reference's layer-1 address features. -/
theorem ad_val : W4 m ρ c (Proc.devRef .tc main_v39) = Cert.ReferenceIdeal.Read.val_main_v57 (F := Ideal) (A m ρ c main_arg0) (A m ρ c main_arg1) (A m ρ c main_arg3) (A m ρ c main_arg7) (A m ρ c main_arg8) (A m ρ c main_arg9) :=
  (W4_arr m ρ c 6).trans ((Cert.KernelIdeal.Region1.value (V3 m ρ) Cert.KernelIdeal.Payload.pay1_eq c).trans
    ((combine_congr (sums1 m ρ c) (count1 m ρ c) (dest1 m ρ c) (left1 m ρ c) (bias1 m ρ c) (right1 m ρ c)).trans
      (Cert.ReferenceIdeal.Layer.ad_eq (A m ρ c main_arg0) (A m ρ c main_arg1) (A m ρ c main_arg3) (A m ρ c main_arg7) (A m ρ c main_arg8) (A m ρ c main_arg9)).symm))

theorem count_thru4 : W4 m ρ c (Proc.devRef .tc main_v15) = W3 m ρ c (Proc.devRef .tc main_v15) :=
  (W4_arr m ρ c 1).trans (((dat1 (V3 m ρ) c).arrAt_in 1 rfl _).trans (A_eq1 (V3 m ρ) c 1))

/-! ## Layer 2 at the transaction nodes (region 2) -/

/-- Layer 1's address features gathered along the address-to-transaction edges and summed. -/
theorem sums2 : V5 m ρ c main_v49 = Cert.ReferenceIdeal.Read.val_main_v71 (F := Ideal) (A m ρ c main_arg0) (A m ρ c main_arg1) (A m ρ c main_arg2) (A m ρ c main_arg3) (A m ρ c main_arg7) (A m ρ c main_arg8) (A m ρ c main_arg9) := by
  show W5 m ρ c (Proc.devRef .tc main_v49) = _
  walk [ad_val m ρ c]
  unfold Cert.ReferenceIdeal.Read.val_main_v71 Cert.ReferenceIdeal.Read.val_main_v69 Cert.ReferenceIdeal.Read.val_main_cst_12 Cert.ReferenceIdeal.Read.val_main_v70 Cert.ReferenceIdeal.Read.val_main_v61 Cert.ReferenceIdeal.Read.val_main_v60 Cert.ReferenceIdeal.Read.val_main_v68 Cert.ReferenceIdeal.Read.val_main_v67 Cert.ReferenceIdeal.Read.val_main_v66 Cert.ReferenceIdeal.Read.val_main_v63 Cert.ReferenceIdeal.Read.val_main_v59 Cert.ReferenceIdeal.Read.val_main_v58 Cert.ReferenceIdeal.Read.val_main_v62 Cert.ReferenceIdeal.Read.val_main_c_10 Cert.ReferenceIdeal.Read.val_main_v65 Cert.ReferenceIdeal.Read.val_main_v64 Cert.ReferenceIdeal.Read.val_main_c_11
  rfl

/-- The in-degrees of the transaction nodes, computed once and read again. -/
theorem count2 : V5 m ρ c main_v11 = Cert.ReferenceIdeal.Read.val_main_v75 (F := Ideal) (A m ρ c main_arg2) := by
  show W5 m ρ c (Proc.devRef .tc main_v11) = _
  walk [count_thru2 m ρ c]
  unfold Cert.ReferenceIdeal.Read.val_main_v75 Cert.ReferenceIdeal.Read.val_main_v73 Cert.ReferenceIdeal.Read.val_main_cst_14 Cert.ReferenceIdeal.Read.val_main_v74 Cert.ReferenceIdeal.Read.val_main_v61 Cert.ReferenceIdeal.Read.val_main_v60 Cert.ReferenceIdeal.Read.val_main_v72 Cert.ReferenceIdeal.Read.val_main_cst_13
  rfl

/-- Layer 1's transaction features, carried to region 2's entry. -/
theorem dest2 : V5 m ρ c main_v27 = Cert.ReferenceIdeal.Read.val_main_v28 (F := Ideal) (A m ρ c main_arg0) (A m ρ c main_arg1) (A m ρ c main_arg2) (A m ρ c main_arg4) (A m ρ c main_arg5) (A m ρ c main_arg6) := by
  show W5 m ρ c (Proc.devRef .tc main_v27) = _
  walk [tx_val m ρ c]

theorem left2 : V5 m ρ c main_arg10 = A m ρ c main_arg10 := by
  show W5 m ρ c (Proc.devRef .tc main_arg10) = _
  walk []

theorem bias2 : V5 m ρ c main_v50 = Cert.ReferenceIdeal.Read.val_main_v81 (F := Ideal) (A m ρ c main_arg11) := by
  show W5 m ρ c (Proc.devRef .tc main_v50) = _
  walk []
  unfold Cert.ReferenceIdeal.Read.val_main_v81
  exact Cert.LibRowCast.shapeCast_row_eq_broadcastInDim _ _ _

theorem right2 : V5 m ρ c main_arg12 = A m ρ c main_arg12 := by
  show W5 m ρ c (Proc.devRef .tc main_arg12) = _
  walk []

/-- After region 2 its result holds the reference's layer-2 transaction features. -/
theorem tx2_val : W6 m ρ c (Proc.devRef .tc main_v51) = Cert.ReferenceIdeal.Read.val_main_v86 (F := Ideal) (A m ρ c main_arg0) (A m ρ c main_arg1) (A m ρ c main_arg2) (A m ρ c main_arg3) (A m ρ c main_arg4) (A m ρ c main_arg5) (A m ρ c main_arg6) (A m ρ c main_arg7) (A m ρ c main_arg8) (A m ρ c main_arg9) (A m ρ c main_arg10) (A m ρ c main_arg11) (A m ρ c main_arg12) :=
  (W6_arr m ρ c 6).trans ((Cert.KernelIdeal.Region2.value (V5 m ρ) Cert.KernelIdeal.Payload.pay2_eq c).trans
    ((combine_congr (sums2 m ρ c) (count2 m ρ c) (dest2 m ρ c) (left2 m ρ c) (bias2 m ρ c) (right2 m ρ c)).trans
      (Cert.ReferenceIdeal.Layer.tx2_eq (A m ρ c main_arg0) (A m ρ c main_arg1) (A m ρ c main_arg2) (A m ρ c main_arg3) (A m ρ c main_arg4) (A m ρ c main_arg5) (A m ρ c main_arg6) (A m ρ c main_arg7) (A m ρ c main_arg8) (A m ρ c main_arg9) (A m ρ c main_arg10) (A m ρ c main_arg11) (A m ρ c main_arg12)).symm))

theorem tx_thru6 : W6 m ρ c (Proc.devRef .tc main_v27) = W5 m ρ c (Proc.devRef .tc main_v27) :=
  (W6_arr m ρ c 2).trans (((dat2 (V5 m ρ) c).arrAt_in 2 rfl _).trans (A_eq2 (V5 m ρ) c 2))

/-! ## Layer 2 at the address nodes (region 3) -/

/-- Layer 1's transaction features gathered along the transaction-to-address edges and summed. -/
theorem sums3 : V7 m ρ c main_v61 = Cert.ReferenceIdeal.Read.val_main_v100 (F := Ideal) (A m ρ c main_arg0) (A m ρ c main_arg1) (A m ρ c main_arg2) (A m ρ c main_arg3) (A m ρ c main_arg4) (A m ρ c main_arg5) (A m ρ c main_arg6) := by
  show W7 m ρ c (Proc.devRef .tc main_v61) = _
  walk [tx_thru6 m ρ c, tx_val m ρ c]
  unfold Cert.ReferenceIdeal.Read.val_main_v100 Cert.ReferenceIdeal.Read.val_main_v98 Cert.ReferenceIdeal.Read.val_main_cst_18 Cert.ReferenceIdeal.Read.val_main_v99 Cert.ReferenceIdeal.Read.val_main_v90 Cert.ReferenceIdeal.Read.val_main_v89 Cert.ReferenceIdeal.Read.val_main_v97 Cert.ReferenceIdeal.Read.val_main_v96 Cert.ReferenceIdeal.Read.val_main_v95 Cert.ReferenceIdeal.Read.val_main_v92 Cert.ReferenceIdeal.Read.val_main_v88 Cert.ReferenceIdeal.Read.val_main_v87 Cert.ReferenceIdeal.Read.val_main_v91 Cert.ReferenceIdeal.Read.val_main_c_16 Cert.ReferenceIdeal.Read.val_main_v94 Cert.ReferenceIdeal.Read.val_main_v93 Cert.ReferenceIdeal.Read.val_main_c_17
  rfl

/-- The in-degrees of the address nodes, read again. -/
theorem count3 : V7 m ρ c main_v15 = Cert.ReferenceIdeal.Read.val_main_v104 (F := Ideal) (A m ρ c main_arg3) := by
  show W7 m ρ c (Proc.devRef .tc main_v15) = _
  walk [count_thru4 m ρ c]
  unfold Cert.ReferenceIdeal.Read.val_main_v104 Cert.ReferenceIdeal.Read.val_main_v102 Cert.ReferenceIdeal.Read.val_main_cst_20 Cert.ReferenceIdeal.Read.val_main_v103 Cert.ReferenceIdeal.Read.val_main_v90 Cert.ReferenceIdeal.Read.val_main_v89 Cert.ReferenceIdeal.Read.val_main_v101 Cert.ReferenceIdeal.Read.val_main_cst_19
  rfl

/-- Layer 1's address features, carried to region 3's entry. -/
theorem dest3 : V7 m ρ c main_v39 = Cert.ReferenceIdeal.Read.val_main_v57 (F := Ideal) (A m ρ c main_arg0) (A m ρ c main_arg1) (A m ρ c main_arg3) (A m ρ c main_arg7) (A m ρ c main_arg8) (A m ρ c main_arg9) := by
  show W7 m ρ c (Proc.devRef .tc main_v39) = _
  walk [ad_val m ρ c]

theorem left3 : V7 m ρ c main_arg13 = A m ρ c main_arg13 := by
  show W7 m ρ c (Proc.devRef .tc main_arg13) = _
  walk []

theorem bias3 : V7 m ρ c main_v62 = Cert.ReferenceIdeal.Read.val_main_v110 (F := Ideal) (A m ρ c main_arg14) := by
  show W7 m ρ c (Proc.devRef .tc main_v62) = _
  walk []
  unfold Cert.ReferenceIdeal.Read.val_main_v110
  exact Cert.LibRowCast.shapeCast_row_eq_broadcastInDim _ _ _

theorem right3 : V7 m ρ c main_arg15 = A m ρ c main_arg15 := by
  show W7 m ρ c (Proc.devRef .tc main_arg15) = _
  walk []

/-- After region 3 its result holds the reference's layer-2 address features. -/
theorem ad2_val : W8 m ρ c (Proc.devRef .tc main_v63) = Cert.ReferenceIdeal.Read.val_main_v115 (F := Ideal) (A m ρ c main_arg0) (A m ρ c main_arg1) (A m ρ c main_arg2) (A m ρ c main_arg3) (A m ρ c main_arg4) (A m ρ c main_arg5) (A m ρ c main_arg6) (A m ρ c main_arg7) (A m ρ c main_arg8) (A m ρ c main_arg9) (A m ρ c main_arg13) (A m ρ c main_arg14) (A m ρ c main_arg15) :=
  (W8_arr m ρ c 6).trans ((Cert.KernelIdeal.Region3.value (V7 m ρ) Cert.KernelIdeal.Payload.pay3_eq c).trans
    ((combine_congr (sums3 m ρ c) (count3 m ρ c) (dest3 m ρ c) (left3 m ρ c) (bias3 m ρ c) (right3 m ρ c)).trans
      (Cert.ReferenceIdeal.Layer.ad2_eq (A m ρ c main_arg0) (A m ρ c main_arg1) (A m ρ c main_arg2) (A m ρ c main_arg3) (A m ρ c main_arg4) (A m ρ c main_arg5) (A m ρ c main_arg6) (A m ρ c main_arg7) (A m ρ c main_arg8) (A m ρ c main_arg9) (A m ρ c main_arg13) (A m ρ c main_arg14) (A m ρ c main_arg15)).symm))

theorem count_thru8 : W8 m ρ c (Proc.devRef .tc main_v15) = W7 m ρ c (Proc.devRef .tc main_v15) :=
  (W8_arr m ρ c 1).trans (((dat3 (V7 m ρ) c).arrAt_in 1 rfl _).trans (A_eq3 (V7 m ρ) c 1))

/-! ## Layer 3 at the address nodes (region 4) -/

/-- Layer 2's transaction features gathered along the transaction-to-address edges and summed. -/
theorem sums4 : V9 m ρ c main_v73 = Cert.ReferenceIdeal.Read.val_main_v129 (F := Ideal) (A m ρ c main_arg0) (A m ρ c main_arg1) (A m ρ c main_arg2) (A m ρ c main_arg3) (A m ρ c main_arg4) (A m ρ c main_arg5) (A m ρ c main_arg6) (A m ρ c main_arg7) (A m ρ c main_arg8) (A m ρ c main_arg9) (A m ρ c main_arg10) (A m ρ c main_arg11) (A m ρ c main_arg12) := by
  show W9 m ρ c (Proc.devRef .tc main_v73) = _
  walk [tx2_val m ρ c]
  unfold Cert.ReferenceIdeal.Read.val_main_v129 Cert.ReferenceIdeal.Read.val_main_v127 Cert.ReferenceIdeal.Read.val_main_cst_24 Cert.ReferenceIdeal.Read.val_main_v128 Cert.ReferenceIdeal.Read.val_main_v119 Cert.ReferenceIdeal.Read.val_main_v118 Cert.ReferenceIdeal.Read.val_main_v126 Cert.ReferenceIdeal.Read.val_main_v125 Cert.ReferenceIdeal.Read.val_main_v124 Cert.ReferenceIdeal.Read.val_main_v121 Cert.ReferenceIdeal.Read.val_main_v117 Cert.ReferenceIdeal.Read.val_main_v116 Cert.ReferenceIdeal.Read.val_main_v120 Cert.ReferenceIdeal.Read.val_main_c_22 Cert.ReferenceIdeal.Read.val_main_v123 Cert.ReferenceIdeal.Read.val_main_v122 Cert.ReferenceIdeal.Read.val_main_c_23
  rfl

/-- The in-degrees of the address nodes, read a third time. -/
theorem count4 : V9 m ρ c main_v15 = Cert.ReferenceIdeal.Read.val_main_v133 (F := Ideal) (A m ρ c main_arg3) := by
  show W9 m ρ c (Proc.devRef .tc main_v15) = _
  walk [count_thru8 m ρ c, count_thru4 m ρ c]
  unfold Cert.ReferenceIdeal.Read.val_main_v133 Cert.ReferenceIdeal.Read.val_main_v131 Cert.ReferenceIdeal.Read.val_main_cst_26 Cert.ReferenceIdeal.Read.val_main_v132 Cert.ReferenceIdeal.Read.val_main_v119 Cert.ReferenceIdeal.Read.val_main_v118 Cert.ReferenceIdeal.Read.val_main_v130 Cert.ReferenceIdeal.Read.val_main_cst_25
  rfl

/-- Layer 2's address features at region 4's entry. -/
theorem dest4 : V9 m ρ c main_v63 = Cert.ReferenceIdeal.Read.val_main_v115 (F := Ideal) (A m ρ c main_arg0) (A m ρ c main_arg1) (A m ρ c main_arg2) (A m ρ c main_arg3) (A m ρ c main_arg4) (A m ρ c main_arg5) (A m ρ c main_arg6) (A m ρ c main_arg7) (A m ρ c main_arg8) (A m ρ c main_arg9) (A m ρ c main_arg13) (A m ρ c main_arg14) (A m ρ c main_arg15) := by
  show W9 m ρ c (Proc.devRef .tc main_v63) = _
  walk [ad2_val m ρ c]

theorem left4 : V9 m ρ c main_arg19 = A m ρ c main_arg19 := by
  show W9 m ρ c (Proc.devRef .tc main_arg19) = _
  walk []

theorem bias4 : V9 m ρ c main_v74 = Cert.ReferenceIdeal.Read.val_main_v139 (F := Ideal) (A m ρ c main_arg20) := by
  show W9 m ρ c (Proc.devRef .tc main_v74) = _
  walk []
  unfold Cert.ReferenceIdeal.Read.val_main_v139
  exact Cert.LibRowCast.shapeCast_row_eq_broadcastInDim _ _ _

theorem right4 : V9 m ρ c main_arg21 = A m ρ c main_arg21 := by
  show W9 m ρ c (Proc.devRef .tc main_arg21) = _
  walk []

/-- After region 4 its result holds the reference's layer-3 address features. -/
theorem ad3_val : W10 m ρ c (Proc.devRef .tc main_v75) = Cert.ReferenceIdeal.Read.val_main_v144 (F := Ideal) (A m ρ c main_arg0) (A m ρ c main_arg1) (A m ρ c main_arg2) (A m ρ c main_arg3) (A m ρ c main_arg4) (A m ρ c main_arg5) (A m ρ c main_arg6) (A m ρ c main_arg7) (A m ρ c main_arg8) (A m ρ c main_arg9) (A m ρ c main_arg10) (A m ρ c main_arg11) (A m ρ c main_arg12) (A m ρ c main_arg13) (A m ρ c main_arg14) (A m ρ c main_arg15) (A m ρ c main_arg19) (A m ρ c main_arg20) (A m ρ c main_arg21) :=
  (W10_arr m ρ c 6).trans ((Cert.KernelIdeal.Region4.value (V9 m ρ) Cert.KernelIdeal.Payload.pay4_eq c).trans
    ((combine_congr (sums4 m ρ c) (count4 m ρ c) (dest4 m ρ c) (left4 m ρ c) (bias4 m ρ c) (right4 m ρ c)).trans
      (Cert.ReferenceIdeal.Layer.ad3_eq (A m ρ c main_arg0) (A m ρ c main_arg1) (A m ρ c main_arg2) (A m ρ c main_arg3) (A m ρ c main_arg4) (A m ρ c main_arg5) (A m ρ c main_arg6) (A m ρ c main_arg7) (A m ρ c main_arg8) (A m ρ c main_arg9) (A m ρ c main_arg10) (A m ρ c main_arg11) (A m ρ c main_arg12) (A m ρ c main_arg13) (A m ρ c main_arg14) (A m ρ c main_arg15) (A m ρ c main_arg19) (A m ρ c main_arg20) (A m ρ c main_arg21)).symm))

/-! ## The classifier head (region 5) -/

/-- Layer 3's address features at region 5's entry. -/
theorem feats5 : V11 m ρ c main_v75 = Cert.ReferenceIdeal.Read.val_main_v144 (F := Ideal) (A m ρ c main_arg0) (A m ρ c main_arg1) (A m ρ c main_arg2) (A m ρ c main_arg3) (A m ρ c main_arg4) (A m ρ c main_arg5) (A m ρ c main_arg6) (A m ρ c main_arg7) (A m ρ c main_arg8) (A m ρ c main_arg9) (A m ρ c main_arg10) (A m ρ c main_arg11) (A m ρ c main_arg12) (A m ρ c main_arg13) (A m ρ c main_arg14) (A m ρ c main_arg15) (A m ρ c main_arg19) (A m ρ c main_arg20) (A m ρ c main_arg21) := by
  show W11 m ρ c (Proc.devRef .tc main_v75) = _
  walk [ad3_val m ρ c]

theorem weight5 : V11 m ρ c main_arg22 = A m ρ c main_arg22 := by
  show W11 m ρ c (Proc.devRef .tc main_arg22) = _
  walk []

theorem bias5 : V11 m ρ c main_v76 = Cert.ReferenceIdeal.Read.val_main_v146 (F := Ideal) (A m ρ c main_arg23) := by
  show W11 m ρ c (Proc.devRef .tc main_v76) = _
  walk []
  unfold Cert.ReferenceIdeal.Read.val_main_v146
  exact Cert.LibRowCast.shapeCast_row_eq_broadcastInDim _ _ _

/-- THE RESULT: after region 5 the result buffer holds the reference's result stage of the same arguments. -/
theorem out_val : W12 m ρ c (Proc.devRef .tc main_v77) = Cert.ReferenceIdeal.Read.val_main_v148 (F := Ideal) (A m ρ c main_arg0) (A m ρ c main_arg1) (A m ρ c main_arg2) (A m ρ c main_arg3) (A m ρ c main_arg4) (A m ρ c main_arg5) (A m ρ c main_arg6) (A m ρ c main_arg7) (A m ρ c main_arg8) (A m ρ c main_arg9) (A m ρ c main_arg10) (A m ρ c main_arg11) (A m ρ c main_arg12) (A m ρ c main_arg13) (A m ρ c main_arg14) (A m ρ c main_arg15) (A m ρ c main_arg19) (A m ρ c main_arg20) (A m ρ c main_arg21) (A m ρ c main_arg22) (A m ρ c main_arg23) :=
  (W12_arr m ρ c 3).trans ((Cert.KernelIdeal.Region5.value (V11 m ρ) Cert.KernelIdeal.Payload.pay5_eq c).trans
    ((head_congr (feats5 m ρ c) (weight5 m ρ c) (bias5 m ρ c)).trans
      (Cert.ReferenceIdeal.Layer.out_eq (A m ρ c main_arg0) (A m ρ c main_arg1) (A m ρ c main_arg2) (A m ρ c main_arg3) (A m ρ c main_arg4) (A m ρ c main_arg5) (A m ρ c main_arg6) (A m ρ c main_arg7) (A m ρ c main_arg8) (A m ρ c main_arg9) (A m ρ c main_arg10) (A m ρ c main_arg11) (A m ρ c main_arg12) (A m ρ c main_arg13) (A m ρ c main_arg14) (A m ρ c main_arg15) (A m ρ c main_arg19) (A m ρ c main_arg20) (A m ρ c main_arg21) (A m ρ c main_arg22) (A m ρ c main_arg23)).symm))

end Cert.KernelIdeal.Walk

end
-- ==== Proof.lean ====
/-
  The certificate of the heterogeneous three-layer SAGE network with a linear head: the kernel computes every
  layer's "divide the summed messages by max(in-degree, 1), two small matrix products, a bias, a relu" and the head
  in six pipelined kernel regions over blocks of 20000 rows, and leaves the gathers and scatter-adds along the edges
  to the host; the reference computes everything with host operations.

  Over the extended reals the two agree entry by entry, with no condition on the inputs beyond the stated one:
  * a region's stored value is the layer of its staged blocks (Proof/KernelPayload.lean), a layer's entry depends on
    one row of the row-indexed operands, and the twenty blocks tile the rows, so each region leaves the layer of the
    whole arrays it found (Proof/Region0.lean … Region5.lean);
  * the reference's host operations for a layer, read at an entry, are the same layer (Proof/RefLayer.lean): a
    product into a zero accumulator and the host's product are both the plain sum over the contracted axis, a
    column or a row laid over an array reads one entry, and the additions are made in the same order on both sides,
    so no law of the extended reals beyond that is used and finiteness is never needed;
  * the host stretches of the kernel's program are the reference's own gathers and scatter-adds of the same
    arguments, so the buffer contents at the twelve boundaries of @main are, stage by stage, the reference's stage
    functions (Proof/KernelValue.lean).
  The three frames are the generated ones (the reference's is its run with the result dropped), and the ideal pass
  rewrote nothing, so there is nothing to preserve.
-/
import proofs.«426061_j5686536699973_1_alg».proof.Defs
import proofs.«426061_j5686536699973_1_alg».proof.Proof.Gen.Kernel
import proofs.«426061_j5686536699973_1_alg».proof.Proof.Gen.Kernel.Frame
import proofs.«426061_j5686536699973_1_alg».proof.Proof.Gen.KernelIdeal
import proofs.«426061_j5686536699973_1_alg».proof.Proof.Gen.KernelIdeal.Frame
import proofs.«426061_j5686536699973_1_alg».proof.Proof.Gen.ReferenceIdeal
import proofs.«426061_j5686536699973_1_alg».proof.Proof.Gen.ReferenceIdeal.Run
import proofs.«426061_j5686536699973_1_alg».proof.Proof.Gen.ReferenceIdeal.Read
import proofs.«426061_j5686536699973_1_alg».proof.Proof.Gen.Pre_finite_inputs
import proofs.«426061_j5686536699973_1_alg».proof.Proof.KernelRun
import proofs.«426061_j5686536699973_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's run, its result buffer at the reference's last stage function of the kernel's own arguments: the run
    names the result at the last boundary's contents, which is that stage function. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v77)
        = Cert.ReferenceIdeal.Read.val_main_v148 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)) :=
  (θ_run Cert.KernelIdeal.defs _ _).mono
    (fun r h c => ⟨(h c).1.trans (Cert.KernelIdeal.Walk.out_val m ρ c), (h c).2⟩)
    (Cert.KernelIdeal.Named.run_named (F := Ideal) m ρ)

/-- The last stage function at arguments that agree. -/
theorem stage_congr (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.Read.val_main_v148 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))
      = Cert.ReferenceIdeal.Read.val_main_v148 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) := by
  rw [h0, h1, h2, h3, h4, h5, h6, h7, h8, h9, h10, h11, h12, h13, h14, h15, h19, h20, h21, h22, h23]

/-- Both programs end with the result at the reference's last stage function of the (agreeing) arguments: the
    kernel by `kernel_run`; the reference's run states its result as the composed term, which is that stage function
    by definition. -/
theorem algebraic : Cert.algebraic_KernelIdeal_ReferenceIdeal := by
  intro m ρ m' ρ' _ hagree
  refine ⟨fun c => Cert.ReferenceIdeal.Read.val_main_v148 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), kernel_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23⟩ := hagree c
  exact (Cert.ReferenceIdeal.Read.val_main_v148_eq m' c).trans (stage_congr m m' c h0 h1 h2 h3 h4 h5 h6 h7 h8 h9 h10 h11 h12 h13 h14 h15 h19 h20 h21 h22 h23)
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
